-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x5 : Shape := ⟨2, ![500000, 5]⟩
abbrev S519x256 : Shape := ⟨2, ![519, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x5 : S_.BroadcastsInDim S500000x5 (![] : Fin 0 → Fin S500000x5.rank)
  reducesTo_S500000x5_S_d0_1 : S500000x5.ReducesTo [0, 1] S_
  bcast_S_S519x256 : S_.BroadcastsInDim S519x256 (![] : Fin 0 → Fin S519x256.rank)
  reducesTo_S519x256_S_d0_1 : S519x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_
  bcast_S_S2x500000 : S_.BroadcastsInDim S2x500000 (![] : Fin 0 → Fin S2x500000.rank)
  reducesTo_S2x500000_S_d0_1 : S2x500000.ReducesTo [0, 1] S_

variable [Facts]

def fn_part2 {F : FTy → Type} [FloatOps F] (main_v28 : IVec S_ 1) (main_v33 : IVec S2x500000 1) : IVec S_ 1 :=
  let main_c_12 : IVec S_ 1 := constantI S_ 1 1#1
  let main_v34 : IVec S_ 1 := (fun x v => Host.reduce IntOp.andi x v reducesTo_S2x500000_S_d0_1 h_S_) main_v33 main_c_12
  let main_v35 : IVec S_ 1 := andi main_v28 main_v34
  main_v35

def fn_part1 {F : FTy → Type} [FloatOps F] (main_arg1 : IVec S2x500000 32) (main_arg5 : FVec F S256x2 .f32) (main_arg6 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg5
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 0#32
  let main_v29 : IVec S2x500000 32 := broadcastInDim S2x500000 ![] bcast_S_S2x500000 main_c_10
  let main_v30 : IVec S2x500000 1 := cmpi .sge main_arg1 main_v29
  let main_c_11 : IVec S_ 32 := constantI S_ 32 100000#32
  let main_v31 : IVec S2x500000 32 := broadcastInDim S2x500000 ![] bcast_S_S2x500000 main_c_11
  let main_v32 : IVec S2x500000 1 := cmpi .slt main_arg1 main_v31
  let main_v33 : IVec S2x500000 1 := andi main_v30 main_v32
  fn_part2 (F := F) main_v28 main_v33

def fn {F : FTy → Type} [FloatOps F] (main_arg0 : FVec F S100000x128 .f32) (main_arg1 : IVec S2x500000 32) (main_arg2 : FVec F S500000x5 .f32) (main_arg3 : FVec F S519x256 .f32) (main_arg4 : FVec F S256 .f32) (main_arg5 : FVec F S256x2 .f32) (main_arg6 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x5 .f32 := Host.absf main_arg2
  let main_cst_0 : FVec F S_ .f32 := constant S_ .f32 0x7F800000#32
  let main_v5 : FVec F S500000x5 .f32 := broadcastInDim S500000x5 ![] bcast_S_S500000x5 main_cst_0
  let main_v6 : IVec S500000x5 1 := cmpf .olt main_v4 main_v5
  let main_c_1 : IVec S_ 1 := constantI S_ 1 1#1
  let main_v7 : IVec S_ 1 := (fun x v => Host.reduce IntOp.andi x v reducesTo_S500000x5_S_d0_1 h_S_) main_v6 main_c_1
  let main_v8 : IVec S_ 1 := andi main_v3 main_v7
  let main_v9 : FVec F S519x256 .f32 := Host.absf main_arg3
  let main_cst_2 : FVec F S_ .f32 := constant S_ .f32 0x7F800000#32
  let main_v10 : FVec F S519x256 .f32 := broadcastInDim S519x256 ![] bcast_S_S519x256 main_cst_2
  let main_v11 : IVec S519x256 1 := cmpf .olt main_v9 main_v10
  let main_c_3 : IVec S_ 1 := constantI S_ 1 1#1
  let main_v12 : IVec S_ 1 := (fun x v => Host.reduce IntOp.andi x v reducesTo_S519x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_v13 main_v16
-- ==== Kernel.lean ====
abbrev S100000x128 : Shape := ⟨2, ![100000, 128]⟩
abbrev S2x500000 : Shape := ⟨2, ![2, 500000]⟩
abbrev S500000x5 : Shape := ⟨2, ![500000, 5]⟩
abbrev S519x256 : Shape := ⟨2, ![519, 256]⟩
abbrev S256 : Shape := ⟨1, ![256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S500736 : Shape := ⟨1, ![500736]⟩
abbrev S500736x5 : Shape := ⟨2, ![500736, 5]⟩
abbrev S500736x1 : Shape := ⟨2, ![500736, 1]⟩
abbrev S1 : Shape := ⟨1, ![1]⟩
abbrev S1x1 : Shape := ⟨2, ![1, 1]⟩
abbrev S500736x128 : Shape := ⟨2, ![500736, 128]⟩
abbrev S640x256 : Shape := ⟨2, ![640, 256]⟩
abbrev S1x256 : Shape := ⟨2, ![1, 256]⟩
abbrev S1x2 : Shape := ⟨2, ![1, 2]⟩
abbrev S500736x2 : Shape := ⟨2, ![500736, 2]⟩
abbrev S1024x128 : Shape := ⟨2, ![1024, 128]⟩
abbrev S1024x5 : Shape := ⟨2, ![1024, 5]⟩
abbrev S1024x2 : Shape := ⟨2, ![1024, 2]⟩
abbrev S1024 : Shape := ⟨1, ![1024]⟩
abbrev S1024x1 : Shape := ⟨2, ![1024, 1]⟩
abbrev S1024x121 : Shape := ⟨2, ![1024, 121]⟩
abbrev S1024x640 : Shape := ⟨2, ![1024, 640]⟩
abbrev S1024x256 : Shape := ⟨2, ![1024, 256]⟩
abbrev S500000x2 : Shape := ⟨2, ![500000, 2]⟩

abbrev nBuf : Space → Nat
  | .hbm => 91
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x5, .f32⟩
  | .hbm, ⟨3, _⟩ => ⟨S519x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S1x500000, .i32⟩
  | .hbm, ⟨8, _⟩ => ⟨S500000, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S1x500000, .i32⟩
  | .hbm, ⟨18, _⟩ => ⟨S500000, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S500000, .i32⟩
  | .hbm, ⟨23, _⟩ => ⟨S500000, .i32⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S_, .i32⟩
  | .hbm, ⟨28, _⟩ => ⟨S_, .i32⟩
  | .hbm, ⟨29, _⟩ => ⟨S500736, .i32⟩
  | .hbm, ⟨30, _⟩ => ⟨S_, .i32⟩
  | .hbm, ⟨31, _⟩ => ⟨S_, .i32⟩
  | .hbm, ⟨32, _⟩ => ⟨S500736, .i32⟩
  | .hbm, ⟨33, _⟩ => ⟨S_, .i32⟩
  | .hbm, ⟨34, _⟩ => ⟨S_, .f32⟩
  | .hbm, ⟨35, _⟩ => ⟨S500736x5, .f32⟩
  | .hbm, ⟨36, _⟩ => ⟨S_, .i32⟩
  | .hbm, ⟨37, _⟩ => ⟨S500736, .i32⟩
  | .hbm, ⟨38, _⟩ => ⟨S500736, .i1⟩
  | .hbm, ⟨39, _⟩ => ⟨S_, .i32⟩
  | .hbm, ⟨40, _⟩ => ⟨S500736, .i32⟩
  | .hbm, ⟨41, _⟩ => ⟨S500736, .i32⟩
  | .hbm, ⟨42, _⟩ => ⟨S500736, .i32⟩
  | .hbm, ⟨43, _⟩ => ⟨S500736x1, .i32⟩
  | .hbm, ⟨44, _⟩ => ⟨S1, .i32⟩
  | .hbm, ⟨45, _⟩ => ⟨S_, .i32⟩
  | .hbm, ⟨46, _⟩ => ⟨S500736x1, .i32⟩
  | .hbm, ⟨47, _⟩ => ⟨S500736x1, .i1⟩
  | .hbm, ⟨48, _⟩ => ⟨S1x1, .i32⟩
  | .hbm, ⟨49, _⟩ => ⟨S500736x1, .i32⟩
  | .hbm, ⟨50, _⟩ => ⟨S500736x1, .i1⟩
  | .hbm, ⟨51, _⟩ => ⟨S500736x1, .i1⟩
  | .hbm, ⟨52, _⟩ => ⟨S_, .i1⟩
  | .hbm, ⟨53, _⟩ => ⟨S500736, .i1⟩
  | .hbm, ⟨54, _⟩ => ⟨S500736x128, .f32⟩
  | .hbm, ⟨55, _⟩ => ⟨S500736x128, .i1⟩
  | .hbm, ⟨56, _⟩ => ⟨S_, .f32⟩
  | .hbm, ⟨57, _⟩ => ⟨S500736x128, .f32⟩
  | .hbm, ⟨58, _⟩ => ⟨S500736x128, .f32⟩
  | .hbm, ⟨59, _⟩ => ⟨S_, .i32⟩
  | .hbm, ⟨60, _⟩ => ⟨S500736, .i32⟩
  | .hbm, ⟨61, _⟩ => ⟨S500736, .i1⟩
  | .hbm, ⟨62, _⟩ => ⟨S_, .i32⟩
  | .hbm, ⟨63, _⟩ => ⟨S500736, .i32⟩
  | .hbm, ⟨64, _⟩ => ⟨S500736, .i32⟩
  | .hbm, ⟨65, _⟩ => ⟨S500736, .i32⟩
  | .hbm, ⟨66, _⟩ => ⟨S500736x1, .i32⟩
  | .hbm, ⟨67, _⟩ => ⟨S1, .i32⟩
  | .hbm, ⟨68, _⟩ => ⟨S_, .i32⟩
  | .hbm, ⟨69, _⟩ => ⟨S500736x1, .i32⟩
  | .hbm, ⟨70, _⟩ => ⟨S500736x1, .i1⟩
  | .hbm, ⟨71, _⟩ => ⟨S1x1, .i32⟩
  | .hbm, ⟨72, _⟩ => ⟨S500736x1, .i32⟩
  | .hbm, ⟨73, _⟩ => ⟨S500736x1, .i1⟩
  | .hbm, ⟨74, _⟩ => ⟨S500736x1, .i1⟩
  | .hbm, ⟨75, _⟩ => ⟨S_, .i1⟩
  | .hbm, ⟨76, _⟩ => ⟨S500736, .i1⟩
  | .hbm, ⟨77, _⟩ => ⟨S500736x128, .f32⟩
  | .hbm, ⟨78, _⟩ => ⟨S500736x128, .i1⟩
  | .hbm, ⟨79, _⟩ => ⟨S_, .f32⟩
  | .hbm, ⟨80, _⟩ => ⟨S500736x128, .f32⟩
  | .hbm, ⟨81, _⟩ => ⟨S500736x128, .f32⟩
  | .hbm, ⟨82, _⟩ => ⟨S_, .i32⟩
  | .hbm, ⟨83, _⟩ => ⟨S_, .f32⟩
  | .hbm, ⟨84, _⟩ => ⟨S640x256, .f32⟩
  | .hbm, ⟨85, _⟩ => ⟨S640x256, .bf16⟩
  | .hbm, ⟨86, _⟩ => ⟨S256x2, .bf16⟩
  | .hbm, ⟨87, _⟩ => ⟨S1x256, .f32⟩
  | .hbm, ⟨88, _⟩ => ⟨S1x2, .f32⟩
  | .hbm, ⟨89, _⟩ => ⟨S500736x2, .f32⟩
  | .hbm, ⟨90, _⟩ => ⟨S500000x2, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x5, .f32⟩
  | .local _ .vmem, ⟨5, _⟩ => ⟨S1024x5, .f32⟩
  | .local _ .vmem, ⟨6, _⟩ => ⟨S640x256, .bf16⟩
  | .local _ .vmem, ⟨7, _⟩ => ⟨S1x256, .f32⟩
  | .local _ .vmem, ⟨8, _⟩ => ⟨S256x2, .bf16⟩
  | .local _ .vmem, ⟨9, _⟩ => ⟨S1x2, .f32⟩
  | .local _ .vmem, ⟨10, _⟩ => ⟨S1024x2, .f32⟩
  | .local _ .vmem, ⟨11, _⟩ => ⟨S1024x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_c_2 : Ref sig .tc := ⟨.hbm, 20, rfl⟩
abbrev main_call1_v0 : Ref sig .tc := ⟨.hbm, 21, rfl⟩
abbrev main_call1_v1 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_v5 : Ref sig .tc := ⟨.hbm, 26, rfl⟩
abbrev main_c_3 : Ref sig .tc := ⟨.hbm, 27, rfl⟩
abbrev main_call2_v0 : Ref sig .tc := ⟨.hbm, 28, rfl⟩
abbrev main_v6 : Ref sig .tc := ⟨.hbm, 29, rfl⟩
abbrev main_c_4 : Ref sig .tc := ⟨.hbm, 30, rfl⟩
abbrev main_call3_v0 : Ref sig .tc := ⟨.hbm, 31, rfl⟩
abbrev main_v7 : Ref sig .tc := ⟨.hbm, 32, rfl⟩
abbrev main_c_5 : Ref sig .tc := ⟨.hbm, 33, rfl⟩
abbrev main_call4_v0 : Ref sig .tc := ⟨.hbm, 34, rfl⟩
abbrev main_v8 : Ref sig .tc := ⟨.hbm, 35, rfl⟩
abbrev main_call5_c : Ref sig .tc := ⟨.hbm, 36, rfl⟩
abbrev main_call5_v0 : Ref sig .tc := ⟨.hbm, 37, rfl⟩
abbrev main_call5_v1 : Ref sig .tc := ⟨.hbm, 38, rfl⟩
abbrev main_call5_c_0 : Ref sig .tc := ⟨.hbm, 39, rfl⟩
abbrev main_call5_v2 : Ref sig .tc := ⟨.hbm, 40, rfl⟩
abbrev main_call5_v3 : Ref sig .tc := ⟨.hbm, 41, rfl⟩
abbrev main_call5_v4 : Ref sig .tc := ⟨.hbm, 42, rfl⟩
abbrev main_call5_v5 : Ref sig .tc := ⟨.hbm, 43, rfl⟩
abbrev main_call5_c_1 : Ref sig .tc := ⟨.hbm, 44, rfl⟩
abbrev main_call5_c_2 : Ref sig .tc := ⟨.hbm, 45, rfl⟩
abbrev main_call5_v6 : Ref sig .tc := ⟨.hbm, 46, rfl⟩
abbrev main_call5_v7 : Ref sig .tc := ⟨.hbm, 47, rfl⟩
abbrev main_call5_v8 : Ref sig .tc := ⟨.hbm, 48, rfl⟩
abbrev main_call5_v9 : Ref sig .tc := ⟨.hbm, 49, rfl⟩
abbrev main_call5_v10 : Ref sig .tc := ⟨.hbm, 50, rfl⟩
abbrev main_call5_v11 : Ref sig .tc := ⟨.hbm, 51, rfl⟩
abbrev main_call5_c_3 : Ref sig .tc := ⟨.hbm, 52, rfl⟩
abbrev main_call5_v12 : Ref sig .tc := ⟨.hbm, 53, rfl⟩
abbrev main_call5_v13 : Ref sig .tc := ⟨.hbm, 54, rfl⟩
abbrev main_call5_v14 : Ref sig .tc := ⟨.hbm, 55, rfl⟩
abbrev main_call5_cst : Ref sig .tc := ⟨.hbm, 56, rfl⟩
abbrev main_call5_v15 : Ref sig .tc := ⟨.hbm, 57, rfl⟩
abbrev main_v9 : Ref sig .tc := ⟨.hbm, 58, rfl⟩
abbrev main_call6_c : Ref sig .tc := ⟨.hbm, 59, rfl⟩
abbrev main_call6_v0 : Ref sig .tc := ⟨.hbm, 60, rfl⟩
abbrev main_call6_v1 : Ref sig .tc := ⟨.hbm, 61, rfl⟩
abbrev main_call6_c_0 : Ref sig .tc := ⟨.hbm, 62, rfl⟩
abbrev main_call6_v2 : Ref sig .tc := ⟨.hbm, 63, rfl⟩
abbrev main_call6_v3 : Ref sig .tc := ⟨.hbm, 64, rfl⟩
abbrev main_call6_v4 : Ref sig .tc := ⟨.hbm, 65, rfl⟩
abbrev main_call6_v5 : Ref sig .tc := ⟨.hbm, 66, rfl⟩
abbrev main_call6_c_1 : Ref sig .tc := ⟨.hbm, 67, rfl⟩
abbrev main_call6_c_2 : Ref sig .tc := ⟨.hbm, 68, rfl⟩
abbrev main_call6_v6 : Ref sig .tc := ⟨.hbm, 69, rfl⟩
abbrev main_call6_v7 : Ref sig .tc := ⟨.hbm, 70, rfl⟩
abbrev main_call6_v8 : Ref sig .tc := ⟨.hbm, 71, rfl⟩
abbrev main_call6_v9 : Ref sig .tc := ⟨.hbm, 72, rfl⟩
abbrev main_call6_v10 : Ref sig .tc := ⟨.hbm, 73, rfl⟩
abbrev main_call6_v11 : Ref sig .tc := ⟨.hbm, 74, rfl⟩
abbrev main_call6_c_3 : Ref sig .tc := ⟨.hbm, 75, rfl⟩
abbrev main_call6_v12 : Ref sig .tc := ⟨.hbm, 76, rfl⟩
abbrev main_call6_v13 : Ref sig .tc := ⟨.hbm, 77, rfl⟩
abbrev main_call6_v14 : Ref sig .tc := ⟨.hbm, 78, rfl⟩
abbrev main_call6_cst : Ref sig .tc := ⟨.hbm, 79, rfl⟩
abbrev main_call6_v15 : Ref sig .tc := ⟨.hbm, 80, rfl⟩
abbrev main_v10 : Ref sig .tc := ⟨.hbm, 81, rfl⟩
abbrev main_c_6 : Ref sig .tc := ⟨.hbm, 82, rfl⟩
abbrev main_call7_v0 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩
abbrev main_v16 : Ref sig .tc := ⟨.hbm, 89, rfl⟩
abbrev main_v17 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![489], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x5 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S640x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  slices_S2x500000_S1x500000_1_0 : S2x500000.Slices ![1, 0] S1x500000
  pads_S500000_S500736_07360 : S500000.Pads (![0] : Fin 1 → Nat) ![736] ![0] S500736
  h_S_ : 0 < S_.numel
  pads_S500000x5_S500736x5_07360_000 : S500000x5.Pads (![0, 0] : Fin 2 → Nat) ![736, 0] ![0, 0] S500736x5
  bcast_S_S500736 : S_.BroadcastsInDim S500736 (![] : Fin 0 → Fin S500736.rank)
  bcast_S500736_S500736x1_0 : S500736.BroadcastsInDim S500736x1 (![0] : Fin 1 → Fin S500736x1.rank)
  bcast_S_S500736x1 : S_.BroadcastsInDim S500736x1 (![] : Fin 0 → Fin S500736x1.rank)
  bcast_S1_S1x1_1 : S1.BroadcastsInDim S1x1 (![1] : Fin 1 → Fin S1x1.rank)
  bcast_S1x1_S500736x1_0_1 : S1x1.BroadcastsInDim S500736x1 (![0, 1] : Fin 2 → Fin S500736x1.rank)
  reducesTo_S500736x1_S500736_d1 : S500736x1.ReducesTo [1] S500736
  bcast_S500736_S500736x128_0 : S500736.BroadcastsInDim S500736x128 (![0] : Fin 1 → Fin S500736x128.rank)
  bcast_S_S500736x128 : S_.BroadcastsInDim S500736x128 (![] : Fin 0 → Fin S500736x128.rank)
  pads_S519x256_S640x256_01210_000 : S519x256.Pads (![0, 0] : Fin 2 → Nat) ![121, 0] ![0, 0] S640x256
  bitsLt_bf16_f32 : FTy.bits .bf16 < FTy.bits .f32
  shapeCasts_S256_S1x256 : S256.ShapeCasts S1x256
  shapeCasts_S2_S1x2 : S2.ShapeCasts S1x2
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  reduces_S1024x128_S1024 : S1024x128.Reduces [1] S1024
  shapeCasts_S1024_S1024x1 : S1024.ShapeCasts S1024x1
  inb_S1024x5_S1024x5_0_0 : ∀ a, (![0, 0] : Fin 2 → Nat) a + S1024x5.size a ≤ S1024x5.size a
  h_S1024x5 : 0 < S1024x5.numel
  shapeCasts_S1024x5_S1024x5 : S1024x5.ShapeCasts S1024x5
  concatenates_S1024x1_S1024x1_S1024x5_S1024x121_S1024x128_d1 : Shape.Concatenates [S1024x1, S1024x1, S1024x5, S1024x121] S1024x128 1
  concatenates_S1024x128_S1024x128_S1024x128_S1024x128_S1024x128_S1024x640_d1 : Shape.Concatenates [S1024x128, S1024x128, S1024x128, S1024x128, S1024x128] S1024x640 1
  inb_S640x256_S640x256_0_0 : ∀ a, (![0, 0] : Fin 2 → Nat) a + S640x256.size a ≤ S640x256.size a
  h_S640x256 : 0 < S640x256.numel
  shapeCasts_S640x256_S640x256 : S640x256.ShapeCasts S640x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x2_S256x2_0_0 : ∀ a, (![0, 0] : Fin 2 → Nat) a + S256x2.size a ≤ S256x2.size a
  h_S256x2 : 0 < S256x2.numel
  shapeCasts_S256x2_S256x2 : S256x2.ShapeCasts S256x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x2_S1024x2_0_0 : ∀ a, (![0, 0] : Fin 2 → Nat) a + S1024x2.size a ≤ S1024x2.size a
  h_S1024x2 : 0 < S1024x2.numel
  slices_S500736x2_S500000x2_0_0 : S500736x2.Slices ![0, 0] S500000x2
  gather_S100000x128_S500736x1_S500736x128_1_0_n_n_0_1_1128_wf : GatherDims.WF S100000x128 S500736x1 S500736x128 [1] [0] [] [0] [] 1 ![1, 128]
  dot_S1024x640_S640x256_S1024x256_1_0_0_1_n_n_wf : DotDims.WF S1024x640 S640x256 S1024x256 [1] [0] [0] [1] [] []
  dot_S1024x256_S256x2_S1024x2_1_0_0_1_n_n_wf : DotDims.WF S1024x256 S256x2 S1024x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S500736x128.size a
  hwx0_0 : ∀ i : grid0.Coords, EltTy.bits .f32 = 32 ∨ (Rect.block (s := S500736x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S500736x128.size a
  hwx0_1 : ∀ i : grid0.Coords, EltTy.bits .f32 = 32 ∨ (Rect.block (s := S500736x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x5.size a ≤ S500736x5.size a
  hwx0_2 : ∀ i : grid0.Coords, EltTy.bits .f32 = 32 ∨ (Rect.block (s := S500736x5) S1024x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S640x256.size a ≤ S640x256.size a
  hwx0_3 : ∀ i : grid0.Coords, EltTy.bits .bf16 = 32 ∨ (Rect.block (s := S640x256) S640x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x2.size a ≤ S256x2.size a
  hwx0_5 : ∀ i : grid0.Coords, EltTy.bits .bf16 = 32 ∨ (Rect.block (s := S256x2) S256x2.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2.size a ≤ S1x2.size a
  hwx0_6 : ∀ i : grid0.Coords, EltTy.bits .f32 = 32 ∨ (Rect.block (s := S1x2) S1x2.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S500736x2.size a
  hwx0_7 : ∀ i : grid0.Coords, EltTy.bits .f32 = 32 ∨ (Rect.block (s := S500736x2) S1024x2.size (cc0_transform_7 i) (hinb0_7 i)).WholeWords (EltTy.packing .f32)

variable [Facts₀]

def gather_S100000x128_S500736x1_S500736x128_1_0_n_n_0_1_1128 : GatherDims S100000x128 S500736x1 S500736x128 where
  offsetDims := [1]
  collapsedSliceDims := [0]
  operandBatchingDims := []
  startIndicesBatchingDims := []
  startIndexMap := [0]
  indexVectorDim := 1
  sliceSizes := ![1, 128]
  wf := gather_S100000x128_S500736x1_S500736x128_1_0_n_n_0_1_1128_wf
def dot_S1024x640_S640x256_S1024x256_1_0_0_1_n_n : DotDims S1024x640 S640x256 S1024x256 where
  lhsContracting := [1]
  rhsContracting := [0]
  lhsNonContracting := [0]
  rhsNonContracting := [1]
  lhsBatch := []
  rhsBatch := []
  wf := dot_S1024x640_S640x256_S1024x256_1_0_0_1_n_n_wf
def dot_S1024x256_S256x2_S1024x2_1_0_0_1_n_n : DotDims S1024x256 S256x2 S1024x2 where
  lhsContracting := [1]
  rhsContracting := [0]
  lhsNonContracting := [0]
  rhsNonContracting := [1]
  lhsBatch := []
  rhsBatch := []
  wf := dot_S1024x256_S256x2_S1024x2_1_0_0_1_n_n_wf

abbrev win0_0 : Pipeline.Window sig grid0 :=
  Pipeline.Window.ofSpec (Memref.whole main_v9) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1024x5.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S640x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S256x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x2.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1024x2.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x5 : Shape := ⟨2, ![500000, 5]⟩
abbrev S519x256 : Shape := ⟨2, ![519, 256]⟩
abbrev S256 : Shape := ⟨1, ![256]⟩
abbrev S256x2 : Shape := ⟨2, ![256, 2]⟩
abbrev S2 : Shape := ⟨1, ![2]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S1 : Shape := ⟨1, ![1]⟩
abbrev S1x1 : Shape := ⟨2, ![1, 1]⟩
abbrev S500000x128 : Shape := ⟨2, ![500000, 128]⟩
abbrev S500000x519 : Shape := ⟨2, ![500000, 519]⟩
abbrev S500000x256 : Shape := ⟨2, ![500000, 256]⟩
abbrev S1x256 : Shape := ⟨2, ![1, 256]⟩
abbrev S500000x2 : Shape := ⟨2, ![500000, 2]⟩
abbrev S1x2 : Shape := ⟨2, ![1, 2]⟩

abbrev nBuf : Space → Nat
  | .hbm => 107
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x5, .f32⟩
  | .hbm, ⟨3, _⟩ => ⟨S519x256, .f32⟩
  | .hbm, ⟨4, _⟩ => ⟨S256, .f32⟩
  | .hbm, ⟨5, _⟩ => ⟨S256x2, .f32⟩
  | .hbm, ⟨6, _⟩ => ⟨S2, .f32⟩
  | .hbm, ⟨7, _⟩ => ⟨S1x500000, .i32⟩
  | .hbm, ⟨8, _⟩ => ⟨S500000, .i32⟩
  | .hbm, ⟨9, _⟩ => ⟨S1x500000, .i32⟩
  | .hbm, ⟨10, _⟩ => ⟨S500000, .i32⟩
  | .hbm, ⟨11, _⟩ => ⟨S_, .i32⟩
  | .hbm, ⟨12, _⟩ => ⟨S500000, .i32⟩
  | .hbm, ⟨13, _⟩ => ⟨S500000, .i1⟩
  | .hbm, ⟨14, _⟩ => ⟨S_, .i32⟩
  | .hbm, ⟨15, _⟩ => ⟨S500000, .i32⟩
  | .hbm, ⟨16, _⟩ => ⟨S500000, .i32⟩
  | .hbm, ⟨17, _⟩ => ⟨S500000, .i32⟩
  | .hbm, ⟨18, _⟩ => ⟨S500000x1, .i32⟩
  | .hbm, ⟨19, _⟩ => ⟨S1, .i32⟩
  | .hbm, ⟨20, _⟩ => ⟨S_, .i32⟩
  | .hbm, ⟨21, _⟩ => ⟨S500000x1, .i32⟩
  | .hbm, ⟨22, _⟩ => ⟨S500000x1, .i1⟩
  | .hbm, ⟨23, _⟩ => ⟨S1x1, .i32⟩
  | .hbm, ⟨24, _⟩ => ⟨S500000x1, .i32⟩
  | .hbm, ⟨25, _⟩ => ⟨S500000x1, .i1⟩
  | .hbm, ⟨26, _⟩ => ⟨S500000x1, .i1⟩
  | .hbm, ⟨27, _⟩ => ⟨S_, .i1⟩
  | .hbm, ⟨28, _⟩ => ⟨S500000, .i1⟩
  | .hbm, ⟨29, _⟩ => ⟨S500000x128, .f32⟩
  | .hbm, ⟨30, _⟩ => ⟨S500000x128, .i1⟩
  | .hbm, ⟨31, _⟩ => ⟨S_, .f32⟩
  | .hbm, ⟨32, _⟩ => ⟨S500000x128, .f32⟩
  | .hbm, ⟨33, _⟩ => ⟨S500000x128, .f32⟩
  | .hbm, ⟨34, _⟩ => ⟨S_, .i32⟩
  | .hbm, ⟨35, _⟩ => ⟨S500000, .i32⟩
  | .hbm, ⟨36, _⟩ => ⟨S500000, .i1⟩
  | .hbm, ⟨37, _⟩ => ⟨S_, .i32⟩
  | .hbm, ⟨38, _⟩ => ⟨S500000, .i32⟩
  | .hbm, ⟨39, _⟩ => ⟨S500000, .i32⟩
  | .hbm, ⟨40, _⟩ => ⟨S500000, .i32⟩
  | .hbm, ⟨41, _⟩ => ⟨S500000x1, .i32⟩
  | .hbm, ⟨42, _⟩ => ⟨S1, .i32⟩
  | .hbm, ⟨43, _⟩ => ⟨S_, .i32⟩
  | .hbm, ⟨44, _⟩ => ⟨S500000x1, .i32⟩
  | .hbm, ⟨45, _⟩ => ⟨S500000x1, .i1⟩
  | .hbm, ⟨46, _⟩ => ⟨S1x1, .i32⟩
  | .hbm, ⟨47, _⟩ => ⟨S500000x1, .i32⟩
  | .hbm, ⟨48, _⟩ => ⟨S500000x1, .i1⟩
  | .hbm, ⟨49, _⟩ => ⟨S500000x1, .i1⟩
  | .hbm, ⟨50, _⟩ => ⟨S_, .i1⟩
  | .hbm, ⟨51, _⟩ => ⟨S500000, .i1⟩
  | .hbm, ⟨52, _⟩ => ⟨S500000x128, .f32⟩
  | .hbm, ⟨53, _⟩ => ⟨S500000x128, .i1⟩
  | .hbm, ⟨54, _⟩ => ⟨S_, .f32⟩
  | .hbm, ⟨55, _⟩ => ⟨S500000x128, .f32⟩
  | .hbm, ⟨56, _⟩ => ⟨S500000x128, .f32⟩
  | .hbm, ⟨57, _⟩ => ⟨S500000x128, .f32⟩
  | .hbm, ⟨58, _⟩ => ⟨S500000x128, .f32⟩
  | .hbm, ⟨59, _⟩ => ⟨S500000x128, .f32⟩
  | .hbm, ⟨60, _⟩ => ⟨S_, .f32⟩
  | .hbm, ⟨61, _⟩ => ⟨S500000, .f32⟩
  | .hbm, ⟨62, _⟩ => ⟨S500000x1, .f32⟩
  | .hbm, ⟨63, _⟩ => ⟨S500000x128, .f32⟩
  | .hbm, ⟨64, _⟩ => ⟨S_, .f32⟩
  | .hbm, ⟨65, _⟩ => ⟨S500000, .f32⟩
  | .hbm, ⟨66, _⟩ => ⟨S500000x1, .f32⟩
  | .hbm, ⟨67, _⟩ => ⟨S500000x1, .f32⟩
  | .hbm, ⟨68, _⟩ => ⟨S_, .f32⟩
  | .hbm, ⟨69, _⟩ => ⟨S500000x1, .f32⟩
  | .hbm, ⟨70, _⟩ => ⟨S500000x1, .f32⟩
  | .hbm, ⟨71, _⟩ => ⟨S500000x128, .f32⟩
  | .hbm, ⟨72, _⟩ => ⟨S_, .f32⟩
  | .hbm, ⟨73, _⟩ => ⟨S500000, .f32⟩
  | .hbm, ⟨74, _⟩ => ⟨S500000x1, .f32⟩
  | .hbm, ⟨75, _⟩ => ⟨S500000x1, .f32⟩
  | .hbm, ⟨76, _⟩ => ⟨S_, .f32⟩
  | .hbm, ⟨77, _⟩ => ⟨S500000x1, .f32⟩
  | .hbm, ⟨78, _⟩ => ⟨S500000x1, .f32⟩
  | .hbm, ⟨79, _⟩ => ⟨S500000x1, .f32⟩
  | .hbm, ⟨80, _⟩ => ⟨S500000x1, .f32⟩
  | .hbm, ⟨81, _⟩ => ⟨S500000x519, .f32⟩
  | .hbm, ⟨82, _⟩ => ⟨S500000x256, .f32⟩
  | .hbm, ⟨83, _⟩ => ⟨S1x256, .f32⟩
  | .hbm, ⟨84, _⟩ => ⟨S500000x256, .f32⟩
  | .hbm, ⟨85, _⟩ => ⟨S500000x256, .f32⟩
  | .hbm, ⟨86, _⟩ => ⟨S_, .f32⟩
  | .hbm, ⟨87, _⟩ => ⟨S500000x256, .f32⟩
  | .hbm, ⟨88, _⟩ => ⟨S500000x256, .f32⟩
  | .hbm, ⟨89, _⟩ => ⟨S500000x2, .f32⟩
  | .hbm, ⟨90, _⟩ => ⟨S1x2, .f32⟩
  | .hbm, ⟨91, _⟩ => ⟨S500000x2, .f32⟩
  | .hbm, ⟨92, _⟩ => ⟨S500000x2, .f32⟩
  | .hbm, ⟨93, _⟩ => ⟨S_, .f32⟩
  | .hbm, ⟨94, _⟩ => ⟨S500000x2, .f32⟩
  | .hbm, ⟨95, _⟩ => ⟨S500000x2, .f32⟩
  | .hbm, ⟨96, _⟩ => ⟨S500000x2, .f32⟩
  | .hbm, ⟨97, _⟩ => ⟨S500000x2, .f32⟩
  | .hbm, ⟨98, _⟩ => ⟨S500000x2, .i1⟩
  | .hbm, ⟨99, _⟩ => ⟨S500000x2, .f32⟩
  | .hbm, ⟨100, _⟩ => ⟨S500000x2, .f32⟩
  | .hbm, ⟨101, _⟩ => ⟨S500000x2, .f32⟩
  | .hbm, ⟨102, _⟩ => ⟨S500000x2, .f32⟩
  | .hbm, ⟨103, _⟩ => ⟨S500000x2, .f32⟩
  | .hbm, ⟨104, _⟩ => ⟨S500000x2, .f32⟩
  | .hbm, ⟨105, _⟩ => ⟨S500000x2, .f32⟩
  | .hbm, ⟨106, _⟩ => ⟨S500000x2, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_cst : Ref sig .tc := ⟨.hbm, 60, rfl⟩
abbrev main_v9 : Ref sig .tc := ⟨.hbm, 61, rfl⟩
abbrev main_v10 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_call2_v2 : Ref sig .tc := ⟨.hbm, 66, rfl⟩
abbrev main_v11 : Ref sig .tc := ⟨.hbm, 67, rfl⟩
abbrev main_cst_0 : Ref sig .tc := ⟨.hbm, 68, rfl⟩
abbrev main_v12 : Ref sig .tc := ⟨.hbm, 69, rfl⟩
abbrev main_v13 : Ref sig .tc := ⟨.hbm, 70, rfl⟩
abbrev main_call3_v0 : Ref sig .tc := ⟨.hbm, 71, rfl⟩
abbrev main_call3_cst : Ref sig .tc := ⟨.hbm, 72, rfl⟩
abbrev main_call3_v1 : Ref sig .tc := ⟨.hbm, 73, rfl⟩
abbrev main_call3_v2 : Ref sig .tc := ⟨.hbm, 74, rfl⟩
abbrev main_v14 : Ref sig .tc := ⟨.hbm, 75, rfl⟩
abbrev main_cst_1 : Ref sig .tc := ⟨.hbm, 76, rfl⟩
abbrev main_v15 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_call4_cst : Ref sig .tc := ⟨.hbm, 86, rfl⟩
abbrev main_call4_v0 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_call5_cst : Ref sig .tc := ⟨.hbm, 93, rfl⟩
abbrev main_call5_v0 : Ref sig .tc := ⟨.hbm, 94, rfl⟩
abbrev main_call5_v1 : Ref sig .tc := ⟨.hbm, 95, rfl⟩
abbrev main_call5_v2 : Ref sig .tc := ⟨.hbm, 96, rfl⟩
abbrev main_call5_v3 : Ref sig .tc := ⟨.hbm, 97, rfl⟩
abbrev main_call5_v4 : Ref sig .tc := ⟨.hbm, 98, rfl⟩
abbrev main_call5_v5 : Ref sig .tc := ⟨.hbm, 99, rfl⟩
abbrev main_call5_v6 : Ref sig .tc := ⟨.hbm, 100, rfl⟩
abbrev main_call5_v7 : Ref sig .tc := ⟨.hbm, 101, rfl⟩
abbrev main_call5_v8 : Ref sig .tc := ⟨.hbm, 102, rfl⟩
abbrev main_call5_v9 : Ref sig .tc := ⟨.hbm, 103, rfl⟩
abbrev main_call5_v10 : Ref sig .tc := ⟨.hbm, 104, rfl⟩
abbrev main_call5_v11 : Ref sig .tc := ⟨.hbm, 105, rfl⟩
abbrev main_v29 : Ref sig .tc := ⟨.hbm, 106, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  h_S_ : 0 < S_.numel
  bcast_S500000_S500000x128_0 : S500000.BroadcastsInDim S500000x128 (![0] : Fin 1 → Fin S500000x128.rank)
  bcast_S_S500000x128 : S_.BroadcastsInDim S500000x128 (![] : Fin 0 → Fin S500000x128.rank)
  reducesTo_S500000x128_S500000_d1 : S500000x128.ReducesTo [1] S500000
  concatenates_S500000x128_S500000x128_S500000x128_S500000x128_S500000x1_S500000x1_S500000x5_S500000x519_d1 : Shape.Concatenates [S500000x128, S500000x128, S500000x128, S500000x128, S500000x1, S500000x1, S500000x5] S500000x519 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  bcast_S_S500000x256 : S_.BroadcastsInDim S500000x256 (![] : Fin 0 → Fin S500000x256.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  bcast_S_S500000x2 : S_.BroadcastsInDim S500000x2 (![] : Fin 0 → Fin S500000x2.rank)
  gather_S100000x128_S500000x1_S500000x128_1_0_n_n_0_1_1128_wf : GatherDims.WF S100000x128 S500000x1 S500000x128 [1] [0] [] [0] [] 1 ![1, 128]
  dot_S500000x519_S519x256_S500000x256_1_0_0_1_n_n_wf : DotDims.WF S500000x519 S519x256 S500000x256 [1] [0] [0] [1] [] []
  dot_S500000x256_S256x2_S500000x2_1_0_0_1_n_n_wf : DotDims.WF S500000x256 S256x2 S500000x2 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x519_S519x256_S500000x256_1_0_0_1_n_n : DotDims S500000x519 S519x256 S500000x256 where
  lhsContracting := [1]
  rhsContracting := [0]
  lhsNonContracting := [0]
  rhsNonContracting := [1]
  lhsBatch := []
  rhsBatch := []
  wf := dot_S500000x519_S519x256_S500000x256_1_0_0_1_n_n_wf
def dot_S500000x256_S256x2_S500000x2_1_0_0_1_n_n : DotDims S500000x256 S256x2 S500000x2 where
  lhsContracting := [1]
  rhsContracting := [0]
  lhsNonContracting := [0]
  rhsNonContracting := [1]
  lhsBatch := []
  rhsBatch := []
  wf := dot_S500000x256_S256x2_S500000x2_1_0_0_1_n_n_wf

class Facts : Prop extends Facts₀ where

variable [Facts]
-- ==== Proof.Spec.lean ====
/-
  The edge-scoring function both programs compute, over the extended reals.

  An edge e has endpoint rows a = z[u e], b = z[v e] (128 entries each) and five extra features x.
  Its feature vector has 519 entries: a, b, |a - b|, a * b (entrywise), the dot product a·b, the
  cosine a·b / (max(‖a‖, ε) · max(‖b‖, ε)), and x.  A two-layer perceptron follows:
  hidden k = max(∑ j, feat j · W1[j, k] + b1[k], 0) and out o = softplus(∑ k, hidden k · W2[k, o] + b2[o]).
  `feat` is defined on every natural number and is 0 from entry 519 on, so a contraction over 640 entries
  against a weight matrix that agrees with W1 on its first 519 rows is the same sum.
-/
import Idealize.ShloMosaic.PureOps.Ideal
import Idealize.ShloMosaic.PureOps.Ideal.Laws
import Idealize.ShloMosaic.Lib.ValueIdx

noncomputable section

namespace EdgeHead

open Idealize.ShloMosaic Idealize.ShloMosaic.ValueIdx

/-- The norm floor, the f32 nearest 1e-12, as the extended real it denotes. -/
def eps : EReal := Ideal.ofBits .f32 0x2B8CBCCC#32

/-- a · b. -/
def dotRow (a b : Fin 128 → EReal) : EReal := ∑ k : Fin 128, a k * b k

/-- max(‖a‖, ε). -/
def normRow (a : Fin 128 → EReal) : EReal := max (Ideal.sqrt (∑ k : Fin 128, a k * a k)) eps

/-- a · b / (max(‖a‖, ε) · max(‖b‖, ε)). -/
def cosRow (a b : Fin 128 → EReal) : EReal := Ideal.div (dotRow a b) (normRow a * normRow b)

/-- Entry j of the edge's feature vector; 0 from entry 519 on. -/
def feat (a b : Fin 128 → EReal) (x : Fin 5 → EReal) (j : ℕ) : EReal :=
  if h0 : j < 128 then a ⟨j, h0⟩
  else if h1 : j < 256 then b ⟨j - 128, by omega⟩
  else if h2 : j < 384 then max (a ⟨j - 256, by omega⟩ - b ⟨j - 256, by omega⟩) (-(a ⟨j - 256, by omega⟩ - b ⟨j - 256, by omega⟩))
  else if h3 : j < 512 then a ⟨j - 384, by omega⟩ * b ⟨j - 384, by omega⟩
  else if j = 512 then dotRow a b
  else if j = 513 then cosRow a b
  else if h6 : j < 519 then x ⟨j - 514, by omega⟩
  else 0

/-- Hidden unit k from a feature vector f contracted over n entries. -/
def hidden (n : ℕ) (f : ℕ → EReal) (W1 : Fin n → Fin 256 → EReal) (b1 : Fin 256 → EReal) (k : Fin 256) : EReal :=
  max ((∑ j : Fin n, f j.val * W1 j k) + b1 k) 0

/-- softplus y = max(y, 0) + log(1 + exp(-|y|)), |y| written as max(y - 0, -(y - 0)). -/
def softplus (y : EReal) : EReal :=
  max y 0 + Ideal.log1p (Ideal.exp (-(max (y - 0) (-(y - 0)))))

/-- Output o from the hidden layer. -/
def outv (h : Fin 256 → EReal) (W2 : Fin 256 → Fin 2 → EReal) (b2 : Fin 2 → EReal) (o : Fin 2) : EReal :=
  softplus ((∑ k : Fin 256, h k * W2 k o) + b2 o)

/-- The whole score of an edge from its rows, its extras and the weights, the first layer contracted over n entries. -/
def score (n : ℕ) (a b : Fin 128 → EReal) (x : Fin 5 → EReal) (W1 : Fin n → Fin 256 → EReal) (b1 : Fin 256 → EReal)
    (W2 : Fin 256 → Fin 2 → EReal) (b2 : Fin 2 → EReal) (o : Fin 2) : EReal :=
  outv (hidden n (feat a b x) W1 b1) W2 b2 o

theorem feat_of_ge (a b : Fin 128 → EReal) (x : Fin 5 → EReal) {j : ℕ} (hj : 519 ≤ j) : feat a b x j = 0 := by
  unfold feat
  rw [dif_neg (by omega), dif_neg (by omega), dif_neg (by omega), dif_neg (by omega), if_neg (by omega), if_neg (by omega),
    dif_neg (by omega)]

/-- A contraction over 640 entries against weights that agree with W1 on the first 519 rows is the contraction over
    519: the remaining 121 feature entries are 0, and 0 times anything is 0 on the extended reals. -/
theorem hidden_640_eq (f : ℕ → EReal) (hf : ∀ j, 519 ≤ j → f j = 0) (W1p : Fin 640 → Fin 256 → EReal)
    (W1 : Fin 519 → Fin 256 → EReal) (hW : ∀ (j : Fin 519) k, W1p ⟨j.val, by omega⟩ k = W1 j k) (b1 : Fin 256 → EReal) (k : Fin 256) :
    hidden 640 f W1p b1 k = hidden 519 f W1 b1 k := by
  unfold hidden
  congr 2
  have e := Fin.sum_univ_add (M := EReal) (a := 519) (b := 121) (fun j : Fin (519 + 121) => f j.val * W1p ⟨j.val, j.isLt⟩ k)
  have e' : (∑ j : Fin 640, f j.val * W1p j k) = ∑ j : Fin (519 + 121), f j.val * W1p ⟨j.val, j.isLt⟩ k := rfl
  rw [e', e]
  have z : (∑ i : Fin 121, f (Fin.natAdd 519 i).val * W1p ⟨(Fin.natAdd 519 i).val, (Fin.natAdd 519 i).isLt⟩ k) = 0 :=
    Finset.sum_eq_zero fun i _ => by rw [hf _ (by simp [Fin.natAdd]), zero_mul]
  rw [z, add_zero]
  exact Finset.sum_congr rfl fun j _ => by
    show f j.val * W1p ⟨j.val, _⟩ k = f j.val * W1 j k
    rw [hW j k]

theorem score_640_eq (a b : Fin 128 → EReal) (x : Fin 5 → EReal) (W1p : Fin 640 → Fin 256 → EReal)
    (W1 : Fin 519 → Fin 256 → EReal) (hW : ∀ (j : Fin 519) k, W1p ⟨j.val, by omega⟩ k = W1 j k) (b1 : Fin 256 → EReal)
    (W2 : Fin 256 → Fin 2 → EReal) (b2 : Fin 2 → EReal) (o : Fin 2) :
    score 640 a b x W1p b1 W2 b2 o = score 519 a b x W1 b1 W2 b2 o := by
  unfold score
  congr 1
  funext k
  exact hidden_640_eq _ (fun j hj => feat_of_ge a b x hj) W1p W1 hW b1 k

/-! ## The arrays -/

abbrev SZ : Shape := ⟨2, ![100000, 128]⟩
abbrev SE : Shape := ⟨2, ![2, 500000]⟩
abbrev SX : Shape := ⟨2, ![500000, 5]⟩
abbrev SW1 : Shape := ⟨2, ![519, 256]⟩
abbrev SB1 : Shape := ⟨1, ![256]⟩
abbrev SW2 : Shape := ⟨2, ![256, 2]⟩
abbrev SB2 : Shape := ⟨1, ![2]⟩
abbrev SO : Shape := ⟨2, ![500000, 2]⟩

/-- The node an index word names: read signed, clamped into the table (an in-range word names itself). -/
def node (w : BitVec 32) : Fin 100000 := ⟨min w.toInt.toNat 99999, by omega⟩

/-- Row `node w` of the node table. -/
def nodeRow (z : SZ.Idx → EReal) (w : BitVec 32) : Fin 128 → EReal := fun q => z (ix2 (node w) q)

/-- The result array: entry (e, o) is the score of edge e's two endpoint rows. -/
def G (z : SZ.Idx → EReal) (ei : SE.Idx → BitVec 32) (ex : SX.Idx → EReal) (W1 : SW1.Idx → EReal) (b1 : SB1.Idx → EReal)
    (W2 : SW2.Idx → EReal) (b2 : SB2.Idx → EReal) (e : Fin 500000) (o : Fin 2) : EReal :=
  score 519 (nodeRow z (ei (ix2 (0 : Fin 2) e))) (nodeRow z (ei (ix2 (1 : Fin 2) e))) (fun q => ex (ix2 e q))
    (fun j k => W1 (ix2 j k)) (fun k => b1 (ix1 k)) (fun k o' => W2 (ix2 k o')) (fun o' => b2 (ix1 o')) o

/-- An index word is a node id: 0 ≤ w < 100000 read signed. -/
def InRange (w : BitVec 32) : Prop := 0 ≤ w.toInt ∧ w.toInt < 100000

end EdgeHead

end
-- ==== Proof.KerRegion.lean ====
/-
  The kernel region's result array.  Grid point t reads rows 1024·t … 1024·t + 1023 of the two endpoint-row arrays and
  of the extras, the whole weight arrays, and writes rows 1024·t … of the result; 489 points tile the 500736 rows.
  So the array ends holding, at (r, o), the score of row r of the operand arrays, contracted over 640 feature entries.
-/
import proofs.«415116_j26603027432198_2_alg».proof.Proof.Gen.KernelIdeal.Frame
import proofs.«415116_j26603027432198_2_alg».proof.Proof.Spec
import Idealize.ShloMosaic.Lib.Pipeline.Value
import Idealize.ShloMosaic.Lib.ValueIdx

set_option maxRecDepth 16384
set_option Elab.async false

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat Cfg Window)

/-- Entry (r, o) of the region's result from its seven operand arrays. -/
def GKat (A B : S500736x128.Idx → EReal) (X : S500736x5.Idx → EReal) (W1p : S640x256.Idx → EReal) (B1 : S1x256.Idx → EReal)
    (W2 : S256x2.Idx → EReal) (B2 : S1x2.Idx → EReal) (r : Fin 500736) (o : Fin 2) : EReal :=
  EdgeHead.score 640 (fun q => A (ix2 r q)) (fun q => B (ix2 r q)) (fun q => X (ix2 r q)) (fun j k => W1p (ix2 j k))
    (fun k => B1 (ix2 (0 : Fin 1) k)) (fun k o' => W2 (ix2 k o')) (fun o' => B2 (ix2 (0 : Fin 1) o')) o

/-- The region's result array. -/
def GK (A B : S500736x128.Idx → EReal) (X : S500736x5.Idx → EReal) (W1p : S640x256.Idx → EReal) (B1 : S1x256.Idx → EReal)
    (W2 : S256x2.Idx → EReal) (B2 : S1x2.Idx → EReal) : S500736x2.Idx → EReal :=
  fun i => GKat A B X W1p B1 W2 B2 (i 0) (i 1)

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row windows move one block per point, the weight windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem N_val (t : Fin cfg0.N) : t.val < 489 := by
  have h : t.val < grid0.N := t.isLt
  rw [N_0] at h
  exact h

/-- Row p of point t's block of the first endpoint-row operand is row 1024·t + p of the array. -/
theorem iblk0_apply (c : Dev nD) (t : Fin cfg0.N) (p : Fin 1024) (j : Fin 128) :
    (iblk m c 0 t : Vec Ideal S1024x128 .f32) (ix2 p j)
      = (V m c main_v9 : S500736x128.Idx → EReal) (ix2 (⟨t.val * 1024 + p.val, by have := N_val t; omega⟩ : Fin 500736) j) := by
  obtain ⟨e0, e1, -⟩ := idx_facts t
  unfold iblk
  rw [View.read_apply]
  show V m c main_v9 _ = V m c main_v9 _
  congr 1
  funext a
  apply Fin.ext
  match a with
  | ⟨0, _⟩ => show win0_0.index t (0 : Fin 2) * 1024 + 1 * p.val = t.val * 1024 + p.val; rw [e0]; omega
  | ⟨1, _⟩ => show win0_0.index t (1 : Fin 2) * 128 + 1 * j.val = j.val; rw [e1]; omega

/-- The same for the second endpoint-row operand. -/
theorem iblk1_apply (c : Dev nD) (t : Fin cfg0.N) (p : Fin 1024) (j : Fin 128) :
    (iblk m c 1 t : Vec Ideal S1024x128 .f32) (ix2 p j)
      = (V m c main_v10 : S500736x128.Idx → EReal) (ix2 (⟨t.val * 1024 + p.val, by have := N_val t; omega⟩ : Fin 500736) j) := by
  obtain ⟨-, -, e0, e1, -⟩ := idx_facts t
  unfold iblk
  rw [View.read_apply]
  show V m c main_v10 _ = V m c main_v10 _
  congr 1
  funext a
  apply Fin.ext
  match a with
  | ⟨0, _⟩ => show win0_1.index t (0 : Fin 2) * 1024 + 1 * p.val = t.val * 1024 + p.val; rw [e0]; omega
  | ⟨1, _⟩ => show win0_1.index t (1 : Fin 2) * 128 + 1 * j.val = j.val; rw [e1]; omega

/-- The same for the extras. -/
theorem iblk2_apply (c : Dev nD) (t : Fin cfg0.N) (p : Fin 1024) (j : Fin 5) :
    (iblk m c 2 t : Vec Ideal S1024x5 .f32) (ix2 p j)
      = (V m c main_v8 : S500736x5.Idx → EReal) (ix2 (⟨t.val * 1024 + p.val, by have := N_val t; omega⟩ : Fin 500736) j) := by
  obtain ⟨-, -, -, -, e0, e1, -⟩ := idx_facts t
  unfold iblk
  rw [View.read_apply]
  show V m c main_v8 _ = V m c main_v8 _
  congr 1
  funext a
  apply Fin.ext
  match a with
  | ⟨0, _⟩ => show win0_2.index t (0 : Fin 2) * 1024 + 1 * p.val = t.val * 1024 + p.val; rw [e0]; omega
  | ⟨1, _⟩ => show win0_2.index t (1 : Fin 2) * 5 + 1 * j.val = j.val; rw [e1]; omega

/-- The weight windows' one block is the whole array, at every point. -/
theorem iblk3_apply (c : Dev nD) (t : Fin cfg0.N) (j : Fin 640) (k : Fin 256) :
    (iblk m c 3 t : Vec Ideal S640x256 .bf16) (ix2 j k) = (V m c main_v12 : S640x256.Idx → EReal) (ix2 j k) := by
  obtain ⟨-, -, -, -, -, -, e0, e1, -⟩ := idx_facts t
  unfold iblk
  rw [View.read_apply]
  show V m c main_v12 _ = V m c main_v12 _
  congr 1
  funext a
  apply Fin.ext
  match a with
  | ⟨0, _⟩ => show win0_3.index t (0 : Fin 2) * 640 + 1 * j.val = j.val; rw [e0]; omega
  | ⟨1, _⟩ => show win0_3.index t (1 : Fin 2) * 256 + 1 * k.val = k.val; rw [e1]; omega

theorem iblk4_apply (c : Dev nD) (t : Fin cfg0.N) (k : Fin 256) :
    (iblk m c 4 t : Vec Ideal S1x256 .f32) (ix2 (0 : Fin 1) k) = (V m c main_v14 : S1x256.Idx → EReal) (ix2 (0 : Fin 1) k) := by
  obtain ⟨-, -, -, -, -, -, -, -, e0, e1, -⟩ := idx_facts t
  unfold iblk
  rw [View.read_apply]
  show V m c main_v14 _ = V m c main_v14 _
  congr 1
  funext a
  apply Fin.ext
  match a with
  | ⟨0, _⟩ => show win0_4.index t (0 : Fin 2) * 1 + 1 * 0 = 0; rw [e0]
  | ⟨1, _⟩ => show win0_4.index t (1 : Fin 2) * 256 + 1 * k.val = k.val; rw [e1]; omega

theorem iblk5_apply (c : Dev nD) (t : Fin cfg0.N) (k : Fin 256) (o : Fin 2) :
    (iblk m c 5 t : Vec Ideal S256x2 .bf16) (ix2 k o) = (V m c main_v13 : S256x2.Idx → EReal) (ix2 k o) := by
  obtain ⟨-, -, -, -, -, -, -, -, -, -, e0, e1, -⟩ := idx_facts t
  unfold iblk
  rw [View.read_apply]
  show V m c main_v13 _ = V m c main_v13 _
  congr 1
  funext a
  apply Fin.ext
  match a with
  | ⟨0, _⟩ => show win0_5.index t (0 : Fin 2) * 256 + 1 * k.val = k.val; rw [e0]; omega
  | ⟨1, _⟩ => show win0_5.index t (1 : Fin 2) * 2 + 1 * o.val = o.val; rw [e1]; omega

theorem iblk6_apply (c : Dev nD) (t : Fin cfg0.N) (o : Fin 2) :
    (iblk m c 6 t : Vec Ideal S1x2 .f32) (ix2 (0 : Fin 1) o) = (V m c main_v15 : S1x2.Idx → EReal) (ix2 (0 : Fin 1) o) := by
  obtain ⟨-, -, -, -, -, -, -, -, -, -, -, -, e0, e1, -⟩ := idx_facts t
  unfold iblk
  rw [View.read_apply]
  show V m c main_v15 _ = V m c main_v15 _
  congr 1
  funext a
  apply Fin.ext
  match a with
  | ⟨0, _⟩ => show win0_6.index t (0 : Fin 2) * 1 + 1 * 0 = 0; rw [e0]
  | ⟨1, _⟩ => show win0_6.index t (1 : Fin 2) * 2 + 1 * o.val = o.val; rw [e1]; omega

end Cert.KernelIdeal.Hand

end
-- ==== Proof.KerOut.lean ====
/-
  The kernel's output payload at an index is the specification's output unit.

  From the hidden block h : [1024, 256], the second-layer weights W : [256, 2] and the bias row b : [1, 2], entry (p, o)
  of the payload is softplus(∑ k, h[p, k] · W[k, o] + b[0, o]).  The narrowing of h is the identity on the extended
  reals; the contraction into a zero accumulator is the sum over the one contracted coordinate; the bias row is
  broadcast along the rows.  The softplus is written as a select on "d is ordered and different from d" with
  d = y − 0: no extended real differs from itself, so the select takes its second branch
  max(y, 0) + log1p(exp(0 − |d|)), and 0 − a = −a.
-/
import proofs.«415116_j26603027432198_2_alg».proof.Proof.Gen.KernelIdeal.Skeleton
import proofs.«415116_j26603027432198_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

/-! ## The contraction's operand indices, axis by axis -/

theorem lhs_out_0 (j : S1024x2.Idx) (k : dot_S1024x256_S256x2_S1024x2_1_0_0_1_n_n.contr.Idx) :
    (dot_S1024x256_S256x2_S1024x2_1_0_0_1_n_n.lhsIdx j k 0).val = (j 0).val := by
  unfold DotDims.lhsIdx
  rw [dif_neg (show ¬(0 : Fin S1024x256.rank) ∈ dot_S1024x256_S256x2_S1024x2_1_0_0_1_n_n.lhsBatch by decide),
    dif_pos (show (0 : Fin S1024x256.rank) ∈ dot_S1024x256_S256x2_S1024x2_1_0_0_1_n_n.lhsNonContracting by decide)]
  rfl

theorem lhs_contr_1 (j : S1024x2.Idx) (k : dot_S1024x256_S256x2_S1024x2_1_0_0_1_n_n.contr.Idx) :
    (dot_S1024x256_S256x2_S1024x2_1_0_0_1_n_n.lhsIdx j k 1).val = (k ⟨0, by decide⟩).val :=
  DotDims.lhsIdx_val_of_single (d := dot_S1024x256_S256x2_S1024x2_1_0_0_1_n_n) (cl := 1) rfl j k

theorem rhs_contr_0 (j : S1024x2.Idx) (k : dot_S1024x256_S256x2_S1024x2_1_0_0_1_n_n.contr.Idx) :
    (dot_S1024x256_S256x2_S1024x2_1_0_0_1_n_n.rhsIdx j k 0).val = (k ⟨0, by decide⟩).val :=
  DotDims.rhsIdx_val_of_single (d := dot_S1024x256_S256x2_S1024x2_1_0_0_1_n_n) (cr := 0) rfl j k

theorem rhs_out_1 (j : S1024x2.Idx) (k : dot_S1024x256_S256x2_S1024x2_1_0_0_1_n_n.contr.Idx) :
    (dot_S1024x256_S256x2_S1024x2_1_0_0_1_n_n.rhsIdx j k 1).val = (j 1).val := by
  unfold DotDims.rhsIdx
  rw [dif_neg (show ¬(1 : Fin S256x2.rank) ∈ dot_S1024x256_S256x2_S1024x2_1_0_0_1_n_n.rhsBatch by decide),
    dif_pos (show (1 : Fin S256x2.rank) ∈ dot_S1024x256_S256x2_S1024x2_1_0_0_1_n_n.rhsNonContracting by decide)]
  rfl

/-- The contraction into a zero accumulator, at an index: the sum over the contracted coordinate. -/
theorem matmul_at (A : FVec Ideal S1024x256 .bf16) (B : FVec Ideal S256x2 .bf16) (p : Fin 1024) (o : Fin 2) :
    matmul dot_S1024x256_S256x2_S1024x2_1_0_0_1_n_n none A B (constant (F := Ideal) S1024x2 .f32 0x00000000#32) (ix2 p o)
      = ∑ k : Fin 256, A (ix2 p k) * B (ix2 k o) := by
  refine (Ideal.matmul_constant_zero_apply dot_S1024x256_S256x2_S1024x2_1_0_0_1_n_n none A B (ix2 p o)).trans ?_
  rw [← Equiv.sum_comp (contrEquiv1 dot_S1024x256_S256x2_S1024x2_1_0_0_1_n_n 256 rfl rfl).symm]
  refine Finset.sum_congr rfl fun c _ => ?_
  have c2 := contrEquiv1_symm_val dot_S1024x256_S256x2_S1024x2_1_0_0_1_n_n 256 rfl rfl c
  have l2 : dot_S1024x256_S256x2_S1024x2_1_0_0_1_n_n.lhsIdx (ix2 p o) ((contrEquiv1 dot_S1024x256_S256x2_S1024x2_1_0_0_1_n_n 256 rfl rfl).symm c) = ix2 p c := by
    funext ax; apply Fin.ext
    match ax with
    | ⟨0, _⟩ => exact lhs_out_0 _ _
    | ⟨1, _⟩ => exact (lhs_contr_1 _ _).trans c2
  have r2 : dot_S1024x256_S256x2_S1024x2_1_0_0_1_n_n.rhsIdx (ix2 p o) ((contrEquiv1 dot_S1024x256_S256x2_S1024x2_1_0_0_1_n_n 256 rfl rfl).symm c) = ix2 c o := by
    funext ax; apply Fin.ext
    match ax with
    | ⟨0, _⟩ => exact (rhs_contr_0 _ _).trans c2
    | ⟨1, _⟩ => exact rhs_out_1 _ _
  rw [l2, r2]

/-! ## The softplus as the kernel writes it -/

/-- No extended real is ordered-and-different from itself. -/
theorem cmpf_one_self (d : EReal) : FloatOps.cmpf (F := Ideal) (φ := .f32) .one d d = 0#1 := by
  rw [Ideal.cmpf_def]
  unfold Ideal.cmp
  simp

/-- The select the kernel writes is the specification's softplus. -/
theorem softplus_of_select (y : EReal) :
    Scalar.select (FloatOps.cmpf (F := Ideal) (φ := .f32) .one (y - 0) (y - 0)) (y + 0)
        (max y 0 + Ideal.log1p (Ideal.exp (0 - max (y - 0) (-(y - 0))))) = EdgeHead.softplus y := by
  rw [cmpf_one_self, select_zero, zero_sub]
  rfl

/-- The bias row broadcast along the rows, at an index. -/
theorem bias_at (b : FVec Ideal S1x2 .f32) (p : Fin 1024) (o : Fin 2) :
    broadcastTo S1024x2 b broadcasts_S1x2_S1024x2 (ix2 p o) = b (ix2 (0 : Fin 1) o) := by
  refine broadcastTo_apply b broadcasts_S1x2_S1024x2 (ix2 p o) (ix2 (0 : Fin 1) o) fun a => ?_
  match a with
  | ⟨0, _⟩ => rfl
  | ⟨1, _⟩ => rfl

/-- An absolute value, an exponential and a log1p at an index are those of the element. -/
theorem absf_at {s : Shape} {φ : FTy} (a : FVec Ideal s φ) (i : s.Idx) : absf a i = max (a i) (-(a i)) := rfl
theorem exp_at {s : Shape} {φ : FTy} (a : FVec Ideal s φ) (i : s.Idx) : exp a i = Ideal.exp (a i) := rfl
theorem log1p_at {s : Shape} {φ : FTy} (a : FVec Ideal s φ) (i : s.Idx) : log1p a i = Ideal.log1p (a i) := rfl

/-- THE PAYLOAD AT AN INDEX: the output unit of the row's hidden vector. -/
theorem pay1_apply (v37 : FVec Ideal S1024x256 .f32) (v38 : Vec Ideal S256x2 .bf16) (v40 : Vec Ideal S1x2 .f32)
    (p : Fin 1024) (o : Fin 2) :
    k0_pay1 (F := Ideal) v37 v38 v40 (ix2 p o)
      = EdgeHead.outv (fun k => v37 (ix2 p k)) (fun k o' => v38 (ix2 k o')) (fun o' => v40 (ix2 (0 : Fin 1) o')) o := by
  have hm := matmul_at (truncf .bf16 v37 bitsLt_bf16_f32) v38 p o
  have hb := bias_at v40 p o
  have hz : FloatOps.ofBits (F := Ideal) .f32 0x00000000#32 = 0 := Ideal.ofBits_zero_f32
  unfold k0_pay1
  simp only [shapeCast_self]
  simp only [select_apply, cmpf_apply, subf_apply, addf_apply, maximumf_apply, broadcast_apply, absf_at, exp_at, log1p_at,
    hm, hb, hz, truncf_apply]
  exact softplus_of_select _

end Cert.KernelIdeal.Hand

end
-- ==== Proof.KerHidden.lean ====
/-
  The kernel body's hidden layer, read at an index, at the ideal values.

  From two [1024, 128] blocks a, b of endpoint rows, a [1024, 5] block x of extra features, a [640, 256] weight block
  and a [1, 256] bias row, the body forms for every row p the 640-lane feature row
    a_p, b_p, |a_p - b_p|, a_p * b_p (entrywise), a_p·b_p, a_p·b_p / (max(‖a_p‖, ε) · max(‖b_p‖, ε)), x_p, then 121 zeros,
  and then max(feature row · weights + bias, 0).  Lane sums are sums over the 128 lanes, a concatenation is read in the
  piece that holds the lane, a change of float format is the identity on the extended reals, and a product into a zero
  accumulator is the plain sum over the 640 contracted lanes.  So entry (p, k) is the specification's hidden unit k of
  the feature vector of the three rows p, contracted over 640 entries.
-/
import proofs.«415116_j26603027432198_2_alg».proof.Proof.Gen.KernelIdeal.Skeleton
import proofs.«415116_j26603027432198_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx

namespace Hidden

/-! ## The body's hidden layer in stages -/

/-- Row sums of a * b, kept as a column. -/
def dotK (a b : FVec Ideal S1024x128 .f32) : FVec Ideal S1024x1 .f32 :=
  shapeCast S1024x1 (multiReduction .add [1] S1024 (mulf a b) 0x00000000#32 reduces_S1024x128_S1024 (.inl rfl) rfl)
    shapeCasts_S1024_S1024x1

/-- Row norms floored at ε, as a column. -/
def normK (a : FVec Ideal S1024x128 .f32) : FVec Ideal S1024x1 .f32 :=
  maximumf (sqrt (dotK a a)) (broadcast S1024x1 (Scalar.ofBits (F := Ideal) .f32 0x2B8CBCCC#32))

/-- The cosine column. -/
def cosK (a b : FVec Ideal S1024x128 .f32) : FVec Ideal S1024x1 .f32 :=
  divf (dotK a b) (mulf (normK a) (normK b))

/-- The last 128-lane segment: dot, cosine, the five extras, then 121 zeros. -/
def tailK (a b : FVec Ideal S1024x128 .f32) (x : FVec Ideal S1024x5 .f32) : FVec Ideal S1024x128 .f32 :=
  concatenate S1024x128 1 [⟨S1024x1, dotK a b⟩, ⟨S1024x1, cosK a b⟩, ⟨S1024x5, x⟩,
    ⟨S1024x121, broadcast S1024x121 (Scalar.ofBits (F := Ideal) .f32 0x00000000#32)⟩]
    concatenates_S1024x1_S1024x1_S1024x5_S1024x121_S1024x128_d1

/-- The 640-lane feature block: a, b, |a - b|, a * b, the tail segment. -/
def featK (a b : FVec Ideal S1024x128 .f32) (x : FVec Ideal S1024x5 .f32) : FVec Ideal S1024x640 .f32 :=
  concatenate S1024x640 1 [⟨S1024x128, a⟩, ⟨S1024x128, b⟩, ⟨S1024x128, absf (subf a b)⟩, ⟨S1024x128, mulf a b⟩,
    ⟨S1024x128, tailK a b x⟩]
    concatenates_S1024x128_S1024x128_S1024x128_S1024x128_S1024x128_S1024x640_d1

/-- The product with the weights into a zero accumulator. -/
def prodK (f : FVec Ideal S1024x640 .f32) (W : FVec Ideal S640x256 .bf16) : FVec Ideal S1024x256 .f32 :=
  matmul dot_S1024x640_S640x256_S1024x256_1_0_0_1_n_n none (truncf .bf16 f bitsLt_bf16_f32) W
    (constant (F := Ideal) S1024x256 .f32 0x00000000#32)

/-- Bias row added, floored at 0. -/
def hidK (f : FVec Ideal S1024x640 .f32) (W : FVec Ideal S640x256 .bf16) (b : FVec Ideal S1x256 .f32) :
    FVec Ideal S1024x256 .f32 :=
  maximumf (addf (prodK f W) (broadcastTo S1024x256 b broadcasts_S1x256_S1024x256))
    (broadcast S1024x256 (Scalar.ofBits (F := Ideal) .f32 0x00000000#32))

/-! ## The columns at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A lane sum of a [1024, 128] block at row p is the sum over the 128 lanes of that row. -/
theorem rowSum_apply (src : FVec Ideal S1024x128 .f32) (hφ : FKind.Formats .f32)
    (hacc : (0x00000000#32 : BitVec 32) = 0x00000000#32) (p : Fin 1024) :
    multiReduction .add [1] S1024 src 0x00000000#32 reduces_S1024x128_S1024 hφ hacc (ix1 p) = ∑ k : Fin 128, src (ix2 p k) := by
  refine (Ideal.multiReduction_add_single src 0x00000000#32 reduces_S1024x128_S1024 hφ hacc (ix1 p)).trans ?_
  show (∑ k : Fin 128, src (reduces_S1024x128_S1024.lift (ix1 p) k)) = _
  refine Finset.sum_congr rfl fun k _ => congrArg src ?_
  funext ax
  apply Fin.ext
  match ax with
  | ⟨0, _⟩ => rfl
  | ⟨1, _⟩ => rfl

theorem dotK_apply (a b : FVec Ideal S1024x128 .f32) (p : Fin 1024) (u : Fin 1) :
    dotK a b (ix2 p u) = ∑ k : Fin 128, a (ix2 p k) * b (ix2 p k) := by
  unfold dotK
  refine (shapeCast_a_a1_apply _ shapeCasts_S1024_S1024x1 p u).trans ?_
  exact rowSum_apply (mulf a b) _ _ p

theorem normK_apply (a : FVec Ideal S1024x128 .f32) (p : Fin 1024) (u : Fin 1) :
    normK a (ix2 p u) = EdgeHead.normRow (fun k => a (ix2 p k)) := by
  unfold normK EdgeHead.normRow EdgeHead.eps
  show max (Ideal.sqrt (dotK a a (ix2 p u))) (Ideal.ofBits .f32 0x2B8CBCCC#32) = _
  rw [dotK_apply]

theorem cosK_apply (a b : FVec Ideal S1024x128 .f32) (p : Fin 1024) (u : Fin 1) :
    cosK a b (ix2 p u) = EdgeHead.cosRow (fun k => a (ix2 p k)) (fun k => b (ix2 p k)) := by
  unfold cosK EdgeHead.cosRow EdgeHead.dotRow
  show Ideal.div (dotK a b (ix2 p u)) (normK a (ix2 p u) * normK b (ix2 p u)) = _
  rw [dotK_apply, normK_apply, normK_apply]

/-! ## A concatenation along the lanes read at an index -/

/-- Pieces of `n` rows laid side by side: at `(p, c)` the result is piece `k` — the one whose span holds `c` — at
    `(p, c')`, `c'` being `c` less the widths before it. -/
theorem concat_lanes_apply {α : Type} {n m : ℕ} (xs : List ((s : Shape) × (s.Idx → α)))
    (h : Shape.Concatenates (xs.map (·.1)) ⟨2, ![n, m]⟩ 1) (p : Fin n) (c : Fin m)
    (k : ℕ) (hk : k < xs.length) (w : ℕ) (x₁ : (⟨2, ![n, w]⟩ : Shape).Idx → α) (hxk : xs[k] = ⟨⟨2, ![n, w]⟩, x₁⟩)
    (pre : ℕ)
    (hpre : (((xs.take k).map (·.1)).map fun s : Shape =>
      if h : s.rank = (⟨2, ![n, m]⟩ : Shape).rank then s.size ((1 : Fin (⟨2, ![n, m]⟩ : Shape).rank).cast h.symm) else 0).sum = pre)
    (c' : Fin w) (hc : pre + c'.val = c.val) :
    concatenate ⟨2, ![n, m]⟩ 1 xs h (ix2 p c) = x₁ (ix2 p c') :=
  concatenate_apply_piece 1 xs h (ix2 p c) k hk ⟨2, ![n, w]⟩ x₁ hxk rfl pre hpre (ix2 p c')
    (fun b => match b with
      | ⟨0, _⟩ => fun _ => rfl
      | ⟨1, _⟩ => fun hb => absurd rfl hb)
    hc

/-! ## The feature row -/

/-- Lane c of the tail segment is entry 512 + c of the feature vector. -/
theorem tailK_apply (a b : FVec Ideal S1024x128 .f32) (x : FVec Ideal S1024x5 .f32) (p : Fin 1024) (c : ℕ) (hc : c < 128) :
    tailK a b x (ix2 p ⟨c, hc⟩)
      = EdgeHead.feat (fun k => a (ix2 p k)) (fun k => b (ix2 p k)) (fun k => x (ix2 p k)) (512 + c) := by
  unfold EdgeHead.feat
  rw [dif_neg (by omega), dif_neg (by omega), dif_neg (by omega), dif_neg (by omega)]
  unfold tailK
  by_cases h0 : c = 0
  · subst h0
    rw [if_pos rfl]
    refine (concat_lanes_apply _ _ p _ 0 (by simp) 1 (dotK a b) rfl 0 rfl (0 : Fin 1) rfl).trans ?_
    exact dotK_apply a b p 0
  by_cases h1 : c = 1
  · subst h1
    rw [if_neg (by omega), if_pos rfl]
    refine (concat_lanes_apply _ _ p _ 1 (by simp) 1 (cosK a b) rfl 1 rfl (0 : Fin 1) rfl).trans ?_
    exact cosK_apply a b p 0
  by_cases h2 : c < 7
  · rw [if_neg (by omega), if_neg (by omega), dif_pos (by omega)]
    exact concat_lanes_apply _ _ p _ 2 (by simp) 5 x rfl 2 rfl ⟨512 + c - 514, by omega⟩
      (by show 2 + (512 + c - 514) = c; omega)
  · rw [if_neg (by omega), if_neg (by omega), dif_neg (by omega)]
    refine (concat_lanes_apply _ _ p _ 3 (by simp) 121
      (broadcast S1024x121 (Scalar.ofBits (F := Ideal) .f32 0x00000000#32)) rfl 7 rfl ⟨c - 7, by omega⟩
      (by show 7 + (c - 7) = c; omega)).trans ?_
    exact Ideal.ofBits_zero_f32

/-- Lane j of the 640-lane feature block of row p is entry j of the feature vector of the three rows p. -/
theorem featK_apply (a b : FVec Ideal S1024x128 .f32) (x : FVec Ideal S1024x5 .f32) (p : Fin 1024) (j : ℕ) (hj : j < 640) :
    featK a b x (ix2 p ⟨j, hj⟩)
      = EdgeHead.feat (fun k => a (ix2 p k)) (fun k => b (ix2 p k)) (fun k => x (ix2 p k)) j := by
  by_cases h4 : 512 ≤ j
  · obtain ⟨c, rfl⟩ : ∃ c, j = 512 + c := ⟨j - 512, by omega⟩
    unfold featK
    refine (concat_lanes_apply _ _ p _ 4 (by simp) 128 (tailK a b x) rfl 512 rfl ⟨c, by omega⟩ rfl).trans ?_
    exact tailK_apply a b x p c (by omega)
  unfold EdgeHead.feat featK
  by_cases h0 : j < 128
  · rw [dif_pos h0]
    exact concat_lanes_apply _ _ p _ 0 (by simp) 128 a rfl 0 rfl ⟨j, h0⟩ (by show 0 + j = j; omega)
  by_cases h1 : j < 256
  · rw [dif_neg h0, dif_pos h1]
    exact concat_lanes_apply _ _ p _ 1 (by simp) 128 b rfl 128 rfl ⟨j - 128, by omega⟩ (by show 128 + (j - 128) = j; omega)
  by_cases h2 : j < 384
  · rw [dif_neg h0, dif_neg h1, dif_pos h2]
    exact concat_lanes_apply _ _ p _ 2 (by simp) 128 (absf (subf a b)) rfl 256 rfl ⟨j - 256, by omega⟩
      (by show 256 + (j - 256) = j; omega)
  · rw [dif_neg h0, dif_neg h1, dif_neg h2, dif_pos (by omega)]
    exact concat_lanes_apply _ _ p _ 3 (by simp) 128 (mulf a b) rfl 384 rfl ⟨j - 384, by omega⟩
      (by show 384 + (j - 384) = j; omega)

/-! ## The product at an index -/

theorem lhs_axis0 (j : S1024x256.Idx) (k : dot_S1024x640_S640x256_S1024x256_1_0_0_1_n_n.contr.Idx) :
    (dot_S1024x640_S640x256_S1024x256_1_0_0_1_n_n.lhsIdx j k (0 : Fin 2)).val = (j 0).val := by
  unfold DotDims.lhsIdx
  rw [dif_neg (show ¬(0 : Fin S1024x640.rank) ∈ dot_S1024x640_S640x256_S1024x256_1_0_0_1_n_n.lhsBatch by decide),
    dif_pos (show (0 : Fin S1024x640.rank) ∈ dot_S1024x640_S640x256_S1024x256_1_0_0_1_n_n.lhsNonContracting by decide)]
  rfl

theorem lhs_axis1 (j : S1024x256.Idx) (k : dot_S1024x640_S640x256_S1024x256_1_0_0_1_n_n.contr.Idx) :
    (dot_S1024x640_S640x256_S1024x256_1_0_0_1_n_n.lhsIdx j k (1 : Fin 2)).val = (k ⟨0, by decide⟩).val :=
  dot_S1024x640_S640x256_S1024x256_1_0_0_1_n_n.lhsIdx_val_of_single (cl := (1 : Fin 2)) rfl j k

theorem rhs_axis0 (j : S1024x256.Idx) (k : dot_S1024x640_S640x256_S1024x256_1_0_0_1_n_n.contr.Idx) :
    (dot_S1024x640_S640x256_S1024x256_1_0_0_1_n_n.rhsIdx j k (0 : Fin 2)).val = (k ⟨0, by decide⟩).val :=
  dot_S1024x640_S640x256_S1024x256_1_0_0_1_n_n.rhsIdx_val_of_single (cr := (0 : Fin 2)) rfl j k

theorem rhs_axis1 (j : S1024x256.Idx) (k : dot_S1024x640_S640x256_S1024x256_1_0_0_1_n_n.contr.Idx) :
    (dot_S1024x640_S640x256_S1024x256_1_0_0_1_n_n.rhsIdx j k (1 : Fin 2)).val = (j 1).val := by
  unfold DotDims.rhsIdx
  rw [dif_neg (show ¬(1 : Fin S640x256.rank) ∈ dot_S1024x640_S640x256_S1024x256_1_0_0_1_n_n.rhsBatch by decide),
    dif_pos (show (1 : Fin S640x256.rank) ∈ dot_S1024x640_S640x256_S1024x256_1_0_0_1_n_n.rhsNonContracting by decide)]
  rfl

/-- Entry (p, k) of the product is the sum over the 640 lanes of row p of the features against column k of the weights. -/
theorem prodK_apply (f : FVec Ideal S1024x640 .f32) (W : FVec Ideal S640x256 .bf16) (p : Fin 1024) (k : Fin 256) :
    prodK f W (ix2 p k) = ∑ j : Fin 640, f (ix2 p j) * W (ix2 j k) := by
  unfold prodK
  refine (Ideal.matmul_constant_zero_apply dot_S1024x640_S640x256_S1024x256_1_0_0_1_n_n none
    (truncf .bf16 f bitsLt_bf16_f32) W (ix2 p k)).trans ?_
  rw [← Equiv.sum_comp (contrEquiv1 dot_S1024x640_S640x256_S1024x256_1_0_0_1_n_n 640 rfl rfl).symm]
  refine Finset.sum_congr rfl fun c _ => ?_
  have c2 := contrEquiv1_symm_val dot_S1024x640_S640x256_S1024x256_1_0_0_1_n_n 640 rfl rfl c
  have l2 : dot_S1024x640_S640x256_S1024x256_1_0_0_1_n_n.lhsIdx (ix2 p k)
      ((contrEquiv1 dot_S1024x640_S640x256_S1024x256_1_0_0_1_n_n 640 rfl rfl).symm c) = ix2 p c := by
    funext ax; apply Fin.ext
    match ax with
    | ⟨0, _⟩ => exact lhs_axis0 _ _
    | ⟨1, _⟩ => exact (lhs_axis1 _ _).trans c2
  have r2 : dot_S1024x640_S640x256_S1024x256_1_0_0_1_n_n.rhsIdx (ix2 p k)
      ((contrEquiv1 dot_S1024x640_S640x256_S1024x256_1_0_0_1_n_n 640 rfl rfl).symm c) = ix2 c k := by
    funext ax; apply Fin.ext
    match ax with
    | ⟨0, _⟩ => exact (rhs_axis0 _ _).trans c2
    | ⟨1, _⟩ => exact rhs_axis1 _ _
  rw [l2, r2]
  rfl

/-! ## The hidden layer at an index -/

theorem hidK_apply (f : FVec Ideal S1024x640 .f32) (W : FVec Ideal S640x256 .bf16) (b : FVec Ideal S1x256 .f32)
    (p : Fin 1024) (k : Fin 256) :
    hidK f W b (ix2 p k) = max ((∑ j : Fin 640, f (ix2 p j) * W (ix2 j k)) + b (ix2 (0 : Fin 1) k)) 0 := by
  unfold hidK
  show max (prodK f W (ix2 p k) + broadcastTo S1024x256 b broadcasts_S1x256_S1024x256 (ix2 p k))
    (Ideal.ofBits .f32 0x00000000#32) = _
  rw [prodK_apply, broadcastTo_1b_ab_apply, Ideal.ofBits_zero_f32]

end Hidden

open Hidden

/-- The body's term is these stages of the loaded blocks (a shape cast to the same shape changes nothing). -/
theorem pay2_eq_stages (v0 v2 : Vec Ideal S1024x128 .f32) (v23 : Vec Ideal S1024x5 .f32) (v28 : Vec Ideal S640x256 .bf16)
    (v30 : Vec Ideal S1x256 .f32) :
    k0_pay2 (F := Ideal) v0 v2 v23 v28 v30 = hidK (featK v0 v2 v23) v28 v30 := by
  have e : k0_pay2 (F := Ideal) v0 v2 v23 v28 v30
      = hidK (featK (shapeCast S1024x128 v0 shapeCasts_S1024x128_S1024x128) (shapeCast S1024x128 v2 shapeCasts_S1024x128_S1024x128)
          (shapeCast S1024x5 v23 shapeCasts_S1024x5_S1024x5)) (shapeCast S640x256 v28 shapeCasts_S640x256_S640x256)
          (shapeCast S1x256 v30 shapeCasts_S1x256_S1x256) := rfl
  rw [e, shapeCast_self, shapeCast_self, shapeCast_self, shapeCast_self, shapeCast_self]

/-- The body's hidden layer at (p, k) is the specification's hidden unit k of the feature vector of the three blocks'
    rows p, contracted over 640 entries against the loaded weights, with the loaded bias row. -/
theorem pay2_apply (v0 v2 : Vec Ideal S1024x128 .f32) (v23 : Vec Ideal S1024x5 .f32) (v28 : Vec Ideal S640x256 .bf16)
    (v30 : Vec Ideal S1x256 .f32) (p : Fin 1024) (k : Fin 256) :
    k0_pay2 (F := Ideal) v0 v2 v23 v28 v30 (ix2 p k)
      = EdgeHead.hidden 640
          (EdgeHead.feat (fun j => v0 (ix2 p j)) (fun j => v2 (ix2 p j)) (fun j => v23 (ix2 p j)))
          (fun j k' => v28 (ix2 j k')) (fun k' => v30 (ix2 (0 : Fin 1) k')) k := by
  rw [pay2_eq_stages, hidK_apply]
  unfold EdgeHead.hidden
  refine congrArg (fun s => max (s + v30 (ix2 (0 : Fin 1) k)) 0) (Finset.sum_congr rfl fun j _ => ?_)
  exact congrArg (· * v28 (ix2 j k)) (featK_apply v0 v2 v23 p j.val j.isLt)

end Cert.KernelIdeal.Hand

end
-- ==== Proof.KerBody.lean ====
/-
  The kernel body's result block, read at an index, at the ideal values.

  The body loads the seven blocks whole, computes the hidden layer from the first five and the output layer from the
  hidden layer and the last two, and stores the result whole.  A load or a store through the whole block at zero
  offsets is the identity, so entry (p, q) of the stored block is the output unit q of the hidden vector of row p:
  the specification's score of the rows p of the three feature blocks, the first layer contracted over 640 entries.
-/
import proofs.«415116_j26603027432198_2_alg».proof.Proof.KerOut
import proofs.«415116_j26603027432198_2_alg».proof.Proof.KerHidden
import proofs.«415116_j26603027432198_2_alg».proof.Proof.Gen.KernelIdeal.Frame
import proofs.«415116_j26603027432198_2_alg».proof.Proof.Spec

noncomputable section

namespace Cert.KernelIdeal.Hand

open Cert.KernelIdeal Cert.KernelIdeal.Gen Idealize.ShloMosaic Idealize.ShloMosaic.ValueIdx

/-- The zero offsets of a rank-2 block. -/
theorem hz0 : (![0, 0] : Fin 2 → Nat) = fun _ => 0 := funext fun a => by fin_cases a <;> rfl

/-- Entry (p, q) of the block the body stores is the score of the rows p of its input blocks. -/
theorem out0_7_apply (x0 x1 : Vec Ideal S1024x128 .f32) (x2 : Vec Ideal S1024x5 .f32) (x3 : Vec Ideal S640x256 .bf16)
    (x4 : Vec Ideal S1x256 .f32) (x5 : Vec Ideal S256x2 .bf16) (x6 : Vec Ideal S1x2 .f32) (p : Fin 1024) (q : Fin 2) :
    Gen.out0_7 (F := Ideal) x0 x1 x2 x3 x4 x5 x6 (ix2 p q)
      = EdgeHead.score 640 (fun j => x0 (ix2 p j)) (fun j => x1 (ix2 p j)) (fun j => x2 (ix2 p j))
          (fun j k => x3 (ix2 j k)) (fun k => x4 (ix2 (0 : Fin 1) k)) (fun k o => x5 (ix2 k o))
          (fun o => x6 (ix2 (0 : Fin 1) o)) q := by
  unfold Gen.out0_7
  rw [View.canon_unit_zero hz0]
  simp only [View.ld_unit_zero (S := S1024x128) hz0, View.ld_unit_zero (S := S1024x5) hz0,
    View.ld_unit_zero (S := S640x256) hz0, View.ld_unit_zero (S := S1x256) hz0, View.ld_unit_zero (S := S256x2) hz0,
    View.ld_unit_zero (S := S1x2) hz0]
  refine (pay1_apply _ _ _ p q).trans ?_
  unfold EdgeHead.score
  congr 1
  funext k
  exact pay2_apply x0 x1 x2 x3 x4 p k

end Cert.KernelIdeal.Hand

end
-- ==== Proof.KerFlush.lean ====
/-
  What one grid point writes back: block t of the region's result array.
-/
import proofs.«415116_j26603027432198_2_alg».proof.Proof.KerRegion
import proofs.«415116_j26603027432198_2_alg».proof.Proof.KerBody

set_option maxRecDepth 16384
set_option Elab.async false

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The score depends on its rows and weights only through their values. -/
theorem score_congr {n : ℕ} {a a' b b' : Fin 128 → EReal} {x x' : Fin 5 → EReal} {W W' : Fin n → Fin 256 → EReal}
    {c1 c1' : Fin 256 → EReal} {U U' : Fin 256 → Fin 2 → EReal} {c2 c2' : Fin 2 → EReal}
    (ha : a = a') (hb : b = b') (hx : x = x') (hW : W = W') (h1 : c1 = c1') (hU : U = U') (h2 : c2 = c2') (o : Fin 2) :
    EdgeHead.score n a b x W c1 U c2 o = EdgeHead.score n a' b' x' W' c1' U' c2' o := by
  subst ha hb hx hW h1 hU h2
  rfl

/-- The region's result array from the arrays as the region finds them. -/
abbrev GKV (c : Dev nD) : S500736x2.Idx → EReal :=
  GK (V m c main_v9) (V m c main_v10) (V m c main_v8) (V m c main_v12) (V m c main_v14) (V m c main_v13) (V m c main_v15)

/-- What point t writes back is block t of the result array. -/
theorem flushed7_eq (c : Dev nD) (t : Fin cfg0.N) :
    (dats m 0 c).flushed 7 t = ((cfg0.win 7).blk t).view.read (Elt Ideal) (GKV m c) := by
  obtain ⟨-, -, -, -, -, -, -, -, -, -, -, -, -, -, e0, e1⟩ := idx_facts t
  show (cfg0.win 7).cut (grid0.coords t) ((dats m 0 c).after 7 t) = _
  rw [after0_7]
  funext y
  obtain ⟨p, q, rfl⟩ : ∃ (p : Fin 1024) (q : Fin 2), y = ix2 p q := ⟨y 0, y 1, eq_ix2 y⟩
  show out0_7 (iblk m c 0 t) (iblk m c 1 t) (iblk m c 2 t) (iblk m c 3 t) (iblk m c 4 t) (iblk m c 5 t) (iblk m c 6 t) (ix2 p q)
    = GKV m c (((cfg0.win 7).blk t).view.emb (ix2 p q))
  have hemb : ((cfg0.win 7).blk t).view.emb (ix2 p q) = ix2 (⟨t.val * 1024 + p.val, by have := N_val t; omega⟩ : Fin 500736) q := by
    funext a
    apply Fin.ext
    match a with
    | ⟨0, _⟩ => show win0_7.index t (0 : Fin 2) * 1024 + 1 * p.val = t.val * 1024 + p.val; rw [e0]; omega
    | ⟨1, _⟩ => show win0_7.index t (1 : Fin 2) * 2 + 1 * q.val = q.val; rw [e1]; omega
  rw [hemb]
  refine (out0_7_apply (iblk m c 0 t) (iblk m c 1 t) (iblk m c 2 t) (iblk m c 3 t) (iblk m c 4 t) (iblk m c 5 t) (iblk m c 6 t) p q).trans ?_
  show _ = GKat _ _ _ _ _ _ _ _ _
  unfold GKat
  exact score_congr (funext fun j => iblk0_apply m c t p j) (funext fun j => iblk1_apply m c t p j)
    (funext fun j => iblk2_apply m c t p j) (funext fun j => funext fun k => iblk3_apply m c t j k)
    (funext fun k => iblk4_apply m c t k) (funext fun k => funext fun o => iblk5_apply m c t k o)
    (funext fun o => iblk6_apply m c t o) q

end Cert.KernelIdeal.Hand

end
-- ==== Proof.KerCover.lean ====
/-
  The 489 blocks of 1024 rows tile the result array, so after the region it is the result array of the specification.
-/
import proofs.«415116_j26603027432198_2_alg».proof.Proof.KerFlush

set_option maxRecDepth 16384
set_option Elab.async false

noncomputable section

namespace Cert.KernelIdeal.Hand

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- An index of the result array is in point t's block iff its row is among the block's 1024. -/
theorem mem_blk7 (t : Fin cfg0.N) (i : S500736x2.Idx) :
    i ∈ ((cfg0.win 7).blk t).view.set ↔ ∀ a : Fin 2, win0_7.index t a * S1024x2.size a ≤ (i a).val ∧ (i a).val < win0_7.index t a * S1024x2.size a + S1024x2.size a := by
  show i ∈ ((View.whole main_v16).slice (win0_7.rect t)).set ↔ _
  rw [View.set_slice_whole, Rect.mem_set_unit]
  exact Iff.rfl

/-- Every row lies in the block of the point row / 1024. -/
theorem cover7 (i : S500736x2.Idx) : ∃ t : Fin cfg0.N, (cfg0.win 7).flush t = true ∧ i ∈ ((cfg0.win 7).blk t).view.set := by
  have hi0 : (i 0).val < 500736 := (i 0).isLt
  have hi1 : (i 1).val < 2 := (i 1).isLt
  let t : Fin cfg0.N := ⟨(i 0).val / 1024, by show (i 0).val / 1024 < grid0.N; rw [N_0]; omega⟩
  obtain ⟨-, -, -, -, -, -, -, -, -, -, -, -, -, -, e0, e1⟩ := idx_facts t
  refine ⟨t, flush0_7 t, ?_⟩
  rw [mem_blk7]
  intro a
  have ht : t.val = (i 0).val / 1024 := rfl
  match a with
  | ⟨0, _⟩ => show win0_7.index t (0 : Fin 2) * 1024 ≤ (i 0).val ∧ (i 0).val < win0_7.index t (0 : Fin 2) * 1024 + 1024; rw [e0, ht]; omega
  | ⟨1, _⟩ => show win0_7.index t (1 : Fin 2) * 2 ≤ (i 1).val ∧ (i 1).val < win0_7.index t (1 : Fin 2) * 2 + 2; rw [e1]; omega

/-- The result array after the region. -/
theorem final7 (c : Dev nD) : (dats m 0 c).arrAt 7 cfg0.N = GKV m c :=
  (dats m 0 c).arrAt_eq_of_cover 7 (GKV m c) (fun t _ => flushed7_eq m c t) (cover7 )

end Cert.KernelIdeal.Hand

end
-- ==== Proof.KerTail.lean ====
/-
  The kernel program's one host operation after its region, and the run's post read at its result.

  After the region the program slices rows [0, 500000) of the region's result array (500736 rows: the edges padded to a
  whole number of 1024-row blocks).  The frame run leaves every buffer that is not an array of the pipeline at what the
  lines after the region compute from the region's arrays, so the program's result buffer holds that slice of the
  output window's array after the run, and each argument buffer is as launched.
-/
import proofs.«415116_j26603027432198_2_alg».proof.Proof.Gen.KernelIdeal.Frame
import Idealize.ShloMosaic.Lib.StableHlo.Run
import Idealize.ShloMosaic.Lib.Pipeline.Value

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F] (m : (ℓ : Loc nD τ sig) → Buf (Elt F) ℓ)

/-- The program's result after the lines that follow the region: rows [0, 500000) of the output window's array as the
    region leaves it. -/
theorem tail_v17 (c : Dev nD) : Pipeline.afterTail₀ cfgs (dats m) 0 (V0 m) [hostOps1] c main_v17
      = extractStridedSlice S500000x2 ![0, 0] ((dats m 0 c).arrAt 7 cfg0.N) slices_S500736x2_S500000x2_0_0 := by
  unfold Pipeline.afterTail₀
  show StableHlo.after hostOps1 _ (Proc.devRef .tc main_v17) = _
  after_results
  exact congrArg (fun a => extractStridedSlice S500000x2 ![0, 0] a slices_S500736x2_S500000x2_0_0)
    (Pipeline.withArrays_arr spec0 launch0.win.arr_inj c _ _ 7)

/-- Every weakly fair execution of the program on the TensorCores terminates with its result buffer at that slice and
    its seven argument buffers as launched. -/
theorem post_v17 (ρ : Dev nD → PrngReg) : θ_run defs (onTc (τ := τ) (main (F := F))) ⟨m, fun _ => 0, ρ⟩ (fun r => ∀ c : Dev nD,
      r.2.mem ((c.tc : Thread nD τ).loc main_v17)
        = extractStridedSlice S500000x2 ![0, 0] ((dats m 0 c).arrAt 7 cfg0.N) slices_S500736x2_S500000x2_0_0
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v17 (Pipeline.mem_restRefs_of main_v17 (by decide) (by decide))).trans (tail_v17 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Hand

end
-- ==== Proof.LibRowGather.lean ====
/-
  A stablehlo.gather that picks whole rows of a rank-2 table, read at an index.

  What `table[idx]` of a table `[N, C]` at a vector of `n` row numbers lowers to: a gather whose start indices are the
  `[n, 1]` column of row numbers, whose operand axis 0 is collapsed and start-indexed, whose operand axis 1 is the one
  offset axis (result axis 1), with slice sizes `[1, C]`, no batching axes and the index vector on axis 1 of the
  start indices.  Result element `(p, q)` is the table at row "start index `p` read SIGNED and CLAMPED into
  `[0, N − 1]`" and column `q`: on axis 0 the slice has one row, so the clamp is to `N − 1`; on axis 1 the slice is the
  whole axis, the start is 0 and the offset coordinate is `q`.
-/
import Idealize.ShloMosaic.PureOps.ShapeOps
import Idealize.ShloMosaic.Lib.ValueIdx

namespace RowGather

open Idealize.ShloMosaic Idealize.ShloMosaic.ValueIdx

/-- THE ROW GATHER READ AT `(p, q)`.  `d` is any record of dimension numbers over an operand `[N, C]`, start indices
    `[n, 1]` and a result `[n, C]` whose lists are the row-take's (`hoff` … `hivd`: each holds by `rfl` for a printed
    record): offset axes `[1]`, collapsed slice axes `[0]`, no operand batching axes, start index map `[0]`, index vector
    on axis 1.  The result at `(p, q)` is the operand at row `min (toInt (idx (p, 0))).toNat (N − 1)` — the start index read
    as a signed integer, a negative one reading row 0 and one past the end reading the last row — and column `q`. -/
theorem rowGather_apply {α : Type} {N n C w : Nat} (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) (hN : 0 < N) :
    Host.gather d x idx (ix2 p q) = x (ix2 ⟨min (idx (ix2 p (0 : Fin 1))).toInt.toNat (N - 1), by omega⟩ q) := by
  unfold Host.gather
  congr 1
  funext a
  have key0 : ∀ (l : List (Fin 2)) (k : Nat) (h : k < l.length), l = [0] →
      ((ix2 p q : (⟨2, ![n, C]⟩ : Shape).Idx) l[k]).val = p.val := fun l k h hl => by
    subst hl
    obtain rfl : k = 0 := by simpa using h
    rfl
  have key1 : ∀ (l : List (Fin 2)) (k : Nat) (h : k < l.length), l = [1] →
      ((ix2 p q : (⟨2, ![n, C]⟩ : Shape).Idx) l[k]).val = q.val := fun l k h hl => by
    subst hl
    obtain rfl : k = 0 := by simpa using h
    rfl
  have hb : ∀ a : Fin 2, a ∉ d.operandBatchingDims := fun a => by rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    rw [GatherDims.batchCoord_eq_zero _ _ _ (hb 0), GatherDims.offCoord_eq_zero _ _ _ hk]
    simp only [Nat.add_zero]
    unfold GatherDims.start
    rw [dif_pos hm]
    show min (idx _).toInt.toNat (N - d.sliceSizes 0) = min (idx (ix2 p (0 : Fin 1))).toInt.toNat (N - 1)
    rw [hsl]
    congr 3
    congr 1
    funext b
    match b with
    | ⟨0, _⟩ =>
      -- the batch coordinate: result axis 0 is the one batch axis, reading the start indices' axis 0
      unfold GatherDims.siIdx
      rw [dif_neg (by rw [hivd]; simp)]
      unfold GatherDims.siCoord
      apply Fin.ext
      simp only [Fin.val_cast]
      have hbatch : d.batchDims = [0] := by
        show Shape.kept _ d.offsetDims = [0]
        rw [hoff]; rfl
      exact key0 d.batchDims _ _ hbatch
    | ⟨1, _⟩ =>
      -- the index vector's axis: component 0 of the start index, the place of operand axis 0 in the start index map
      unfold GatherDims.siIdx
      rw [dif_pos (by rw [hivd])]
      apply Fin.ext
      show List.idxOf (0 : Fin 2) d.startIndexMap = 0
      rw [hsim]; simp
  | ⟨1, _⟩ =>
    -- axis 1 is not start-indexed (start 0) and is the one kept axis: the offset coordinate is the result's on axis 1
    apply Fin.ext
    have hk : (1 : Fin 2) ∈ d.sKept := by
      rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1)]
    unfold GatherDims.start GatherDims.offCoord
    rw [dif_neg hm, dif_pos hk]
    simp only [Nat.add_zero, Nat.zero_add]
    exact key1 d.offsetDims _ _ hoff

end RowGather
-- ==== Proof.KerHostA.lean ====
/-
  The arrays the kernel's program computes on the host before its one region, as pure terms of the seven argument
  arrays, and each term read at an index.

  The two index rows of the [2, E] table are clamped entrywise into [0, 99999] (a maximum with 0 then a minimum with
  99999, words read signed) and lengthened by 736 zero words to 500736; the rows of the node table they name are taken
  (a negative word wrapped by the table length, a range test, a row gather, a fill word where the test fails); the
  extra features get 736 zero rows, the first-layer weights 121 zero rows.  On a word that is a node id (0 ≤ w < 100000
  read signed) the clamp is the identity, the wrap keeps the word, the range test holds and the gather reads the row
  the word names; a padded array read inside the operand is the operand there.
-/
import proofs.«415116_j26603027432198_2_alg».proof.Proof.Gen.KernelIdeal.Frame
import proofs.«415116_j26603027432198_2_alg».proof.Proof.Spec
import proofs.«415116_j26603027432198_2_alg».proof.Proof.LibRowGather
import Idealize.ShloMosaic.Lib.ValueIdx
import Idealize.ShloMosaic.Lib.Pipeline.Value
import Idealize.ShloMosaic.Lib.KernelVsHost
import Idealize.ShloMosaic.Lib.IdealHost
import Idealize.ShloMosaic.Lib.ReduceAll
import Idealize.ShloMosaic.Lib.Affine

noncomputable section

namespace Cert.KernelIdeal.Hand

open Cert.KernelIdeal Cert.KernelIdeal.Gen Idealize.ShloMosaic Idealize.ShloMosaic.ValueIdx

/-! ## The staged terms -/

variable {F : FTy → Type} [FloatOps F]

/-- Row 0 of the [2, E] index table as a vector of E words. -/
def idxRowK0 (ei : IVec S2x500000 32) : IVec S500000 32 :=
  shapeCast _ (extractStridedSlice S1x500000 ![0, 0] ei slices_S2x500000_S1x500000_0_0) shapeCasts_S1x500000_S500000
/-- Row 1 of the [2, E] index table as a vector of E words. -/
def idxRowK1 (ei : IVec S2x500000 32) : IVec S500000 32 :=
  shapeCast _ (extractStridedSlice S1x500000 ![1, 0] ei slices_S2x500000_S1x500000_1_0) shapeCasts_S1x500000_S500000

/-- An index vector clamped entrywise into [0, 99999], read signed. -/
def clipK (x : IVec S500000 32) : IVec S500000 32 :=
  minsi (broadcastInDim S500000 ![] bcast_S_S500000 (constantI S_ 32 99999#32))
    (maxsi (broadcastInDim S500000 ![] bcast_S_S500000 (constantI S_ 32 0#32)) x)

/-- An index vector lengthened by 736 zero words. -/
def padIdxK (x : IVec S500000 32) : IVec S500736 32 :=
  pad S500736 ![0] ![736] ![0] x (constantI S_ 32 0#32) pads_S500000_S500736_07360 h_S_

/-- A negative index word wrapped by the table length, as a column of start indices. -/
def wrapK (idx : IVec S500736 32) : IVec S500736x1 32 :=
  broadcastInDim S500736x1 ![0] bcast_S500736_S500736x1_0
    (select (cmpi .slt idx (broadcastInDim S500736 ![] bcast_S_S500736 (constantI S_ 32 0#32)))
      (addi idx (broadcastInDim S500736 ![] bcast_S_S500736 (constantI S_ 32 100000#32))) idx)

/-- Which rows' start index lies inside the table. -/
def maskK (v5 : IVec S500736x1 32) : IVec S500736 1 :=
  Host.reduce IntOp.andi
    (andi (cmpi .sge v5 (broadcastInDim S500736x1 ![] bcast_S_S500736x1 (constantI S_ 32 0#32)))
      (cmpi .sle v5 (broadcastInDim S500736x1 ![0, 1] bcast_S1x1_S500736x1_0_1
        (broadcastInDim S1x1 ![1] bcast_S1_S1x1_1 (constantI S1 32 99999#32)))))
    (constantI S_ 1 1#1) reducesTo_S500736x1_S500736_d1 h_S_

/-- The rows of x the index vector names; a row whose index is outside the table is filled with the fill word. -/
def takeK (x : FVec F S100000x128 .f32) (idx : IVec S500736 32) : FVec F S500736x128 .f32 :=
  select (broadcastInDim S500736x128 ![0] bcast_S500736_S500736x128_0 (maskK (wrapK idx)))
    (Host.gather gather_S100000x128_S500736x1_S500736x128_1_0_n_n_0_1_1128 x (wrapK idx))
    (broadcastInDim S500736x128 ![] bcast_S_S500736x128 (constant S_ .f32 0x7FC00000#32))

/-- The extra features lengthened by 736 zero rows. -/
def padExK (ex : FVec F S500000x5 .f32) : FVec F S500736x5 .f32 :=
  pad S500736x5 ![0, 0] ![736, 0] ![0, 0] ex (sitofp .f32 (constantI S_ 32 0#32)) pads_S500000x5_S500736x5_07360_000 h_S_

/-- The first-layer weights lengthened by 121 zero rows. -/
def padW1K (W1 : FVec F S519x256 .f32) : FVec F S640x256 .f32 :=
  pad S640x256 ![0, 0] ![121, 0] ![0, 0] W1 (sitofp .f32 (constantI S_ 32 0#32)) pads_S519x256_S640x256_01210_000 h_S_

/-! ## The staged terms read at an index -/

/-- Row 0 of the index table at edge e. -/
theorem idxRowK0_apply (ei : IVec S2x500000 32) (e : Fin 500000) : idxRowK0 ei (ix1 e) = ei (ix2 (0 : Fin 2) e) := by
  unfold idxRowK0
  refine (shapeCast_apply _ _ (ix1 e) (ix2 (0 : Fin 1) e) ?_).trans ?_
  · rw [Shape.rowMajor_val_two, Shape.rowMajor_val_one]
    show 0 * 500000 + e.val = e.val
    omega
  · exact extractStridedSlice_apply _ ei _ _ (ix2 (0 : Fin 2) e) fun a =>
      match a with
      | ⟨0, _⟩ => rfl
      | ⟨1, _⟩ => (Nat.zero_add _).symm

/-- Row 1 of the index table at edge e. -/
theorem idxRowK1_apply (ei : IVec S2x500000 32) (e : Fin 500000) : idxRowK1 ei (ix1 e) = ei (ix2 (1 : Fin 2) e) := by
  unfold idxRowK1
  refine (shapeCast_apply _ _ (ix1 e) (ix2 (0 : Fin 1) e) ?_).trans ?_
  · rw [Shape.rowMajor_val_two, Shape.rowMajor_val_one]
    show 0 * 500000 + e.val = e.val
    omega
  · exact extractStridedSlice_apply _ ei _ _ (ix2 (1 : Fin 2) e) fun a =>
      match a with
      | ⟨0, _⟩ => rfl
      | ⟨1, _⟩ => (Nat.zero_add _).symm

/-- A word that is a node id is its own clamp into [0, 99999]. -/
theorem clip_word (w : BitVec 32) (h : EdgeHead.InRange w) : IntOp.minsi 99999#32 (IntOp.maxsi 0#32 w) = w := by
  have h0 : (0#32 : BitVec 32).toInt = 0 := by decide
  have h9 : (99999#32 : BitVec 32).toInt = 99999 := by decide
  have hmax : IntOp.maxsi 0#32 w = w := by
    unfold IntOp.maxsi
    rw [if_neg]
    simp only [BitVec.slt, h0, decide_eq_true_eq, not_lt]
    exact h.1
  rw [hmax]
  unfold IntOp.minsi
  rw [if_neg]
  simp only [BitVec.slt, h9, decide_eq_true_eq, not_lt]
  have := h.2
  omega

/-- The clamp at an entry that is a node id. -/
theorem clipK_apply (x : IVec S500000 32) (e : Fin 500000) (h : EdgeHead.InRange (x (ix1 e))) : clipK x (ix1 e) = x (ix1 e) :=
  clip_word _ h

/-- The lengthened index vector at one of its first 500000 entries. -/
theorem padIdxK_apply (x : IVec S500000 32) (e : Fin 500000) : padIdxK x (ix1 (⟨e.val, by omega⟩ : Fin 500736)) = x (ix1 e) := by
  unfold padIdxK
  refine pad_apply_of_inside _ _ _ x _ _ _ _ (ix1 e) fun a => ?_
  obtain rfl : a = 0 := Subsingleton.elim _ _
  show e.val = 0 + e.val * (0 + 1)
  omega

/-- The lengthened extra features at one of the first 500000 rows. -/
theorem padExK_apply (ex : FVec Ideal S500000x5 .f32) (e : Fin 500000) (q : Fin 5) :
    padExK (F := Ideal) ex (ix2 (⟨e.val, by omega⟩ : Fin 500736) q) = ex (ix2 e q) := by
  unfold padExK
  refine pad_apply_of_inside _ _ _ ex _ _ _ _ (ix2 e q) fun a => ?_
  match a with
  | ⟨0, _⟩ => show e.val = 0 + e.val * (0 + 1); omega
  | ⟨1, _⟩ => show q.val = 0 + q.val * (0 + 1); omega

/-- The lengthened first-layer weights at one of the first 519 rows. -/
theorem padW1K_apply (W1 : FVec Ideal S519x256 .f32) (j : Fin 519) (k : Fin 256) :
    padW1K (F := Ideal) W1 (ix2 (⟨j.val, by omega⟩ : Fin 640) k) = W1 (ix2 j k) := by
  unfold padW1K
  refine pad_apply_of_inside _ _ _ W1 _ _ _ _ (ix2 j k) fun a => ?_
  match a with
  | ⟨0, _⟩ => show j.val = 0 + j.val * (0 + 1); omega
  | ⟨1, _⟩ => show k.val = 0 + k.val * (0 + 1); omega

/-- A left fold by "and" from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ fun n hn => hl n (List.mem_cons_of_mem _ hn)
    rw [h, hl a List.mem_cons_self]
    rfl

/-- The wrapped start index of a node id is the id itself: it is not negative, so the select keeps the word. -/
theorem wrapK_apply (idx : IVec S500736 32) (p : Fin 500736) (h : EdgeHead.InRange (idx (ix1 p))) :
    wrapK idx (ix2 p (0 : Fin 1)) = idx (ix1 p) := by
  unfold wrapK
  refine (broadcastInDim_apply _ _ _ (ix2 p (0 : Fin 1)) (ix1 p) fun a => ?_).trans ?_
  · obtain rfl : a = 0 := Subsingleton.elim _ _
    exact (if_neg (by decide)).symm
  · rw [select_apply]
    have hc : cmpi .slt idx (broadcastInDim S500736 ![] bcast_S_S500736 (constantI S_ 32 0#32)) (ix1 p) = 0#1 := by
      refine eq_zero_of_ne_one fun h1 => ?_
      have h2 : IntOp.cmpi .slt (idx (ix1 p)) 0#32 = 1#1 := h1
      have h3 := IntOp.cmpi_slt.1 h2
      have h0 : (0#32 : BitVec 32).toInt = 0 := by decide
      rw [h0] at h3
      exact absurd h.1 (not_le.2 h3)
    rw [hc, select_zero]

/-- The range test of a start index that is a node id holds. -/
theorem maskK_apply (v5 : IVec S500736x1 32) (p : Fin 500736) (h : EdgeHead.InRange (v5 (ix2 p (0 : Fin 1)))) :
    maskK v5 (ix1 p) = 1#1 := by
  unfold maskK
  rw [Host.reduce_eq_foldl]
  refine foldl_andi_one _ _ _ rfl fun i hi => ?_
  have hd : reducesTo_S500736x1_S500736_d1.drop i = ix1 p := of_decide_eq_true (List.mem_filter.1 hi).2
  have hv : (reducesTo_S500736x1_S500736_d1.drop i 0 : Nat) = i 0 := Shape.ReducesTo.drop_apply_val _ i 0
  have hi0 : i = ix2 p (0 : Fin 1) := by
    funext b
    match b with
    | ⟨0, _⟩ => exact Fin.ext (hv.symm.trans (congrArg (fun j : S500736.Idx => (j 0 : Nat)) hd))
    | ⟨1, _⟩ => exact Subsingleton.elim (α := Fin 1) _ _
  subst hi0
  show IntOp.andi (IntOp.cmpi .sge (v5 (ix2 p (0 : Fin 1))) 0#32) (IntOp.cmpi .sle (v5 (ix2 p (0 : Fin 1))) 99999#32) = 1#1
  rw [IntOp.andi_eq_one]
  have h0 : (0#32 : BitVec 32).toInt = 0 := by decide
  have h9 : (99999#32 : BitVec 32).toInt = 99999 := by decide
  refine ⟨IntOp.cmpi_sge.2 ?_, IntOp.cmpi_sle.2 ?_⟩
  · rw [h0]; exact h.1
  · rw [h9]; have := h.2; omega

/-- The take at (p, q): under an in-range index word, entry q of the row of x that the word names. -/
theorem takeK_apply (x : FVec Ideal S100000x128 .f32) (idx : IVec S500736 32) (p : Fin 500736) (q : Fin 128)
    (h : EdgeHead.InRange (idx (ix1 p))) : takeK (F := Ideal) x idx (ix2 p q) = EdgeHead.nodeRow x (idx (ix1 p)) q := by
  have hw : wrapK idx (ix2 p (0 : Fin 1)) = idx (ix1 p) := wrapK_apply idx p h
  have hm : maskK (wrapK idx) (ix1 p) = 1#1 := maskK_apply (wrapK idx) p (by rw [hw]; exact h)
  have hb : broadcastInDim S500736x128 ![0] bcast_S500736_S500736x128_0 (maskK (wrapK idx)) (ix2 p q) = 1#1 := by
    refine (broadcastInDim_apply _ _ _ (ix2 p q) (ix1 p) fun a => ?_).trans hm
    obtain rfl : a = 0 := Subsingleton.elim _ _
    exact (if_neg (by decide)).symm
  unfold takeK
  rw [select_apply, hb, select_one,
    RowGather.rowGather_apply gather_S100000x128_S500736x1_S500736x128_1_0_n_n_0_1_1128 rfl rfl rfl rfl rfl x (wrapK idx) p q
      (by decide)]
  show x (ix2 _ q) = x (ix2 (EdgeHead.node (idx (ix1 p))) q)
  refine congrArg (fun r : Fin 100000 => x (ix2 r q)) (Fin.ext ?_)
  show min (wrapK idx (ix2 p (0 : Fin 1))).toInt.toNat (100000 - 1) = min (idx (ix1 p)).toInt.toNat 99999
  rw [hw]

end Cert.KernelIdeal.Hand

end
-- ==== Proof.KerHost.lean ====
/-
  What the arrays hold when the kernel's region is entered, read at an index, at the ideal values.

  Each of the seven arrays the region's windows read is written by the host operations before the region: it equals
  the staged term of the argument arrays that those operations compose (the clamped, lengthened index rows and the rows
  taken at them; the lengthened extra features; the lengthened first-layer weights, converted; the second-layer
  weights, converted; the two bias vectors as one-row matrices).  At the ideal values a conversion to a narrower
  format is the identity, so under the hypothesis that every index word is a node id the two taken arrays hold, in row
  e < 500000, the rows of the node table that edge e's two words name, and the others hold the arguments' entries.
-/
import proofs.«415116_j26603027432198_2_alg».proof.Proof.KerHostA
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Idealize.ShloMosaic.StableHlo

/-! ## Each array as the staged term of the arguments -/

section Terms

variable {F : FTy → Type} [FloatOps F]
variable (m : (ℓ : Loc nD τ sig) → Buf (Elt F) ℓ) (c : Dev nD)

set_option maxHeartbeats 4000000 in
theorem v9_eq : (V (F := F) m c main_v9 : FVec F S500736x128 .f32) =
    takeK (F := F) (m ((c : Thread nD τ).loc main_arg0) : FVec F S100000x128 .f32)
      (padIdxK (clipK (idxRowK0 (m ((c : Thread nD τ).loc main_arg1) : IVec S2x500000 32)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

set_option maxHeartbeats 4000000 in
theorem v10_eq : (V (F := F) m c main_v10 : FVec F S500736x128 .f32) =
    takeK (F := F) (m ((c : Thread nD τ).loc main_arg0) : FVec F S100000x128 .f32)
      (padIdxK (clipK (idxRowK1 (m ((c : Thread nD τ).loc main_arg1) : IVec S2x500000 32)))) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

set_option maxHeartbeats 4000000 in
theorem v8_eq : (V (F := F) m c main_v8 : FVec F S500736x5 .f32) =
    padExK (F := F) (m ((c : Thread nD τ).loc main_arg2) : FVec F S500000x5 .f32) := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

set_option maxHeartbeats 4000000 in
theorem v12_eq : (V (F := F) m c main_v12 : FVec F S640x256 .bf16) =
    truncf (F := F) .bf16 (padW1K (F := F) (m ((c : Thread nD τ).loc main_arg3) : FVec F S519x256 .f32)) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

set_option maxHeartbeats 4000000 in
theorem v13_eq : (V (F := F) m c main_v13 : FVec F S256x2 .bf16) =
    truncf (F := F) .bf16 (m ((c : Thread nD τ).loc main_arg5) : FVec F S256x2 .f32) bitsLt_bf16_f32 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

set_option maxHeartbeats 4000000 in
theorem v14_eq : (V (F := F) m c main_v14 : FVec F S1x256 .f32) =
    shapeCast S1x256 (m ((c : Thread nD τ).loc main_arg4) : FVec F S256 .f32) shapeCasts_S256_S1x256 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

set_option maxHeartbeats 4000000 in
theorem v15_eq : (V (F := F) m c main_v15 : FVec F S1x2 .f32) =
    shapeCast S1x2 (m ((c : Thread nD τ).loc main_arg6) : FVec F S2 .f32) shapeCasts_S2_S1x2 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, List.flatten_cons, List.flatten_nil, List.append_nil, List.cons_append, List.nil_append]
  after_results_simp <;> (try simp only [TRef.ofBuf, TRef.toBuf, cast_eq, id_eq]) <;> rfl

end Terms

/-! ## The arrays read at an index, at the ideal values -/

variable (m : (ℓ : Loc nD τ sig) → Buf (Elt Ideal) ℓ) (c : Dev nD)

/-- Row e < 500000 of the first taken array is the row of the node table that edge e's first word names. -/
theorem v9_apply
    (hr : ∀ (r : Fin 2) (e : Fin 500000), EdgeHead.InRange ((m ((c : Thread nD τ).loc main_arg1) : IVec S2x500000 32) (ix2 r e)))
    (e : Fin 500000) (q : Fin 128) :
    (V (F := Ideal) m c main_v9 : S500736x128.Idx → EReal) (ix2 (⟨e.val, by omega⟩ : Fin 500736) q)
      = EdgeHead.nodeRow (m ((c : Thread nD τ).loc main_arg0) : S100000x128.Idx → EReal)
          ((m ((c : Thread nD τ).loc main_arg1) : IVec S2x500000 32) (ix2 (0 : Fin 2) e)) q := by
  have hu : padIdxK (clipK (idxRowK0 (m ((c : Thread nD τ).loc main_arg1) : IVec S2x500000 32)))
      (ix1 (⟨e.val, by omega⟩ : Fin 500736)) = (m ((c : Thread nD τ).loc main_arg1) : IVec S2x500000 32) (ix2 (0 : Fin 2) e) := by
    rw [padIdxK_apply, clipK_apply _ _ (by rw [idxRowK0_apply]; exact hr 0 e), idxRowK0_apply]
  refine (congrFun (v9_eq (F := Ideal) m c) _).trans ?_
  rw [takeK_apply _ _ _ _ (by rw [hu]; exact hr 0 e), hu]

/-- Row e < 500000 of the second taken array is the row of the node table that edge e's second word names. -/
theorem v10_apply
    (hr : ∀ (r : Fin 2) (e : Fin 500000), EdgeHead.InRange ((m ((c : Thread nD τ).loc main_arg1) : IVec S2x500000 32) (ix2 r e)))
    (e : Fin 500000) (q : Fin 128) :
    (V (F := Ideal) m c main_v10 : S500736x128.Idx → EReal) (ix2 (⟨e.val, by omega⟩ : Fin 500736) q)
      = EdgeHead.nodeRow (m ((c : Thread nD τ).loc main_arg0) : S100000x128.Idx → EReal)
          ((m ((c : Thread nD τ).loc main_arg1) : IVec S2x500000 32) (ix2 (1 : Fin 2) e)) q := by
  have hu : padIdxK (clipK (idxRowK1 (m ((c : Thread nD τ).loc main_arg1) : IVec S2x500000 32)))
      (ix1 (⟨e.val, by omega⟩ : Fin 500736)) = (m ((c : Thread nD τ).loc main_arg1) : IVec S2x500000 32) (ix2 (1 : Fin 2) e) := by
    rw [padIdxK_apply, clipK_apply _ _ (by rw [idxRowK1_apply]; exact hr 1 e), idxRowK1_apply]
  refine (congrFun (v10_eq (F := Ideal) m c) _).trans ?_
  rw [takeK_apply _ _ _ _ (by rw [hu]; exact hr 1 e), hu]

/-- Row e < 500000 of the lengthened extra features is row e of the extra features. -/
theorem v8_apply (e : Fin 500000) (q : Fin 5) :
    (V (F := Ideal) m c main_v8 : S500736x5.Idx → EReal) (ix2 (⟨e.val, by omega⟩ : Fin 500736) q)
      = (m ((c : Thread nD τ).loc main_arg2) : S500000x5.Idx → EReal) (ix2 e q) :=
  (congrFun (v8_eq (F := Ideal) m c) _).trans (padExK_apply _ e q)

/-- Row j < 519 of the lengthened, converted first-layer weights is row j of the first-layer weights. -/
theorem v12_apply (j : Fin 519) (k : Fin 256) :
    (V (F := Ideal) m c main_v12 : S640x256.Idx → EReal) (ix2 (⟨j.val, by omega⟩ : Fin 640) k)
      = (m ((c : Thread nD τ).loc main_arg3) : S519x256.Idx → EReal) (ix2 j k) :=
  (congrFun (v12_eq (F := Ideal) m c) _).trans (padW1K_apply _ j k)

/-- The one-row first bias at (0, k) is the first bias at k. -/
theorem v14_apply (k : Fin 256) :
    (V (F := Ideal) m c main_v14 : S1x256.Idx → EReal) (ix2 (0 : Fin 1) k)
      = (m ((c : Thread nD τ).loc main_arg4) : S256.Idx → EReal) (ix1 k) := by
  refine (congrFun (v14_eq (F := Ideal) m c) _).trans (shapeCast_apply _ _ (ix2 (0 : Fin 1) k) (ix1 k) ?_)
  rw [Shape.rowMajor_val_two, Shape.rowMajor_val_one]
  show k.val = 0 * 256 + k.val
  omega

/-- The converted second-layer weights are the second-layer weights. -/
theorem v13_apply (k : Fin 256) (o : Fin 2) :
    (V (F := Ideal) m c main_v13 : S256x2.Idx → EReal) (ix2 k o)
      = (m ((c : Thread nD τ).loc main_arg5) : S256x2.Idx → EReal) (ix2 k o) :=
  (congrFun (v13_eq (F := Ideal) m c) _).trans (truncf_apply _ _ _)

/-- The one-row second bias at (0, o) is the second bias at o. -/
theorem v15_apply (o : Fin 2) :
    (V (F := Ideal) m c main_v15 : S1x2.Idx → EReal) (ix2 (0 : Fin 1) o)
      = (m ((c : Thread nD τ).loc main_arg6) : S2.Idx → EReal) (ix1 o) := by
  refine (congrFun (v15_eq (F := Ideal) m c) _).trans (shapeCast_apply _ _ (ix2 (0 : Fin 1) o) (ix1 o) ?_)
  rw [Shape.rowMajor_val_two, Shape.rowMajor_val_one]
  show o.val = 0 * 2 + o.val
  omega

end Cert.KernelIdeal.Hand

end
-- ==== Proof.KerRun.lean ====
/-
  The kernel program's result.  After the region the result array holds the score of row r of the operand arrays; the
  program returns its first 500000 rows.  On those rows the operand arrays are: the node table's rows the (in-range)
  index words name, the extras, and the weights (the first layer's padded with zero rows beyond entry 519, where the
  feature vector is 0): so entry (e, o) of the result is the specification's G at (e, o).
-/
import proofs.«415116_j26603027432198_2_alg».proof.Proof.KerCover
import proofs.«415116_j26603027432198_2_alg».proof.Proof.KerTail
import proofs.«415116_j26603027432198_2_alg».proof.Proof.KerHost

set_option maxRecDepth 16384
set_option Elab.async false

noncomputable section

namespace Cert.KernelIdeal.Hand

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The result array of the specification, from the seven argument arrays. -/
def resultOf (z : S100000x128.Idx → EReal) (ei : S2x500000.Idx → BitVec 32) (ex : S500000x5.Idx → EReal) (W1 : S519x256.Idx → EReal)
    (b1 : S256.Idx → EReal) (W2 : S256x2.Idx → EReal) (b2 : S2.Idx → EReal) : S500000x2.Idx → EReal :=
  fun i => EdgeHead.G z ei ex W1 b1 W2 b2 (i 0) (i 1)

/-- The index words of core c's table are node ids. -/
def IdxOk (c : Dev nD) : Prop :=
  ∀ (r : Fin 2) (e : Fin 500000), EdgeHead.InRange ((m ((c : Thread nD τ).loc main_arg1) : S2x500000.Idx → BitVec 32) (ix2 r e))

/-- On the first 500000 rows the region's result is the specification's. -/
theorem GKV_apply (c : Dev nD) (hr : IdxOk m c) (e : Fin 500000) (o : Fin 2) :
    GKV m c (ix2 (⟨e.val, by omega⟩ : Fin 500736) o)
      = EdgeHead.G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) e o := by
  show GKat _ _ _ _ _ _ _ (⟨e.val, by omega⟩ : Fin 500736) o = _
  unfold GKat EdgeHead.G
  refine (EdgeHead.score_640_eq _ _ _ _ (fun j k => (m ((c : Thread nD τ).loc main_arg3) : S519x256.Idx → EReal) (ix2 j k))
    (fun j k => v12_apply m c j k) _ _ _ o).trans ?_
  exact score_congr (funext fun q => v9_apply m c hr e q) (funext fun q => v10_apply m c hr e q)
    (funext fun q => v8_apply m c e q) rfl (funext fun k => v14_apply m c k)
    (funext fun k => funext fun o' => v13_apply m c k o') (funext fun o' => v15_apply m c o') o

/-- The returned array is the specification's result array. -/
theorem v17_value (c : Dev nD) (hr : IdxOk m c) :
    extractStridedSlice S500000x2 ![0, 0] ((dats m 0 c).arrAt 7 cfg0.N) slices_S500736x2_S500000x2_0_0
      = resultOf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  rw [final7]
  funext i
  obtain ⟨e, o, rfl⟩ : ∃ (e : Fin 500000) (o : Fin 2), i = ix2 e o := ⟨i 0, i 1, eq_ix2 i⟩
  refine (extractStridedSlice_apply _ _ _ (ix2 e o) (ix2 (⟨e.val, by omega⟩ : Fin 500736) o) (fun a => ?_)).trans (GKV_apply m c hr e o)
  match a with
  | ⟨0, _⟩ => show e.val = 0 + e.val; omega
  | ⟨1, _⟩ => show o.val = 0 + o.val; omega

/-- Every weakly fair execution of the kernel's program from a memory whose index words are node ids ends with the
    specification's result array in the result buffer and the arguments unchanged. -/
theorem run_value (hr : ∀ c, IdxOk m c) :
    θ_run defs (onTc (τ := τ) (main (F := Ideal))) ⟨m, fun _ => 0, ρ⟩ (fun r => ∀ c : Dev nD,
      r.2.mem ((c.tc : Thread nD τ).loc main_v17)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (v17_value m c (hr c)), (h c).2⟩) (post_v17 m ρ)

end Cert.KernelIdeal.Hand

end
-- ==== Proof.RefTerm.lean ====
/-
  The reference program's result as one pure term of its seven argument arrays, in stages: the two index rows,
  the row gather with its range mask, the row norms and the cosine, the 519-entry feature matrix, the hidden
  layer, the output layer and the softplus.  Each stage is the composition of the host operations that compute it.
-/
import proofs.«415116_j26603027432198_2_alg».proof.Proof.Gen.ReferenceIdeal

noncomputable section

namespace Cert.ReferenceIdeal.Hand

open Cert.ReferenceIdeal Cert.ReferenceIdeal.Gen Idealize.ShloMosaic

variable {F : FTy → Type} [FloatOps F]

/-- Row r of the [2, E] index table as a vector of E words. -/
def idxRow0 (ei : IVec S2x500000 32) : IVec S500000 32 :=
  shapeCast _ (extractStridedSlice S1x500000 ![0, 0] ei slices_S2x500000_S1x500000_0_0) shapeCasts_S1x500000_S500000
def idxRow1 (ei : IVec S2x500000 32) : IVec S500000 32 :=
  shapeCast _ (extractStridedSlice S1x500000 ![1, 0] ei slices_S2x500000_S1x500000_1_0) shapeCasts_S1x500000_S500000

/-- A negative index word wrapped by the table length, as a column of start indices. -/
def wrapT (idx : IVec S500000 32) : IVec S500000x1 32 :=
  broadcastInDim S500000x1 ![0] bcast_S500000_S500000x1_0
    (select (cmpi .slt idx (broadcastInDim S500000 ![] bcast_S_S500000 (constantI S_ 32 0#32)))
      (addi idx (broadcastInDim S500000 ![] bcast_S_S500000 (constantI S_ 32 100000#32))) idx)

/-- Which rows' start index lies inside the table. -/
def maskT (v5 : IVec S500000x1 32) : IVec S500000 1 :=
  Host.reduce IntOp.andi
    (andi (cmpi .sge v5 (broadcastInDim S500000x1 ![] bcast_S_S500000x1 (constantI S_ 32 0#32)))
      (cmpi .sle v5 (broadcastInDim S500000x1 ![0, 1] bcast_S1x1_S500000x1_0_1
        (broadcastInDim S1x1 ![1] bcast_S1_S1x1_1 (constantI S1 32 99999#32)))))
    (constantI S_ 1 1#1) reducesTo_S500000x1_S500000_d1 h_S_

/-- The rows of x the index vector names; a row whose index is outside the table is filled with the fill word. -/
def takeT (x : FVec F S100000x128 .f32) (idx : IVec S500000 32) : FVec F S500000x128 .f32 :=
  select (broadcastInDim S500000x128 ![0] bcast_S500000_S500000x128_0 (maskT (wrapT idx)))
    (Host.gather gather_S100000x128_S500000x1_S500000x128_1_0_n_n_0_1_1128 x (wrapT idx))
    (broadcastInDim S500000x128 ![] bcast_S_S500000x128 (constant S_ .f32 0x7FC00000#32))

/-- Row sums of a * b, kept as a column. -/
def dotT (a b : FVec F S500000x128 .f32) : FVec F S500000x1 .f32 :=
  broadcastInDim S500000x1 ![0] bcast_S500000_S500000x1_0
    (Host.reduceAdd (mulf a b) (constant S_ .f32 0x00000000#32) reducesTo_S500000x128_S500000_d1 h_S_)

/-- Row norms floored at ε. -/
def normT (a : FVec F S500000x128 .f32) : FVec F S500000x1 .f32 :=
  maximumf (Host.sqrt (dotT a a)) (broadcastInDim S500000x1 ![] bcast_S_S500000x1 (constant S_ .f32 0x2B8CBCCC#32))

def cosT (a b : FVec F S500000x128 .f32) : FVec F S500000x1 .f32 :=
  Host.divf (dotT a b) (mulf (normT a) (normT b))

/-- The feature matrix [E, 519]. -/
def featT (a b : FVec F S500000x128 .f32) (ex : FVec F S500000x5 .f32) : FVec F S500000x519 .f32 :=
  concatenate S500000x519 1 [⟨S500000x128, a⟩, ⟨S500000x128, b⟩, ⟨S500000x128, Host.absf (subf a b)⟩, ⟨S500000x128, mulf a b⟩,
    ⟨S500000x1, dotT a b⟩, ⟨S500000x1, cosT a b⟩, ⟨S500000x5, ex⟩]
    concatenates_S500000x128_S500000x128_S500000x128_S500000x128_S500000x1_S500000x1_S500000x5_S500000x519_d1

def hiddenT (f : FVec F S500000x519 .f32) (W1 : FVec F S519x256 .f32) (b1 : FVec F S256 .f32) : FVec F S500000x256 .f32 :=
  maximumf
    (addf (Host.dotGeneral dot_S500000x519_S519x256_S500000x256_1_0_0_1_n_n none f W1)
      (broadcastInDim S500000x256 ![0, 1] bcast_S1x256_S500000x256_0_1 (broadcastInDim S1x256 ![1] bcast_S256_S1x256_1 b1)))
    (broadcastInDim S500000x256 ![] bcast_S_S500000x256 (constant S_ .f32 0x00000000#32))

def preT (h : FVec F S500000x256 .f32) (W2 : FVec F S256x2 .f32) (b2 : FVec F S2 .f32) : FVec F S500000x2 .f32 :=
  addf (Host.dotGeneral dot_S500000x256_S256x2_S500000x2_1_0_0_1_n_n none h W2)
    (broadcastInDim S500000x2 ![0, 1] bcast_S1x2_S500000x2_0_1 (broadcastInDim S1x2 ![1] bcast_S2_S1x2_1 b2))

/-- The zero matrix [E, 2] the softplus compares against. -/
def zeroT : FVec F S500000x2 .f32 := broadcastInDim S500000x2 ![] bcast_S_S500000x2 (constant S_ .f32 0x00000000#32)

def softplusT (y : FVec F S500000x2 .f32) : FVec F S500000x2 .f32 :=
  select (cmpf .une (subf y zeroT) (subf y zeroT)) (addf y zeroT)
    (addf (maximumf y zeroT) (Host.log1p (Host.exp (Host.negf (Host.absf (subf y zeroT))))))

/-- The reference's result of its arguments. -/
def refTerm (z : FVec F S100000x128 .f32) (ei : IVec S2x500000 32) (ex : FVec F S500000x5 .f32) (W1 : FVec F S519x256 .f32)
    (b1 : FVec F S256 .f32) (W2 : FVec F S256x2 .f32) (b2 : FVec F S2 .f32) : FVec F S500000x2 .f32 :=
  softplusT (preT (hiddenT (featT (takeT z (idxRow0 ei)) (takeT z (idxRow1 ei)) ex) W1 b1) W2 b2)

end Cert.ReferenceIdeal.Hand

end
-- ==== Proof.RefRun.lean ====
/-
  The reference program's run.  Its @main is a straight line of one hundred host operations once each call of an
  outlined function is replaced by the callee's operations over that call's own buffers; the run of a straight line
  ends with every buffer at the fold of the operations' results over the launch contents, and the fold at the
  result buffer is the staged pure term of the seven arguments.
-/
import proofs.«415116_j26603027432198_2_alg».proof.Proof.RefTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's one hundred operations, in order: the two index rows (4), the two row gathers (23 each, the
    select of the wrapped index among them), the difference, product, dot, the two norms and the cosine (24),
    the concatenation (1), the hidden layer (7), the output layer (4) and the softplus (14). -/
abbrev ops : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000,
    TRef.nullary main_call0.c (constantI S_ 32 0#32),
    TRef.unary main_call0.c main_call0.v0 (broadcastInDim S500000 ![] bcast_S_S500000),
    TRef.binary (.of main_v1 : TRef sig ⟨S500000, .i32⟩) main_call0.v0 main_call0.v1 (cmpi .slt),
    TRef.nullary main_call0.c_0 (constantI S_ 32 100000#32),
    TRef.unary main_call0.c_0 main_call0.v2 (broadcastInDim S500000 ![] bcast_S_S500000),
    TRef.binary (.of main_v1 : TRef sig ⟨S500000, .i32⟩) main_call0.v2 main_call0.v3 addi,
    TRef.ternary main_call0.v1 main_call0.v3 (.of main_v1 : TRef sig ⟨S500000, .i32⟩) main_call0.call0.v0 select,
    TRef.unary main_call0.call0.v0 main_call0.v5 (broadcastInDim S500000x1 ![0] bcast_S500000_S500000x1_0),
    TRef.nullary main_call0.c_1 (constantI S1 32 99999#32),
    TRef.nullary main_call0.c_2 (constantI S_ 32 0#32),
    TRef.unary main_call0.c_2 main_call0.v6 (broadcastInDim S500000x1 ![] bcast_S_S500000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S500000x1 ![0, 1] bcast_S1x1_S500000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S500000x1_S500000_d1 h_S_),
    TRef.binary (.of main_arg0 : TRef sig ⟨S100000x128, .f32⟩) main_call0.v5 main_call0.v13 (fun x i => Host.gather gather_S100000x128_S500000x1_S500000x128_1_0_n_n_0_1_1128 x i),
    TRef.unary main_call0.v12 main_call0.v14 (broadcastInDim S500000x128 ![0] bcast_S500000_S500000x128_0),
    TRef.nullary main_call0.cst (constant S_ .f32 0x7FC00000#32),
    TRef.unary main_call0.cst main_call0.v15 (broadcastInDim S500000x128 ![] bcast_S_S500000x128),
    TRef.ternary main_call0.v14 main_call0.v13 main_call0.v15 main_call0.v16 select,
    TRef.nullary main_call1.c (constantI S_ 32 0#32),
    TRef.unary main_call1.c main_call1.v0 (broadcastInDim S500000 ![] bcast_S_S500000),
    TRef.binary (.of main_v3 : TRef sig ⟨S500000, .i32⟩) main_call1.v0 main_call1.v1 (cmpi .slt),
    TRef.nullary main_call1.c_0 (constantI S_ 32 100000#32),
    TRef.unary main_call1.c_0 main_call1.v2 (broadcastInDim S500000 ![] bcast_S_S500000),
    TRef.binary (.of main_v3 : TRef sig ⟨S500000, .i32⟩) main_call1.v2 main_call1.v3 addi,
    TRef.ternary main_call1.v1 main_call1.v3 (.of main_v3 : TRef sig ⟨S500000, .i32⟩) main_call1.call0.v0 select,
    TRef.unary main_call1.call0.v0 main_call1.v5 (broadcastInDim S500000x1 ![0] bcast_S500000_S500000x1_0),
    TRef.nullary main_call1.c_1 (constantI S1 32 99999#32),
    TRef.nullary main_call1.c_2 (constantI S_ 32 0#32),
    TRef.unary main_call1.c_2 main_call1.v6 (broadcastInDim S500000x1 ![] bcast_S_S500000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S500000x1 ![0, 1] bcast_S1x1_S500000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S500000x1_S500000_d1 h_S_),
    TRef.binary (.of main_arg0 : TRef sig ⟨S100000x128, .f32⟩) main_call1.v5 main_call1.v13 (fun x i => Host.gather gather_S100000x128_S500000x1_S500000x128_1_0_n_n_0_1_1128 x i),
    TRef.unary main_call1.v12 main_call1.v14 (broadcastInDim S500000x128 ![0] bcast_S500000_S500000x128_0),
    TRef.nullary main_call1.cst (constant S_ .f32 0x7FC00000#32),
    TRef.unary main_call1.cst main_call1.v15 (broadcastInDim S500000x128 ![] bcast_S_S500000x128),
    TRef.ternary main_call1.v14 main_call1.v13 main_call1.v15 main_call1.v16 select,
    binary main_v4 main_v5 main_v6 (subf : (⟨S500000x128, .f32⟩ : BufTy).Contents (Elt F) → (⟨S500000x128, .f32⟩ : BufTy).Contents (Elt F) → (⟨S500000x128, .f32⟩ : BufTy).Contents (Elt F)),
    unary main_v6 main_v7 (Host.absf : (⟨S500000x128, .f32⟩ : BufTy).Contents (Elt F) → (⟨S500000x128, .f32⟩ : BufTy).Contents (Elt F)),
    binary main_v4 main_v5 main_v8 (mulf : (⟨S500000x128, .f32⟩ : BufTy).Contents (Elt F) → (⟨S500000x128, .f32⟩ : BufTy).Contents (Elt F) → (⟨S500000x128, .f32⟩ : BufTy).Contents (Elt F)),
    nullary main_cst (constant S_ .f32 0x00000000#32),
    binary main_v8 main_cst main_v9 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v9 main_v10 (broadcastInDim S500000x1 ![0] bcast_S500000_S500000x1_0 : (⟨S500000, .f32⟩ : BufTy).Contents (Elt F) → (⟨S500000x1, .f32⟩ : BufTy).Contents (Elt F)),
    TRef.binary (.of main_v4 : TRef sig ⟨S500000x128, .f32⟩) (.of main_v4 : TRef sig ⟨S500000x128, .f32⟩) main_call2.v0 mulf,
    TRef.nullary main_call2.cst (constant S_ .f32 0x00000000#32),
    TRef.binary main_call2.v0 main_call2.cst main_call2.v1 (fun x v => Host.reduceAdd x v reducesTo_S500000x128_S500000_d1 h_S_),
    TRef.unary main_call2.v1 main_call2.v2 (broadcastInDim S500000x1 ![0] bcast_S500000_S500000x1_0),
    TRef.unary main_call2.v2 main_call2.v3 Host.sqrt,
    nullary main_cst_0 (constant S_ .f32 0x2B8CBCCC#32),
    unary main_cst_0 main_v12 (broadcastInDim S500000x1 ![] bcast_S_S500000x1 : (⟨S_, .f32⟩ : BufTy).Contents (Elt F) → (⟨S500000x1, .f32⟩ : BufTy).Contents (Elt F)),
    binary main_v11 main_v12 main_v13 (maximumf : (⟨S500000x1, .f32⟩ : BufTy).Contents (Elt F) → (⟨S500000x1, .f32⟩ : BufTy).Contents (Elt F) → (⟨S500000x1, .f32⟩ : BufTy).Contents (Elt F)),
    TRef.binary (.of main_v5 : TRef sig ⟨S500000x128, .f32⟩) (.of main_v5 : TRef sig ⟨S500000x128, .f32⟩) main_call3.v0 mulf,
    TRef.nullary main_call3.cst (constant S_ .f32 0x00000000#32),
    TRef.binary main_call3.v0 main_call3.cst main_call3.v1 (fun x v => Host.reduceAdd x v reducesTo_S500000x128_S500000_d1 h_S_),
    TRef.unary main_call3.v1 main_call3.v2 (broadcastInDim S500000x1 ![0] bcast_S500000_S500000x1_0),
    TRef.unary main_call3.v2 main_call3.v3 Host.sqrt,
    nullary main_cst_1 (constant S_ .f32 0x2B8CBCCC#32),
    unary main_cst_1 main_v15 (broadcastInDim S500000x1 ![] bcast_S_S500000x1 : (⟨S_, .f32⟩ : BufTy).Contents (Elt F) → (⟨S500000x1, .f32⟩ : BufTy).Contents (Elt F)),
    binary main_v14 main_v15 main_v16 (maximumf : (⟨S500000x1, .f32⟩ : BufTy).Contents (Elt F) → (⟨S500000x1, .f32⟩ : BufTy).Contents (Elt F) → (⟨S500000x1, .f32⟩ : BufTy).Contents (Elt F)),
    binary main_v13 main_v16 main_v17 (mulf : (⟨S500000x1, .f32⟩ : BufTy).Contents (Elt F) → (⟨S500000x1, .f32⟩ : BufTy).Contents (Elt F) → (⟨S500000x1, .f32⟩ : BufTy).Contents (Elt F)),
    binary main_v10 main_v17 main_v18 (Host.divf : (⟨S500000x1, .f32⟩ : BufTy).Contents (Elt F) → (⟨S500000x1, .f32⟩ : BufTy).Contents (Elt F) → (⟨S500000x1, .f32⟩ : BufTy).Contents (Elt F)),
    nary ![main_v4, main_v5, main_v7, main_v8, main_v10, main_v18, main_arg2] main_v19 (fun u => concatenate S500000x519 1 [⟨S500000x128, u 0⟩, ⟨S500000x128, u 1⟩, ⟨S500000x128, u 2⟩, ⟨S500000x128, u 3⟩, ⟨S500000x1, u 4⟩, ⟨S500000x1, u 5⟩, ⟨S500000x5, u 6⟩] concatenates_S500000x128_S500000x128_S500000x128_S500000x128_S500000x1_S500000x1_S500000x5_S500000x519_d1),
    binary main_v19 main_arg3 main_v20 ((fun l r => Host.dotGeneral dot_S500000x519_S519x256_S500000x256_1_0_0_1_n_n none l r) : (⟨S500000x519, .f32⟩ : BufTy).Contents (Elt F) → (⟨S519x256, .f32⟩ : BufTy).Contents (Elt F) → (⟨S500000x256, .f32⟩ : BufTy).Contents (Elt F)),
    unary main_arg4 main_v21 (broadcastInDim S1x256 ![1] bcast_S256_S1x256_1 : (⟨S256, .f32⟩ : BufTy).Contents (Elt F) → (⟨S1x256, .f32⟩ : BufTy).Contents (Elt F)),
    unary main_v21 main_v22 (broadcastInDim S500000x256 ![0, 1] bcast_S1x256_S500000x256_0_1 : (⟨S1x256, .f32⟩ : BufTy).Contents (Elt F) → (⟨S500000x256, .f32⟩ : BufTy).Contents (Elt F)),
    binary main_v20 main_v22 main_v23 (addf : (⟨S500000x256, .f32⟩ : BufTy).Contents (Elt F) → (⟨S500000x256, .f32⟩ : BufTy).Contents (Elt F) → (⟨S500000x256, .f32⟩ : BufTy).Contents (Elt F)),
    TRef.nullary main_call4.cst (constant S_ .f32 0x00000000#32),
    TRef.unary main_call4.cst main_call4.v0 (broadcastInDim S500000x256 ![] bcast_S_S500000x256),
    TRef.binary (.of main_v23 : TRef sig ⟨S500000x256, .f32⟩) main_call4.v0 main_call4.v1 maximumf,
    binary main_v24 main_arg5 main_v25 ((fun l r => Host.dotGeneral dot_S500000x256_S256x2_S500000x2_1_0_0_1_n_n none l r) : (⟨S500000x256, .f32⟩ : BufTy).Contents (Elt F) → (⟨S256x2, .f32⟩ : BufTy).Contents (Elt F) → (⟨S500000x2, .f32⟩ : BufTy).Contents (Elt F)),
    unary main_arg6 main_v26 (broadcastInDim S1x2 ![1] bcast_S2_S1x2_1 : (⟨S2, .f32⟩ : BufTy).Contents (Elt F) → (⟨S1x2, .f32⟩ : BufTy).Contents (Elt F)),
    unary main_v26 main_v27 (broadcastInDim S500000x2 ![0, 1] bcast_S1x2_S500000x2_0_1 : (⟨S1x2, .f32⟩ : BufTy).Contents (Elt F) → (⟨S500000x2, .f32⟩ : BufTy).Contents (Elt F)),
    binary main_v25 main_v27 main_v28 (addf : (⟨S500000x2, .f32⟩ : BufTy).Contents (Elt F) → (⟨S500000x2, .f32⟩ : BufTy).Contents (Elt F) → (⟨S500000x2, .f32⟩ : BufTy).Contents (Elt F)),
    TRef.nullary main_call5.cst (constant S_ .f32 0x00000000#32),
    TRef.unary main_call5.cst main_call5.v0 (broadcastInDim S500000x2 ![] bcast_S_S500000x2),
    TRef.binary (.of main_v28 : TRef sig ⟨S500000x2, .f32⟩) main_call5.v0 main_call5.v1 maximumf,
    TRef.unary main_call5.cst main_call5.v2 (broadcastInDim S500000x2 ![] bcast_S_S500000x2),
    TRef.binary (.of main_v28 : TRef sig ⟨S500000x2, .f32⟩) main_call5.v2 main_call5.v3 subf,
    TRef.binary main_call5.v3 main_call5.v3 main_call5.v4 (cmpf .une),
    TRef.unary main_call5.cst main_call5.v5 (broadcastInDim S500000x2 ![] bcast_S_S500000x2),
    TRef.binary (.of main_v28 : TRef sig ⟨S500000x2, .f32⟩) main_call5.v5 main_call5.v6 addf,
    TRef.unary main_call5.v3 main_call5.v7 Host.absf,
    TRef.unary main_call5.v7 main_call5.v8 Host.negf,
    TRef.unary main_call5.v8 main_call5.v9 Host.exp,
    TRef.unary main_call5.v9 main_call5.v10 Host.log1p,
    TRef.binary main_call5.v1 main_call5.v10 main_call5.v11 addf,
    TRef.ternary main_call5.v4 main_call5.v6 main_call5.v11 main_call5.v12 select ]

set_option maxRecDepth 8192 in
set_option maxHeartbeats 4000000 in
/-- @main is that straight line: each call is its callee's body over the call's record, and a record's field is
    the buffer it names, so both sides are the same chain of steps. -/
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    nullary_bufs_sub .., nullary_bufs_sub .., unary_bufs_sub .., binary_bufs_sub .., unary_bufs_sub .., unary_bufs_sub ..,
    binary_bufs_sub .., binary_bufs_sub .., nullary_bufs_sub .., binary_bufs_sub .., binary_bufs_sub .., unary_bufs_sub ..,
    nullary_bufs_sub .., unary_bufs_sub .., ternary_bufs_sub .., nullary_bufs_sub .., unary_bufs_sub .., binary_bufs_sub ..,
    nullary_bufs_sub .., unary_bufs_sub .., binary_bufs_sub .., ternary_bufs_sub .., unary_bufs_sub .., nullary_bufs_sub ..,
    nullary_bufs_sub .., unary_bufs_sub .., binary_bufs_sub .., unary_bufs_sub .., unary_bufs_sub .., binary_bufs_sub ..,
    binary_bufs_sub .., nullary_bufs_sub .., binary_bufs_sub .., binary_bufs_sub .., unary_bufs_sub .., nullary_bufs_sub ..,
    unary_bufs_sub .., ternary_bufs_sub .., binary_bufs_sub .., unary_bufs_sub .., binary_bufs_sub .., nullary_bufs_sub ..,
    binary_bufs_sub .., unary_bufs_sub .., binary_bufs_sub .., nullary_bufs_sub .., binary_bufs_sub .., unary_bufs_sub ..,
    unary_bufs_sub .., nullary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    binary_bufs_sub .., binary_bufs_sub .., nary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., unary_bufs_sub ..,
    unary_bufs_sub .., unary_bufs_sub .., binary_bufs_sub .., ternary_bufs_sub ..⟩

/-! ## The run in eight stretches

The hundred operations are cut where the staged term is: the index rows, the first gather, the second gather, the
row statistics, the concatenation, the hidden layer, the output layer, the softplus.  Through one stretch, from ANY
contents `V`, the buffer a stage ends in holds that stage's term of the contents the stretch reads, and a buffer
the stretch does not write keeps its contents; the fold over the whole line is the fold over the stretches in turn. -/

/-- The fold over two lines run one after the other is the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The two rows of the index table, each as a vector. -/
abbrev segA : List (HloOp τ sig (Elt F)) :=
  [ unary main_arg1 main_v0 ((extractStridedSlice S1x500000 ![0, 0] · slices_S2x500000_S1x500000_0_0) : (⟨S2x500000, .i32⟩ : BufTy).Contents (Elt F) → (⟨S1x500000, .i32⟩ : BufTy).Contents (Elt F)),
    reshape main_v0 main_v1 rfl shapeCasts_S1x500000_S500000,
    unary main_arg1 main_v2 ((extractStridedSlice S1x500000 ![1, 0] · slices_S2x500000_S1x500000_1_0) : (⟨S2x500000, .i32⟩ : BufTy).Contents (Elt F) → (⟨S1x500000, .i32⟩ : BufTy).Contents (Elt F)),
    reshape main_v2 main_v3 rfl shapeCasts_S1x500000_S500000 ]
/-- The buffers that stretch writes. -/
abbrev segA_W : List (Ref sig .tc) := [main_v0, main_v1, main_v2, main_v3]
theorem segA_writes : (segA : List (HloOp τ sig (Elt F))).Forall fun op => op.writes ⊆ (segA_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segA_keep (V : Valuation τ sig (Elt F)) (r : Ref sig .tc) (h : r ∉ segA_W) :
    after segA V (no_index (Proc.devRef .tc r)) = V (Proc.devRef .tc r) :=
  after_of_writes_sub segA V segA_writes h

/-- The gather of the rows the first index row names, with its range mask. -/
abbrev segT0 : List (HloOp τ sig (Elt F)) :=
  [ TRef.nullary main_call0.c (constantI S_ 32 0#32),
    TRef.unary main_call0.c main_call0.v0 (broadcastInDim S500000 ![] bcast_S_S500000),
    TRef.binary (.of main_v1 : TRef sig ⟨S500000, .i32⟩) main_call0.v0 main_call0.v1 (cmpi .slt),
    TRef.nullary main_call0.c_0 (constantI S_ 32 100000#32),
    TRef.unary main_call0.c_0 main_call0.v2 (broadcastInDim S500000 ![] bcast_S_S500000),
    TRef.binary (.of main_v1 : TRef sig ⟨S500000, .i32⟩) main_call0.v2 main_call0.v3 addi,
    TRef.ternary main_call0.v1 main_call0.v3 (.of main_v1 : TRef sig ⟨S500000, .i32⟩) main_call0.call0.v0 select,
    TRef.unary main_call0.call0.v0 main_call0.v5 (broadcastInDim S500000x1 ![0] bcast_S500000_S500000x1_0),
    TRef.nullary main_call0.c_1 (constantI S1 32 99999#32),
    TRef.nullary main_call0.c_2 (constantI S_ 32 0#32),
    TRef.unary main_call0.c_2 main_call0.v6 (broadcastInDim S500000x1 ![] bcast_S_S500000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S500000x1 ![0, 1] bcast_S1x1_S500000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S500000x1_S500000_d1 h_S_),
    TRef.binary (.of main_arg0 : TRef sig ⟨S100000x128, .f32⟩) main_call0.v5 main_call0.v13 (fun x i => Host.gather gather_S100000x128_S500000x1_S500000x128_1_0_n_n_0_1_1128 x i),
    TRef.unary main_call0.v12 main_call0.v14 (broadcastInDim S500000x128 ![0] bcast_S500000_S500000x128_0),
    TRef.nullary main_call0.cst (constant S_ .f32 0x7FC00000#32),
    TRef.unary main_call0.cst main_call0.v15 (broadcastInDim S500000x128 ![] bcast_S_S500000x128),
    TRef.ternary main_call0.v14 main_call0.v13 main_call0.v15 main_call0.v16 select ]
/-- The buffers that stretch writes. -/
abbrev segT0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem segT0_writes : (segT0 : List (HloOp τ sig (Elt F))).Forall fun op => op.writes ⊆ (segT0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segT0_keep (V : Valuation τ sig (Elt F)) (r : Ref sig .tc) (h : r ∉ segT0_W) :
    after segT0 V (no_index (Proc.devRef .tc r)) = V (Proc.devRef .tc r) :=
  after_of_writes_sub segT0 V segT0_writes h

/-- The gather of the rows the second index row names, with its range mask. -/
abbrev segT1 : List (HloOp τ sig (Elt F)) :=
  [ TRef.nullary main_call1.c (constantI S_ 32 0#32),
    TRef.unary main_call1.c main_call1.v0 (broadcastInDim S500000 ![] bcast_S_S500000),
    TRef.binary (.of main_v3 : TRef sig ⟨S500000, .i32⟩) main_call1.v0 main_call1.v1 (cmpi .slt),
    TRef.nullary main_call1.c_0 (constantI S_ 32 100000#32),
    TRef.unary main_call1.c_0 main_call1.v2 (broadcastInDim S500000 ![] bcast_S_S500000),
    TRef.binary (.of main_v3 : TRef sig ⟨S500000, .i32⟩) main_call1.v2 main_call1.v3 addi,
    TRef.ternary main_call1.v1 main_call1.v3 (.of main_v3 : TRef sig ⟨S500000, .i32⟩) main_call1.call0.v0 select,
    TRef.unary main_call1.call0.v0 main_call1.v5 (broadcastInDim S500000x1 ![0] bcast_S500000_S500000x1_0),
    TRef.nullary main_call1.c_1 (constantI S1 32 99999#32),
    TRef.nullary main_call1.c_2 (constantI S_ 32 0#32),
    TRef.unary main_call1.c_2 main_call1.v6 (broadcastInDim S500000x1 ![] bcast_S_S500000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S500000x1 ![0, 1] bcast_S1x1_S500000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S500000x1_S500000_d1 h_S_),
    TRef.binary (.of main_arg0 : TRef sig ⟨S100000x128, .f32⟩) main_call1.v5 main_call1.v13 (fun x i => Host.gather gather_S100000x128_S500000x1_S500000x128_1_0_n_n_0_1_1128 x i),
    TRef.unary main_call1.v12 main_call1.v14 (broadcastInDim S500000x128 ![0] bcast_S500000_S500000x128_0),
    TRef.nullary main_call1.cst (constant S_ .f32 0x7FC00000#32),
    TRef.unary main_call1.cst main_call1.v15 (broadcastInDim S500000x128 ![] bcast_S_S500000x128),
    TRef.ternary main_call1.v14 main_call1.v13 main_call1.v15 main_call1.v16 select ]
/-- The buffers that stretch writes. -/
abbrev segT1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v5]
theorem segT1_writes : (segT1 : List (HloOp τ sig (Elt F))).Forall fun op => op.writes ⊆ (segT1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segT1_keep (V : Valuation τ sig (Elt F)) (r : Ref sig .tc) (h : r ∉ segT1_W) :
    after segT1 V (no_index (Proc.devRef .tc r)) = V (Proc.devRef .tc r) :=
  after_of_writes_sub segT1 V segT1_writes h

/-- The difference's absolute value, the product, the dot, the two floored norms and the cosine. -/
abbrev segC : List (HloOp τ sig (Elt F)) :=
  [ binary main_v4 main_v5 main_v6 (subf : (⟨S500000x128, .f32⟩ : BufTy).Contents (Elt F) → (⟨S500000x128, .f32⟩ : BufTy).Contents (Elt F) → (⟨S500000x128, .f32⟩ : BufTy).Contents (Elt F)),
    unary main_v6 main_v7 (Host.absf : (⟨S500000x128, .f32⟩ : BufTy).Contents (Elt F) → (⟨S500000x128, .f32⟩ : BufTy).Contents (Elt F)),
    binary main_v4 main_v5 main_v8 (mulf : (⟨S500000x128, .f32⟩ : BufTy).Contents (Elt F) → (⟨S500000x128, .f32⟩ : BufTy).Contents (Elt F) → (⟨S500000x128, .f32⟩ : BufTy).Contents (Elt F)),
    nullary main_cst (constant S_ .f32 0x00000000#32),
    binary main_v8 main_cst main_v9 ((fun x v => Host.reduceAdd x v reducesTo_S500000x128_S500000_d1 h_S_) : (⟨S500000x128, .f32⟩ : BufTy).Contents (Elt F) → (⟨S_, .f32⟩ : BufTy).Contents (Elt F) → (⟨S500000, .f32⟩ : BufTy).Contents (Elt F)),
    unary main_v9 main_v10 (broadcastInDim S500000x1 ![0] bcast_S500000_S500000x1_0 : (⟨S500000, .f32⟩ : BufTy).Contents (Elt F) → (⟨S500000x1, .f32⟩ : BufTy).Contents (Elt F)),
    TRef.binary (.of main_v4 : TRef sig ⟨S500000x128, .f32⟩) (.of main_v4 : TRef sig ⟨S500000x128, .f32⟩) main_call2.v0 mulf,
    TRef.nullary main_call2.cst (constant S_ .f32 0x00000000#32),
    TRef.binary main_call2.v0 main_call2.cst main_call2.v1 (fun x v => Host.reduceAdd x v reducesTo_S500000x128_S500000_d1 h_S_),
    TRef.unary main_call2.v1 main_call2.v2 (broadcastInDim S500000x1 ![0] bcast_S500000_S500000x1_0),
    TRef.unary main_call2.v2 main_call2.v3 Host.sqrt,
    nullary main_cst_0 (constant S_ .f32 0x2B8CBCCC#32),
    unary main_cst_0 main_v12 (broadcastInDim S500000x1 ![] bcast_S_S500000x1 : (⟨S_, .f32⟩ : BufTy).Contents (Elt F) → (⟨S500000x1, .f32⟩ : BufTy).Contents (Elt F)),
    binary main_v11 main_v12 main_v13 (maximumf : (⟨S500000x1, .f32⟩ : BufTy).Contents (Elt F) → (⟨S500000x1, .f32⟩ : BufTy).Contents (Elt F) → (⟨S500000x1, .f32⟩ : BufTy).Contents (Elt F)),
    TRef.binary (.of main_v5 : TRef sig ⟨S500000x128, .f32⟩) (.of main_v5 : TRef sig ⟨S500000x128, .f32⟩) main_call3.v0 mulf,
    TRef.nullary main_call3.cst (constant S_ .f32 0x00000000#32),
    TRef.binary main_call3.v0 main_call3.cst main_call3.v1 (fun x v => Host.reduceAdd x v reducesTo_S500000x128_S500000_d1 h_S_),
    TRef.unary main_call3.v1 main_call3.v2 (broadcastInDim S500000x1 ![0] bcast_S500000_S500000x1_0),
    TRef.unary main_call3.v2 main_call3.v3 Host.sqrt,
    nullary main_cst_1 (constant S_ .f32 0x2B8CBCCC#32),
    unary main_cst_1 main_v15 (broadcastInDim S500000x1 ![] bcast_S_S500000x1 : (⟨S_, .f32⟩ : BufTy).Contents (Elt F) → (⟨S500000x1, .f32⟩ : BufTy).Contents (Elt F)),
    binary main_v14 main_v15 main_v16 (maximumf : (⟨S500000x1, .f32⟩ : BufTy).Contents (Elt F) → (⟨S500000x1, .f32⟩ : BufTy).Contents (Elt F) → (⟨S500000x1, .f32⟩ : BufTy).Contents (Elt F)),
    binary main_v13 main_v16 main_v17 (mulf : (⟨S500000x1, .f32⟩ : BufTy).Contents (Elt F) → (⟨S500000x1, .f32⟩ : BufTy).Contents (Elt F) → (⟨S500000x1, .f32⟩ : BufTy).Contents (Elt F)),
    binary main_v10 main_v17 main_v18 (Host.divf : (⟨S500000x1, .f32⟩ : BufTy).Contents (Elt F) → (⟨S500000x1, .f32⟩ : BufTy).Contents (Elt F) → (⟨S500000x1, .f32⟩ : BufTy).Contents (Elt F)) ]
/-- The buffers that stretch writes. -/
abbrev segC_W : List (Ref sig .tc) := [main_v6, main_v7, main_v8, main_cst, main_v9, main_v10, main_call2_v0, main_call2_cst, main_call2_v1, main_call2_v2, main_v11, main_cst_0, main_v12, main_v13, main_call3_v0, main_call3_cst, main_call3_v1, main_call3_v2, main_v14, main_cst_1, main_v15, main_v16, main_v17, main_v18]
theorem segC_writes : (segC : List (HloOp τ sig (Elt F))).Forall fun op => op.writes ⊆ (segC_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segC_keep (V : Valuation τ sig (Elt F)) (r : Ref sig .tc) (h : r ∉ segC_W) :
    after segC V (no_index (Proc.devRef .tc r)) = V (Proc.devRef .tc r) :=
  after_of_writes_sub segC V segC_writes h

/-- The concatenation into the feature matrix. -/
abbrev segFe : List (HloOp τ sig (Elt F)) :=
  [ nary ![main_v4, main_v5, main_v7, main_v8, main_v10, main_v18, main_arg2] main_v19 (fun u => concatenate S500000x519 1 [⟨S500000x128, u 0⟩, ⟨S500000x128, u 1⟩, ⟨S500000x128, u 2⟩, ⟨S500000x128, u 3⟩, ⟨S500000x1, u 4⟩, ⟨S500000x1, u 5⟩, ⟨S500000x5, u 6⟩] concatenates_S500000x128_S500000x128_S500000x128_S500000x128_S500000x1_S500000x1_S500000x5_S500000x519_d1) ]
/-- The buffers that stretch writes. -/
abbrev segFe_W : List (Ref sig .tc) := [main_v19]
theorem segFe_writes : (segFe : List (HloOp τ sig (Elt F))).Forall fun op => op.writes ⊆ (segFe_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
/-- A buffer that stretch does not write keeps its contents through it. -/
theorem segFe_keep (V : Valuation τ sig (Elt F)) (r : Ref sig .tc) (h : r ∉ segFe_W) :
    after segFe V (no_index (Proc.devRef .tc r)) = V (Proc.devRef .tc r) :=
  after_of_writes_sub segFe V segFe_writes h

/-- The hidden layer: product, bias, maximum with zero. -/
abbrev segH : List (HloOp τ sig (Elt F)) :=
  [ binary main_v19 main_arg3 main_v20 ((fun l r => Host.dotGeneral dot_S500000x519_S519x256_S500000x256_1_0_0_1_n_n none l r) : (⟨S500000x519, .f32⟩ : BufTy).Contents (Elt F) → (⟨S519x256, .f32⟩ : BufTy).Contents (Elt F) → (⟨S500000x256, .f32⟩ : BufTy).Contents (Elt F)),
    unary main_arg4 main_v21 (broadcastInDim S1x256 ![1] bcast_S256_S1x256_1 : (⟨S256, .f32⟩ : BufTy).Contents (Elt F) → (⟨S1x256, .f32⟩ : BufTy).Contents (Elt F)),
    unary main_v21 main_v22 (broadcastInDim S500000x256 ![0, 1] bcast_S1x256_S500000x256_0_1 : (⟨S1x256, .f32⟩ : BufTy).Contents (Elt F) → (⟨S500000x256, .f32⟩ : BufTy).Contents (Elt F)),
    binary main_v20 main_v22 main_v23 (addf : (⟨S500000x256, .f32⟩ : BufTy).Contents (Elt F) → (⟨S500000x256, .f32⟩ : BufTy).Contents (Elt F) → (⟨S500000x256, .f32⟩ : BufTy).Contents (Elt F)),
    TRef.nullary main_call4.cst (constant S_ .f32 0x00000000#32),
    TRef.unary main_call4.cst main_call4.v0 (broadcastInDim S500000x256 ![] bcast_S_S500000x256),
    TRef.binary (.of main_v23 : TRef sig ⟨S500000x256, .f32⟩) main_call4.v0 main_call4.v1 maximumf ]
/-- The buffers that stretch writes. -/
abbrev segH_W : List (Ref sig .tc) := [main_v20, main_v21, main_v22, main_v23, main_call4_cst, main_call4_v0, main_v24]
theorem segH_writes : (segH : List (HloOp τ sig (Elt F))).Forall fun op => op.writes ⊆ (segH_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segH_keep (V : Valuation τ sig (Elt F)) (r : Ref sig .tc) (h : r ∉ segH_W) :
    after segH V (no_index (Proc.devRef .tc r)) = V (Proc.devRef .tc r) :=
  after_of_writes_sub segH V segH_writes h

/-- The output layer: product and bias. -/
abbrev segP : List (HloOp τ sig (Elt F)) :=
  [ binary main_v24 main_arg5 main_v25 ((fun l r => Host.dotGeneral dot_S500000x256_S256x2_S500000x2_1_0_0_1_n_n none l r) : (⟨S500000x256, .f32⟩ : BufTy).Contents (Elt F) → (⟨S256x2, .f32⟩ : BufTy).Contents (Elt F) → (⟨S500000x2, .f32⟩ : BufTy).Contents (Elt F)),
    unary main_arg6 main_v26 (broadcastInDim S1x2 ![1] bcast_S2_S1x2_1 : (⟨S2, .f32⟩ : BufTy).Contents (Elt F) → (⟨S1x2, .f32⟩ : BufTy).Contents (Elt F)),
    unary main_v26 main_v27 (broadcastInDim S500000x2 ![0, 1] bcast_S1x2_S500000x2_0_1 : (⟨S1x2, .f32⟩ : BufTy).Contents (Elt F) → (⟨S500000x2, .f32⟩ : BufTy).Contents (Elt F)),
    binary main_v25 main_v27 main_v28 (addf : (⟨S500000x2, .f32⟩ : BufTy).Contents (Elt F) → (⟨S500000x2, .f32⟩ : BufTy).Contents (Elt F) → (⟨S500000x2, .f32⟩ : BufTy).Contents (Elt F)) ]
/-- The buffers that stretch writes. -/
abbrev segP_W : List (Ref sig .tc) := [main_v25, main_v26, main_v27, main_v28]
theorem segP_writes : (segP : List (HloOp τ sig (Elt F))).Forall fun op => op.writes ⊆ (segP_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segP_keep (V : Valuation τ sig (Elt F)) (r : Ref sig .tc) (h : r ∉ segP_W) :
    after segP V (no_index (Proc.devRef .tc r)) = V (Proc.devRef .tc r) :=
  after_of_writes_sub segP V segP_writes h

/-- The softplus. -/
abbrev segS : List (HloOp τ sig (Elt F)) :=
  [ TRef.nullary main_call5.cst (constant S_ .f32 0x00000000#32),
    TRef.unary main_call5.cst main_call5.v0 (broadcastInDim S500000x2 ![] bcast_S_S500000x2),
    TRef.binary (.of main_v28 : TRef sig ⟨S500000x2, .f32⟩) main_call5.v0 main_call5.v1 maximumf,
    TRef.unary main_call5.cst main_call5.v2 (broadcastInDim S500000x2 ![] bcast_S_S500000x2),
    TRef.binary (.of main_v28 : TRef sig ⟨S500000x2, .f32⟩) main_call5.v2 main_call5.v3 subf,
    TRef.binary main_call5.v3 main_call5.v3 main_call5.v4 (cmpf .une),
    TRef.unary main_call5.cst main_call5.v5 (broadcastInDim S500000x2 ![] bcast_S_S500000x2),
    TRef.binary (.of main_v28 : TRef sig ⟨S500000x2, .f32⟩) main_call5.v5 main_call5.v6 addf,
    TRef.unary main_call5.v3 main_call5.v7 Host.absf,
    TRef.unary main_call5.v7 main_call5.v8 Host.negf,
    TRef.unary main_call5.v8 main_call5.v9 Host.exp,
    TRef.unary main_call5.v9 main_call5.v10 Host.log1p,
    TRef.binary main_call5.v1 main_call5.v10 main_call5.v11 addf,
    TRef.ternary main_call5.v4 main_call5.v6 main_call5.v11 main_call5.v12 select ]
/-- The buffers that stretch writes. -/
abbrev segS_W : List (Ref sig .tc) := [main_call5_cst, main_call5_v0, main_call5_v1, main_call5_v2, main_call5_v3, main_call5_v4, main_call5_v5, main_call5_v6, main_call5_v7, main_call5_v8, main_call5_v9, main_call5_v10, main_call5_v11, main_v29]
theorem segS_writes : (segS : List (HloOp τ sig (Elt F))).Forall fun op => op.writes ⊆ (segS_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that stretch does not write keeps its contents through it. -/
theorem segS_keep (V : Valuation τ sig (Elt F)) (r : Ref sig .tc) (h : r ∉ segS_W) :
    after segS V (no_index (Proc.devRef .tc r)) = V (Proc.devRef .tc r) :=
  after_of_writes_sub segS V segS_writes h

set_option maxRecDepth 8192 in
theorem ops_eq : (ops : List (HloOp τ sig (Elt F))) = segA ++ (segT0 ++ (segT1 ++ (segC ++ (segFe ++ (segH ++ (segP ++ segS)))))) := rfl

/-! ### What each stretch computes -/

-- The stage equations never look inside a reduction, a gather or a concatenation: these stay folded.
attribute [local irreducible] Host.reduce Host.reduceAdd Host.gather concatenate

set_option maxRecDepth 8192 in
theorem A_v1 (V : Valuation τ sig (Elt F)) :
    after segA V (no_index (Proc.devRef .tc main_v1)) = idxRow0 (V (Proc.devRef .tc main_arg1)) := by
  after_results_simp <;> rfl

set_option maxRecDepth 8192 in
theorem A_v3 (V : Valuation τ sig (Elt F)) :
    after segA V (no_index (Proc.devRef .tc main_v3)) = idxRow1 (V (Proc.devRef .tc main_arg1)) := by
  after_results_simp <;> rfl

set_option maxRecDepth 8192 in
theorem T0_v4 (V : Valuation τ sig (Elt F)) :
    after segT0 V (no_index (Proc.devRef .tc main_v4)) = takeT (V (Proc.devRef .tc main_arg0)) (V (Proc.devRef .tc main_v1)) := by
  after_results_simp <;> rfl

set_option maxRecDepth 8192 in
theorem T1_v5 (V : Valuation τ sig (Elt F)) :
    after segT1 V (no_index (Proc.devRef .tc main_v5)) = takeT (V (Proc.devRef .tc main_arg0)) (V (Proc.devRef .tc main_v3)) := by
  after_results_simp <;> rfl

set_option maxRecDepth 8192 in
theorem C_v7 (V : Valuation τ sig (Elt F)) :
    after segC V (no_index (Proc.devRef .tc main_v7)) = Host.absf (subf (V (Proc.devRef .tc main_v4)) (V (Proc.devRef .tc main_v5))) := by
  after_results_simp <;> rfl

set_option maxRecDepth 8192 in
theorem C_v8 (V : Valuation τ sig (Elt F)) :
    after segC V (no_index (Proc.devRef .tc main_v8)) = mulf (V (Proc.devRef .tc main_v4)) (V (Proc.devRef .tc main_v5)) := by
  after_results_simp <;> rfl

set_option maxRecDepth 8192 in
theorem C_v10 (V : Valuation τ sig (Elt F)) :
    after segC V (no_index (Proc.devRef .tc main_v10)) = dotT (V (Proc.devRef .tc main_v4)) (V (Proc.devRef .tc main_v5)) := by
  after_results_simp <;> rfl

set_option maxRecDepth 8192 in
theorem C_v18 (V : Valuation τ sig (Elt F)) :
    after segC V (no_index (Proc.devRef .tc main_v18)) = cosT (V (Proc.devRef .tc main_v4)) (V (Proc.devRef .tc main_v5)) := by
  after_results_simp <;> rfl

set_option maxRecDepth 8192 in
theorem Fe_v19 (V : Valuation τ sig (Elt F)) :
    after segFe V (no_index (Proc.devRef .tc main_v19)) = concatenate S500000x519 1 [⟨S500000x128, V (Proc.devRef .tc main_v4)⟩, ⟨S500000x128, V (Proc.devRef .tc main_v5)⟩, ⟨S500000x128, V (Proc.devRef .tc main_v7)⟩, ⟨S500000x128, V (Proc.devRef .tc main_v8)⟩,
        ⟨S500000x1, V (Proc.devRef .tc main_v10)⟩, ⟨S500000x1, V (Proc.devRef .tc main_v18)⟩, ⟨S500000x5, V (Proc.devRef .tc main_arg2)⟩]
        concatenates_S500000x128_S500000x128_S500000x128_S500000x128_S500000x1_S500000x1_S500000x5_S500000x519_d1 := by
  simp only [after_cons, after_nil]
  rfl

set_option maxRecDepth 8192 in
theorem H_v24 (V : Valuation τ sig (Elt F)) :
    after segH V (no_index (Proc.devRef .tc main_v24)) = hiddenT (V (Proc.devRef .tc main_v19)) (V (Proc.devRef .tc main_arg3)) (V (Proc.devRef .tc main_arg4)) := by
  after_results_simp <;> rfl

set_option maxRecDepth 8192 in
theorem P_v28 (V : Valuation τ sig (Elt F)) :
    after segP V (no_index (Proc.devRef .tc main_v28)) = preT (V (Proc.devRef .tc main_v24)) (V (Proc.devRef .tc main_arg5)) (V (Proc.devRef .tc main_arg6)) := by
  after_results_simp <;> rfl

set_option maxRecDepth 8192 in
theorem S_v29 (V : Valuation τ sig (Elt F)) :
    after segS V (no_index (Proc.devRef .tc main_v29)) = softplusT (V (Proc.devRef .tc main_v28)) := by
  after_results_simp <;> rfl

/-! ### The whole line -/

set_option maxRecDepth 8192 in
/-- The row statistics and the concatenation together: the feature matrix of the two gathered matrices and the
    extra columns. -/
theorem CF_v19 (V : Valuation τ sig (Elt F)) :
    after segFe (after segC V) (no_index (Proc.devRef .tc main_v19)) = featT (V (Proc.devRef .tc main_v4)) (V (Proc.devRef .tc main_v5)) (V (Proc.devRef .tc main_arg2)) := by
  rw [Fe_v19, C_v7, C_v8, C_v10, C_v18, segC_keep V main_v4 (by decide), segC_keep V main_v5 (by decide),
    segC_keep V main_arg2 (by decide)]
  rfl

set_option maxRecDepth 8192 in
/-- The fold over the whole line, at the result buffer, is the staged term of the arguments' contents. -/
theorem res_eq (V : Valuation τ sig (Elt F)) :
    after ops V (Proc.devRef .tc main_v29) = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_eq]
  simp (disch := decide) only [after_app, S_v29, P_v28, H_v24, CF_v19, T1_v5, T0_v4, A_v1, A_v3,
    segA_keep, segT0_keep, segT1_keep, segC_keep, segFe_keep, segH_keep, segP_keep, segS_keep]
  rfl

/-- No operation writes an argument. -/
theorem arg0_eq (V : Valuation τ sig (Elt F)) : after ops V (Proc.devRef .tc main_arg0) = V (Proc.devRef .tc main_arg0) := by
  rw [ops_eq]
  simp (disch := decide) only [after_app, segA_keep, segT0_keep, segT1_keep, segC_keep, segFe_keep, segH_keep, segP_keep, segS_keep]

/-- No operation writes an argument. -/
theorem arg1_eq (V : Valuation τ sig (Elt F)) : after ops V (Proc.devRef .tc main_arg1) = V (Proc.devRef .tc main_arg1) := by
  rw [ops_eq]
  simp (disch := decide) only [after_app, segA_keep, segT0_keep, segT1_keep, segC_keep, segFe_keep, segH_keep, segP_keep, segS_keep]

/-- No operation writes an argument. -/
theorem arg2_eq (V : Valuation τ sig (Elt F)) : after ops V (Proc.devRef .tc main_arg2) = V (Proc.devRef .tc main_arg2) := by
  rw [ops_eq]
  simp (disch := decide) only [after_app, segA_keep, segT0_keep, segT1_keep, segC_keep, segFe_keep, segH_keep, segP_keep, segS_keep]

/-- No operation writes an argument. -/
theorem arg3_eq (V : Valuation τ sig (Elt F)) : after ops V (Proc.devRef .tc main_arg3) = V (Proc.devRef .tc main_arg3) := by
  rw [ops_eq]
  simp (disch := decide) only [after_app, segA_keep, segT0_keep, segT1_keep, segC_keep, segFe_keep, segH_keep, segP_keep, segS_keep]

/-- No operation writes an argument. -/
theorem arg4_eq (V : Valuation τ sig (Elt F)) : after ops V (Proc.devRef .tc main_arg4) = V (Proc.devRef .tc main_arg4) := by
  rw [ops_eq]
  simp (disch := decide) only [after_app, segA_keep, segT0_keep, segT1_keep, segC_keep, segFe_keep, segH_keep, segP_keep, segS_keep]

/-- No operation writes an argument. -/
theorem arg5_eq (V : Valuation τ sig (Elt F)) : after ops V (Proc.devRef .tc main_arg5) = V (Proc.devRef .tc main_arg5) := by
  rw [ops_eq]
  simp (disch := decide) only [after_app, segA_keep, segT0_keep, segT1_keep, segC_keep, segFe_keep, segH_keep, segP_keep, segS_keep]

/-- No operation writes an argument. -/
theorem arg6_eq (V : Valuation τ sig (Elt F)) : after ops V (Proc.devRef .tc main_arg6) = V (Proc.devRef .tc main_arg6) := by
  rw [ops_eq]
  simp (disch := decide) only [after_app, segA_keep, segT0_keep, segT1_keep, segC_keep, segFe_keep, segH_keep, segP_keep, segS_keep]

/-- On every device, for any float values, from any memory with zero counters: every weakly fair execution of
    @main terminates with the result buffer at the staged term of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v29).trans (res_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c))⟩)
    (run_seq scopedRefs_eq scopedSems_eq defs main (fun _ => ops) main_eq (fun _ => ops_sub) m ρ)

end Cert.ReferenceIdeal.Hand

end
-- ==== Proof.RefTake.lean ====
/-
  The reference's index rows and its row take, read at an index.

  Row r of the [2, E] index table is a unit-stride slice at offset (r, 0) viewed as a vector: entry e is the table at
  (r, e).  The take of rows of x at an index vector wraps a negative word by the table length, keeps the words as an
  [E, 1] column of start indices, tests each against 0 ≤ v ≤ 99999 (reduced by "and" over the unit axis), gathers the
  rows, and selects between the gathered row and a fill word on the test.  For a word that is a node id (0 ≤ w < 100000
  read signed) the wrap leaves it alone, the test holds, and the gather reads the row the word names.
-/
import proofs.«415116_j26603027432198_2_alg».proof.Proof.RefTerm
import proofs.«415116_j26603027432198_2_alg».proof.Proof.Spec
import proofs.«415116_j26603027432198_2_alg».proof.Proof.LibRowGather
import Idealize.ShloMosaic.Lib.Pipeline.Value
import Idealize.ShloMosaic.Lib.ReduceAll
import Idealize.ShloMosaic.Lib.Affine

noncomputable section

namespace Cert.ReferenceIdeal.Hand

open Cert.ReferenceIdeal Cert.ReferenceIdeal.Gen Idealize.ShloMosaic Idealize.ShloMosaic.ValueIdx

/-- Row 0 of the index table at edge e. -/
theorem idxRow0_apply (ei : IVec S2x500000 32) (e : Fin 500000) : idxRow0 ei (ix1 e) = ei (ix2 (0 : Fin 2) e) := by
  unfold idxRow0
  refine (shapeCast_apply _ _ (ix1 e) (ix2 (0 : Fin 1) e) ?_).trans ?_
  · rw [Shape.rowMajor_val_two, Shape.rowMajor_val_one]
    show 0 * 500000 + e.val = e.val
    omega
  · exact extractStridedSlice_apply _ ei _ _ (ix2 (0 : Fin 2) e) fun a =>
      match a with
      | ⟨0, _⟩ => rfl
      | ⟨1, _⟩ => (Nat.zero_add _).symm

/-- Row 1 of the index table at edge e. -/
theorem idxRow1_apply (ei : IVec S2x500000 32) (e : Fin 500000) : idxRow1 ei (ix1 e) = ei (ix2 (1 : Fin 2) e) := by
  unfold idxRow1
  refine (shapeCast_apply _ _ (ix1 e) (ix2 (0 : Fin 1) e) ?_).trans ?_
  · rw [Shape.rowMajor_val_two, Shape.rowMajor_val_one]
    show 0 * 500000 + e.val = e.val
    omega
  · exact extractStridedSlice_apply _ ei _ _ (ix2 (1 : Fin 2) e) fun a =>
      match a with
      | ⟨0, _⟩ => rfl
      | ⟨1, _⟩ => (Nat.zero_add _).symm

/-- A left fold by "and" from 1 over words that are all 1 is 1. -/
theorem foldl_andi_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    rw [List.foldl_cons]
    refine foldl_andi_one f l _ ?_ fun n hn => hl n (List.mem_cons_of_mem _ hn)
    rw [h, hl a List.mem_cons_self]
    rfl

/-- The wrapped start index of a node id is the id itself: it is not negative, so the select keeps the word. -/
theorem wrapT_apply (idx : IVec S500000 32) (p : Fin 500000) (h : EdgeHead.InRange (idx (ix1 p))) :
    wrapT idx (ix2 p (0 : Fin 1)) = idx (ix1 p) := by
  unfold wrapT
  refine (broadcastInDim_apply _ _ _ (ix2 p (0 : Fin 1)) (ix1 p) fun a => ?_).trans ?_
  · obtain rfl : a = 0 := Subsingleton.elim _ _
    exact (if_neg (by decide)).symm
  · rw [select_apply]
    have hc : cmpi .slt idx (broadcastInDim S500000 ![] bcast_S_S500000 (constantI S_ 32 0#32)) (ix1 p) = 0#1 := by
      refine eq_zero_of_ne_one fun h1 => ?_
      have h2 : IntOp.cmpi .slt (idx (ix1 p)) 0#32 = 1#1 := h1
      have h3 := IntOp.cmpi_slt.1 h2
      have h0 : (0#32 : BitVec 32).toInt = 0 := by decide
      rw [h0] at h3
      exact absurd h.1 (not_le.2 h3)
    rw [hc, select_zero]

/-- The range test of a start index that is a node id holds. -/
theorem maskT_apply (v5 : IVec S500000x1 32) (p : Fin 500000) (h : EdgeHead.InRange (v5 (ix2 p (0 : Fin 1)))) :
    maskT v5 (ix1 p) = 1#1 := by
  unfold maskT
  rw [Host.reduce_eq_foldl]
  refine foldl_andi_one _ _ _ rfl fun i hi => ?_
  have hd : reducesTo_S500000x1_S500000_d1.drop i = ix1 p := of_decide_eq_true (List.mem_filter.1 hi).2
  have hv : (reducesTo_S500000x1_S500000_d1.drop i 0 : Nat) = i 0 := Shape.ReducesTo.drop_apply_val _ i 0
  have hi0 : i = ix2 p (0 : Fin 1) := by
    funext b
    match b with
    | ⟨0, _⟩ => exact Fin.ext (hv.symm.trans (congrArg (fun j : S500000.Idx => (j 0 : Nat)) hd))
    | ⟨1, _⟩ => exact Subsingleton.elim (α := Fin 1) _ _
  subst hi0
  show IntOp.andi (IntOp.cmpi .sge (v5 (ix2 p (0 : Fin 1))) 0#32) (IntOp.cmpi .sle (v5 (ix2 p (0 : Fin 1))) 99999#32) = 1#1
  rw [IntOp.andi_eq_one]
  have h0 : (0#32 : BitVec 32).toInt = 0 := by decide
  have h9 : (99999#32 : BitVec 32).toInt = 99999 := by decide
  refine ⟨IntOp.cmpi_sge.2 ?_, IntOp.cmpi_sle.2 ?_⟩
  · rw [h0]; exact h.1
  · rw [h9]; have := h.2; omega

/-- The take at (p, q): under an in-range index word, entry q of the row of x that the word names. -/
theorem takeT_apply (x : FVec Ideal S100000x128 .f32) (idx : IVec S500000 32) (p : Fin 500000) (q : Fin 128)
    (h : EdgeHead.InRange (idx (ix1 p))) : takeT (F := Ideal) x idx (ix2 p q) = EdgeHead.nodeRow x (idx (ix1 p)) q := by
  have hw : wrapT idx (ix2 p (0 : Fin 1)) = idx (ix1 p) := wrapT_apply idx p h
  have hm : maskT (wrapT idx) (ix1 p) = 1#1 := maskT_apply (wrapT idx) p (by rw [hw]; exact h)
  have hb : broadcastInDim S500000x128 ![0] bcast_S500000_S500000x128_0 (maskT (wrapT idx)) (ix2 p q) = 1#1 := by
    refine (broadcastInDim_apply _ _ _ (ix2 p q) (ix1 p) fun a => ?_).trans hm
    obtain rfl : a = 0 := Subsingleton.elim _ _
    exact (if_neg (by decide)).symm
  unfold takeT
  rw [select_apply, hb, select_one,
    RowGather.rowGather_apply gather_S100000x128_S500000x1_S500000x128_1_0_n_n_0_1_1128 rfl rfl rfl rfl rfl x (wrapT idx) p q
      (by decide)]
  show x (ix2 _ q) = x (ix2 (EdgeHead.node (idx (ix1 p))) q)
  refine congrArg (fun r : Fin 100000 => x (ix2 r q)) (Fin.ext ?_)
  show min (wrapT idx (ix2 p (0 : Fin 1))).toInt.toNat (100000 - 1) = min (idx (ix1 p)).toInt.toNat 99999
  rw [hw]

end Cert.ReferenceIdeal.Hand

end
-- ==== Proof.RefValue.lean ====
/-
  The reference's staged term read at an index is the specification.

  Stage by stage, at row e: the column of row sums of a * b is the dot product of the two rows; the floored norm column is
  max(‖row‖, ε) and the cosine column the quotient of the dot product by the product of the two floored norms; entry j of the
  feature matrix is the entry of the piece of the concatenation that holds column j; a contraction of one axis against one
  axis is the sum over that axis's coordinates, so the hidden layer and the output layer are the two sums of the
  specification with their biases laid along every row; the softplus's guard compares a value with itself and so takes the
  branch that is the specification's softplus.  Composed over the two gathered endpoint rows, entry (e, o) of the result is
  the score of edge e whenever every index word names a node.
-/
import proofs.«415116_j26603027432198_2_alg».proof.Proof.RefTerm
import proofs.«415116_j26603027432198_2_alg».proof.Proof.Spec
import proofs.«415116_j26603027432198_2_alg».proof.Proof.RefTake
import Idealize.ShloMosaic.Lib.ValueIdx
import Idealize.ShloMosaic.Lib.Pipeline.Value
import Idealize.ShloMosaic.Lib.IdealHost
import Idealize.ShloMosaic.Lib.KernelVsHost
import Idealize.ShloMosaic.PureOps.Ideal.Laws

noncomputable section

namespace Cert.ReferenceIdeal.Hand

open Cert.ReferenceIdeal Cert.ReferenceIdeal.Gen Idealize.ShloMosaic Idealize.ShloMosaic.ValueIdx

/-- Summing a row of a [500000, 128] array: the row axis is kept, the 128 entries are summed. -/
theorem reduces_rows : S500000x128.Reduces [1] S500000 := by decide

theorem lift_rows (e : Fin 500000) (k : Fin 128) : reduces_rows.lift (ix1 e) k = ix2 e k := by
  funext a; match a with | ⟨0, _⟩ => rfl | ⟨1, _⟩ => rfl

/-- The column of row sums of a * b at row e is the dot product of the two rows. -/
theorem dotT_apply (a b : FVec Ideal S500000x128 .f32) (e : Fin 500000) :
    dotT (F := Ideal) a b (ix2 e (0 : Fin 1)) = EdgeHead.dotRow (fun q => a (ix2 e q)) (fun q => b (ix2 e q)) := by
  unfold dotT
  rw [broadcastInDim_apply (![0] : Fin 1 → Fin S500000x1.rank) bcast_S500000_S500000x1_0 _ (ix2 e (0 : Fin 1)) (ix1 e) (by
    intro a; match a with | ⟨0, _⟩ => rfl)]
  rw [hostReduceAdd_apply, Ideal.hostReduceAdd_single reducesTo_S500000x128_S500000_d1 reduces_rows,
    constant_apply, Ideal.ofBits_zero_f32, zero_add]
  show ∑ k : Fin 128, mulf a b (reduces_rows.lift (ix1 e) k) = ∑ k : Fin 128, a (ix2 e k) * b (ix2 e k)
  exact Finset.sum_congr rfl fun k _ => by rw [lift_rows e k]; rfl

theorem hostSqrt_apply {s : Shape} {φ : FTy} (x : FVec Ideal s φ) (i : s.Idx) : Host.sqrt x i = Ideal.sqrt (x i) := rfl

/-- The floored norm column at row e is max(‖row‖, ε). -/
theorem normT_apply (a : FVec Ideal S500000x128 .f32) (e : Fin 500000) :
    normT (F := Ideal) a (ix2 e (0 : Fin 1)) = EdgeHead.normRow (fun q => a (ix2 e q)) := by
  unfold normT
  rw [maximumf_apply, broadcastInDim_scalar_apply, constant_apply, hostSqrt_apply, dotT_apply]
  unfold EdgeHead.normRow EdgeHead.eps EdgeHead.dotRow
  rfl

/-- The cosine column at row e. -/
theorem cosT_apply (a b : FVec Ideal S500000x128 .f32) (e : Fin 500000) :
    cosT (F := Ideal) a b (ix2 e (0 : Fin 1)) = EdgeHead.cosRow (fun q => a (ix2 e q)) (fun q => b (ix2 e q)) := by
  unfold cosT
  rw [hostDivf_apply, mulf_apply, dotT_apply, normT_apply, normT_apply]
  rfl

/-- Entry j of row e of the feature matrix: the piece of the concatenation that holds column j, read at that column less
    the widths of the pieces before it. -/
theorem featT_apply (a b : FVec Ideal S500000x128 .f32) (ex : FVec Ideal S500000x5 .f32) (e : Fin 500000) (j : Fin 519) :
    featT (F := Ideal) a b ex (ix2 e j)
      = EdgeHead.feat (fun q => a (ix2 e q)) (fun q => b (ix2 e q)) (fun q => ex (ix2 e q)) j.val := by
  unfold featT EdgeHead.feat
  by_cases h0 : j.val < 128
  · rw [dif_pos h0]
    exact concatenate_apply_piece _ _ _ (ix2 e j) 0 (by show (0 : ℕ) < 7; decide) S500000x128 a rfl rfl 0 rfl (ix2 e ⟨j.val, h0⟩)
      (fun b => match b with | ⟨0, _⟩ => fun _ => rfl | ⟨1, _⟩ => fun hb => absurd rfl hb) (Nat.zero_add _)
  rw [dif_neg h0]
  by_cases h1 : j.val < 256
  · rw [dif_pos h1]
    exact concatenate_apply_piece _ _ _ (ix2 e j) 1 (by show (1 : ℕ) < 7; decide) S500000x128 b rfl rfl 128 rfl
      (ix2 e ⟨j.val - 128, by omega⟩)
      (fun b => match b with | ⟨0, _⟩ => fun _ => rfl | ⟨1, _⟩ => fun hb => absurd rfl hb)
      (by show 128 + (j.val - 128) = j.val; omega)
  rw [dif_neg h1]
  by_cases h2 : j.val < 384
  · rw [dif_pos h2]
    exact concatenate_apply_piece _ _ _ (ix2 e j) 2 (by show (2 : ℕ) < 7; decide) S500000x128 (Host.absf (subf a b)) rfl rfl 256 rfl
      (ix2 e ⟨j.val - 256, by omega⟩)
      (fun b => match b with | ⟨0, _⟩ => fun _ => rfl | ⟨1, _⟩ => fun hb => absurd rfl hb)
      (by show 256 + (j.val - 256) = j.val; omega)
  rw [dif_neg h2]
  by_cases h3 : j.val < 512
  · rw [dif_pos h3]
    exact concatenate_apply_piece _ _ _ (ix2 e j) 3 (by show (3 : ℕ) < 7; decide) S500000x128 (mulf a b) rfl rfl 384 rfl
      (ix2 e ⟨j.val - 384, by omega⟩)
      (fun b => match b with | ⟨0, _⟩ => fun _ => rfl | ⟨1, _⟩ => fun hb => absurd rfl hb)
      (by show 384 + (j.val - 384) = j.val; omega)
  rw [dif_neg h3]
  by_cases h4 : j.val = 512
  · rw [if_pos h4]
    refine (concatenate_apply_piece _ _ _ (ix2 e j) 4 (by show (4 : ℕ) < 7; decide) S500000x1 (dotT a b) rfl rfl 512 rfl
      (ix2 e (0 : Fin 1))
      (fun b => match b with | ⟨0, _⟩ => fun _ => rfl | ⟨1, _⟩ => fun hb => absurd rfl hb)
      (by show 512 + 0 = j.val; omega)).trans ?_
    exact dotT_apply a b e
  rw [if_neg h4]
  by_cases h5 : j.val = 513
  · rw [if_pos h5]
    refine (concatenate_apply_piece _ _ _ (ix2 e j) 5 (by show (5 : ℕ) < 7; decide) S500000x1 (cosT a b) rfl rfl 513 rfl
      (ix2 e (0 : Fin 1))
      (fun b => match b with | ⟨0, _⟩ => fun _ => rfl | ⟨1, _⟩ => fun hb => absurd rfl hb)
      (by show 513 + 0 = j.val; omega)).trans ?_
    exact cosT_apply a b e
  rw [if_neg h5]
  have h6 : j.val < 519 := j.isLt
  rw [dif_pos h6]
  exact concatenate_apply_piece _ _ _ (ix2 e j) 6 (by show (6 : ℕ) < 7; decide) S500000x5 ex rfl rfl 514 rfl
    (ix2 e ⟨j.val - 514, by omega⟩)
    (fun b => match b with | ⟨0, _⟩ => fun _ => rfl | ⟨1, _⟩ => fun hb => absurd rfl hb)
    (by show 514 + (j.val - 514) = j.val; omega)

/-! ## The two contractions

The first layer contracts axis 1 of the [500000, 519] feature matrix with axis 0 of the [519, 256] weights; at result index
(e, k) and contraction position j the left operand is read at (e, j) and the right one at (j, k). -/

theorem lhs1_0 (j : S500000x256.Idx) (k : dot_S500000x519_S519x256_S500000x256_1_0_0_1_n_n.contr.Idx) :
    (dot_S500000x519_S519x256_S500000x256_1_0_0_1_n_n.lhsIdx j k 0).val = (j 0).val := rfl
theorem lhs1_1 (j : S500000x256.Idx) (k : dot_S500000x519_S519x256_S500000x256_1_0_0_1_n_n.contr.Idx) :
    (dot_S500000x519_S519x256_S500000x256_1_0_0_1_n_n.lhsIdx j k 1).val = (k ⟨0, by decide⟩).val :=
  DotDims.lhsIdx_val_of_single _ rfl j k
theorem rhs1_0 (j : S500000x256.Idx) (k : dot_S500000x519_S519x256_S500000x256_1_0_0_1_n_n.contr.Idx) :
    (dot_S500000x519_S519x256_S500000x256_1_0_0_1_n_n.rhsIdx j k 0).val = (k ⟨0, by decide⟩).val :=
  DotDims.rhsIdx_val_of_single _ rfl j k
theorem rhs1_1 (j : S500000x256.Idx) (k : dot_S500000x519_S519x256_S500000x256_1_0_0_1_n_n.contr.Idx) :
    (dot_S500000x519_S519x256_S500000x256_1_0_0_1_n_n.rhsIdx j k 1).val = (j 1).val := rfl

theorem lhs1_ix (e : Fin 500000) (k : Fin 256) (j : Fin 519) :
    dot_S500000x519_S519x256_S500000x256_1_0_0_1_n_n.lhsIdx (ix2 e k)
      ((contrEquiv1 dot_S500000x519_S519x256_S500000x256_1_0_0_1_n_n 519 rfl rfl).symm j) = ix2 e j := by
  funext a
  apply Fin.ext
  match a with
  | ⟨0, _⟩ => exact lhs1_0 _ _
  | ⟨1, _⟩ => exact (lhs1_1 _ _).trans (contrEquiv1_symm_val _ 519 rfl rfl j)

theorem rhs1_ix (e : Fin 500000) (k : Fin 256) (j : Fin 519) :
    dot_S500000x519_S519x256_S500000x256_1_0_0_1_n_n.rhsIdx (ix2 e k)
      ((contrEquiv1 dot_S500000x519_S519x256_S500000x256_1_0_0_1_n_n 519 rfl rfl).symm j) = ix2 j k := by
  funext a
  apply Fin.ext
  match a with
  | ⟨0, _⟩ => exact (rhs1_0 _ _).trans (contrEquiv1_symm_val _ 519 rfl rfl j)
  | ⟨1, _⟩ => exact rhs1_1 _ _

/-- The first layer's product at (e, k) is the sum over the 519 feature entries. -/
theorem dot1_apply (f : FVec Ideal S500000x519 .f32) (W1 : FVec Ideal S519x256 .f32) (e : Fin 500000) (k : Fin 256) :
    Host.dotGeneral (F := Ideal) dot_S500000x519_S519x256_S500000x256_1_0_0_1_n_n none f W1 (ix2 e k)
      = ∑ j : Fin 519, f (ix2 e j) * W1 (ix2 j k) := by
  simp only [Host.dotGeneral]
  rw [Ideal.dotGeneral_apply,
    ← Equiv.sum_comp (contrEquiv1 dot_S500000x519_S519x256_S500000x256_1_0_0_1_n_n 519 rfl rfl).symm]
  exact Finset.sum_congr rfl fun j _ => by rw [lhs1_ix, rhs1_ix]

/-- The second layer contracts axis 1 of the [500000, 256] hidden matrix with axis 0 of the [256, 2] weights. -/
theorem lhs2_0 (j : S500000x2.Idx) (k : dot_S500000x256_S256x2_S500000x2_1_0_0_1_n_n.contr.Idx) :
    (dot_S500000x256_S256x2_S500000x2_1_0_0_1_n_n.lhsIdx j k 0).val = (j 0).val := rfl
theorem lhs2_1 (j : S500000x2.Idx) (k : dot_S500000x256_S256x2_S500000x2_1_0_0_1_n_n.contr.Idx) :
    (dot_S500000x256_S256x2_S500000x2_1_0_0_1_n_n.lhsIdx j k 1).val = (k ⟨0, by decide⟩).val :=
  DotDims.lhsIdx_val_of_single _ rfl j k
theorem rhs2_0 (j : S500000x2.Idx) (k : dot_S500000x256_S256x2_S500000x2_1_0_0_1_n_n.contr.Idx) :
    (dot_S500000x256_S256x2_S500000x2_1_0_0_1_n_n.rhsIdx j k 0).val = (k ⟨0, by decide⟩).val :=
  DotDims.rhsIdx_val_of_single _ rfl j k
theorem rhs2_1 (j : S500000x2.Idx) (k : dot_S500000x256_S256x2_S500000x2_1_0_0_1_n_n.contr.Idx) :
    (dot_S500000x256_S256x2_S500000x2_1_0_0_1_n_n.rhsIdx j k 1).val = (j 1).val := rfl

theorem lhs2_ix (e : Fin 500000) (o : Fin 2) (k : Fin 256) :
    dot_S500000x256_S256x2_S500000x2_1_0_0_1_n_n.lhsIdx (ix2 e o)
      ((contrEquiv1 dot_S500000x256_S256x2_S500000x2_1_0_0_1_n_n 256 rfl rfl).symm k) = ix2 e k := by
  funext a
  apply Fin.ext
  match a with
  | ⟨0, _⟩ => exact lhs2_0 _ _
  | ⟨1, _⟩ => exact (lhs2_1 _ _).trans (contrEquiv1_symm_val _ 256 rfl rfl k)

theorem rhs2_ix (e : Fin 500000) (o : Fin 2) (k : Fin 256) :
    dot_S500000x256_S256x2_S500000x2_1_0_0_1_n_n.rhsIdx (ix2 e o)
      ((contrEquiv1 dot_S500000x256_S256x2_S500000x2_1_0_0_1_n_n 256 rfl rfl).symm k) = ix2 k o := by
  funext a
  apply Fin.ext
  match a with
  | ⟨0, _⟩ => exact (rhs2_0 _ _).trans (contrEquiv1_symm_val _ 256 rfl rfl k)
  | ⟨1, _⟩ => exact rhs2_1 _ _

/-- The second layer's product at (e, o) is the sum over the 256 hidden units. -/
theorem dot2_apply (h : FVec Ideal S500000x256 .f32) (W2 : FVec Ideal S256x2 .f32) (e : Fin 500000) (o : Fin 2) :
    Host.dotGeneral (F := Ideal) dot_S500000x256_S256x2_S500000x2_1_0_0_1_n_n none h W2 (ix2 e o)
      = ∑ k : Fin 256, h (ix2 e k) * W2 (ix2 k o) := by
  simp only [Host.dotGeneral]
  rw [Ideal.dotGeneral_apply,
    ← Equiv.sum_comp (contrEquiv1 dot_S500000x256_S256x2_S500000x2_1_0_0_1_n_n 256 rfl rfl).symm]
  exact Finset.sum_congr rfl fun k _ => by rw [lhs2_ix, rhs2_ix]

/-! ## The layers -/

/-- Hidden unit k of row e, for any feature vector g that row e of the feature matrix spells. -/
theorem hiddenT_apply (f : FVec Ideal S500000x519 .f32) (W1 : FVec Ideal S519x256 .f32) (b1 : FVec Ideal S256 .f32)
    (e : Fin 500000) (k : Fin 256) (g : ℕ → EReal) (hg : ∀ j : Fin 519, f (ix2 e j) = g j.val) :
    hiddenT (F := Ideal) f W1 b1 (ix2 e k)
      = EdgeHead.hidden 519 g (fun j k' => W1 (ix2 j k')) (fun k' => b1 (ix1 k')) k := by
  unfold hiddenT
  rw [maximumf_apply, addf_apply, dot1_apply, broadcastInDim_scalar_apply, constant_apply, Ideal.ofBits_zero_f32,
    broadcastInDim_apply (![0, 1] : Fin 2 → Fin S500000x256.rank) bcast_S1x256_S500000x256_0_1 _ (ix2 e k) (ix2 (0 : Fin 1) k)
      (by intro a; match a with | ⟨0, _⟩ => rfl | ⟨1, _⟩ => rfl),
    broadcastInDim_apply (![1] : Fin 1 → Fin S1x256.rank) bcast_S256_S1x256_1 b1 (ix2 (0 : Fin 1) k) (ix1 k)
      (by intro a; match a with | ⟨0, _⟩ => rfl)]
  have hs : (∑ j : Fin 519, f (ix2 e j) * W1 (ix2 j k)) = ∑ j : Fin 519, g j.val * W1 (ix2 j k) :=
    Finset.sum_congr rfl fun j _ => by rw [hg j]
  rw [hs]
  rfl

/-- Output o of row e before the softplus, for any hidden vector H that row e of the hidden matrix spells. -/
theorem preT_apply (h : FVec Ideal S500000x256 .f32) (W2 : FVec Ideal S256x2 .f32) (b2 : FVec Ideal S2 .f32)
    (e : Fin 500000) (o : Fin 2) (H : Fin 256 → EReal) (hH : ∀ k : Fin 256, h (ix2 e k) = H k) :
    preT (F := Ideal) h W2 b2 (ix2 e o) = (∑ k : Fin 256, H k * W2 (ix2 k o)) + b2 (ix1 o) := by
  unfold preT
  rw [addf_apply, dot2_apply,
    broadcastInDim_apply (![0, 1] : Fin 2 → Fin S500000x2.rank) bcast_S1x2_S500000x2_0_1 _ (ix2 e o) (ix2 (0 : Fin 1) o)
      (by intro a; match a with | ⟨0, _⟩ => rfl | ⟨1, _⟩ => rfl),
    broadcastInDim_apply (![1] : Fin 1 → Fin S1x2.rank) bcast_S2_S1x2_1 b2 (ix2 (0 : Fin 1) o) (ix1 o)
      (by intro a; match a with | ⟨0, _⟩ => rfl)]
  have hs : (∑ k : Fin 256, h (ix2 e k) * W2 (ix2 k o)) = ∑ k : Fin 256, H k * W2 (ix2 k o) :=
    Finset.sum_congr rfl fun k _ => by rw [hH k]
  rw [hs]

theorem zeroT_apply (i : S500000x2.Idx) : zeroT (F := Ideal) i = 0 := by
  unfold zeroT
  rw [broadcastInDim_scalar_apply, constant_apply, Ideal.ofBits_zero_f32]

/-- No extended real differs from itself. -/
theorem cmp_une_self (d : EReal) : Ideal.cmp .une d d = 0#1 := by
  simp [Ideal.cmp]

/-- The reference's softplus at an index: its guard compares y - 0 with itself, so the second branch is taken. -/
theorem softplusT_apply (y : FVec Ideal S500000x2 .f32) (i : S500000x2.Idx) :
    softplusT (F := Ideal) y i = EdgeHead.softplus (y i) := by
  unfold softplusT
  rw [select_apply, cmpf_apply, Ideal.cmpf_def, cmp_une_self, select_zero]
  show max (y i) (zeroT (F := Ideal) i)
      + Ideal.log1p (Ideal.exp (-(max (y i - zeroT (F := Ideal) i) (-(y i - zeroT (F := Ideal) i))))) = _
  rw [zeroT_apply]
  rfl

/-! ## The whole reference -/

/-- Entry (e, o) of the reference's result is the score of edge e's two endpoint rows, when every index word names a node. -/
theorem refTerm_apply (z : FVec Ideal S100000x128 .f32) (ei : IVec S2x500000 32) (ex : FVec Ideal S500000x5 .f32)
    (W1 : FVec Ideal S519x256 .f32) (b1 : FVec Ideal S256 .f32) (W2 : FVec Ideal S256x2 .f32) (b2 : FVec Ideal S2 .f32)
    (hr : ∀ (r : Fin 2) (e : Fin 500000), EdgeHead.InRange (ei (ix2 r e))) (e : Fin 500000) (o : Fin 2) :
    refTerm (F := Ideal) z ei ex W1 b1 W2 b2 (ix2 e o) = EdgeHead.G z ei ex W1 b1 W2 b2 e o := by
  have ha : ∀ q : Fin 128, takeT (F := Ideal) z (idxRow0 ei) (ix2 e q) = EdgeHead.nodeRow z (ei (ix2 (0 : Fin 2) e)) q :=
    fun q => by rw [takeT_apply z (idxRow0 ei) e q (by rw [idxRow0_apply]; exact hr 0 e), idxRow0_apply]
  have hb : ∀ q : Fin 128, takeT (F := Ideal) z (idxRow1 ei) (ix2 e q) = EdgeHead.nodeRow z (ei (ix2 (1 : Fin 2) e)) q :=
    fun q => by rw [takeT_apply z (idxRow1 ei) e q (by rw [idxRow1_apply]; exact hr 1 e), idxRow1_apply]
  have hA : (fun q => takeT (F := Ideal) z (idxRow0 ei) (ix2 e q)) = EdgeHead.nodeRow z (ei (ix2 (0 : Fin 2) e)) := funext ha
  have hB : (fun q => takeT (F := Ideal) z (idxRow1 ei) (ix2 e q)) = EdgeHead.nodeRow z (ei (ix2 (1 : Fin 2) e)) := funext hb
  unfold refTerm EdgeHead.G EdgeHead.score EdgeHead.outv
  rw [softplusT_apply]
  refine congrArg EdgeHead.softplus ?_
  refine preT_apply _ W2 b2 e o _ fun k => ?_
  refine hiddenT_apply _ W1 b1 e k _ fun j => ?_
  rw [featT_apply, hA, hB]

end Cert.ReferenceIdeal.Hand

end
-- ==== Proof.PreRange.lean ====
/-
  The printed precondition's last conjunct says every index word lies in [0, 100000) read signed.

  The precondition is a conjunction of seven one-bit words; the last is the conjunction over all (r, e) of
  (0 ≤ ei[r, e]) ∧ (ei[r, e] < 100000), both compares signed against broadcast constants.  A conjunction of
  one-bit words that is 1 has every conjunct 1, and a signed compare that is 1 says the order of the signed readings.
-/
import proofs.«415116_j26603027432198_2_alg».proof.Proof.Gen.Pre_finite_inputs
import proofs.«415116_j26603027432198_2_alg».proof.Proof.Spec
import Idealize.ShloMosaic.Lib.ReduceAll
import Idealize.ShloMosaic.Lib.Affine
import Idealize.ShloMosaic.Lib.StableHlo.Predicate
import Idealize.ShloMosaic.Lib.ValueIdx

noncomputable section

namespace Cert.Pre_finite_inputs.Hand

open Cert.Pre_finite_inputs Idealize.ShloMosaic Idealize.ShloMosaic.ValueIdx

/-- The rank-0 shape has one index. -/
instance : Subsingleton S_.Idx := ⟨fun a b => funext fun d => d.elim0⟩

/-- A word at least 0 and below 100000, both read signed, is a node id. -/
theorem inRange_of_cmp (w : BitVec 32) (h0 : IntOp.cmpi .sge w (0#32) = 1#1) (h1 : IntOp.cmpi .slt w (100000#32) = 1#1) :
    EdgeHead.InRange w := by
  have a := IntOp.cmpi_sge.1 h0
  have b := IntOp.cmpi_slt.1 h1
  have e0 : (0#32 : BitVec 32).toInt = 0 := by decide
  have e1 : (100000#32 : BitVec 32).toInt = 100000 := by decide
  rw [e0] at a
  rw [e1] at b
  exact ⟨a, b⟩

/-- Every index word the precondition admits is a node id. -/
theorem inRange_of_pre (z : FVec Ideal S100000x128 .f32) (ei : IVec S2x500000 32) (ex : FVec Ideal S500000x5 .f32)
    (W1 : FVec Ideal S519x256 .f32) (b1 : FVec Ideal S256 .f32) (W2 : FVec Ideal S256x2 .f32) (b2 : FVec Ideal S2 .f32)
    (h : Cert.Pre_finite_inputs.fn (F := Ideal) z ei ex W1 b1 W2 b2 = fun _ => 1#1) (r : Fin 2) (e : Fin 500000) :
    EdgeHead.InRange (ei (ix2 r e)) := by
  have h0 := congrFun h ix0
  dsimp only [fn, fn_part1, fn_part2] at h0
  have h1 := (IntOp.andi_eq_one.1 h0).2
  have h2 := Host.reduce_andi_all _ _ _ _ _ h1 (ix2 r e)
  have h3 := IntOp.andi_eq_one.1 h2
  exact inRange_of_cmp _ h3.1 h3.2

end Cert.Pre_finite_inputs.Hand

end
-- ==== Proof.lean ====
/-
  The certificate.  Under the precondition (every float input finite; every word of the edge table a node id, 0 ≤ w < 100000)
  the kernel's program and the reference compute, at the ideal instance, the same array: entry (e, o) is the two-layer
  perceptron's score of edge e (the specification, EdgeHead.G).

  The kernel's side: the pallas_call streams 489 blocks of 1024 edges; its body computes the score with the 519 features
  padded to 640 lanes and the first layer's weights padded with zero rows, which is the same contraction because the
  padded features are 0; the host operations before it clamp the index words (the identity on node ids), gather the rows,
  pad the edge axis to 500736, and the one after it drops the padding rows.
  The reference's side: a straight line of host operations, the same formulas on 519 features.
  The frames of the two kernel programs hold for every input; the reference's frame is its run with the result dropped.
  The ideal pass rewrote nothing, so there is nothing to preserve.
-/
import proofs.«415116_j26603027432198_2_alg».proof.Defs
import proofs.«415116_j26603027432198_2_alg».proof.Proof.Gen.Kernel
import proofs.«415116_j26603027432198_2_alg».proof.Proof.Gen.Kernel.Skeleton
import proofs.«415116_j26603027432198_2_alg».proof.Proof.Gen.Kernel.Launch
import proofs.«415116_j26603027432198_2_alg».proof.Proof.Gen.Kernel.Points
import proofs.«415116_j26603027432198_2_alg».proof.Proof.Gen.Kernel.Frame
import proofs.«415116_j26603027432198_2_alg».proof.Proof.Gen.KernelIdeal
import proofs.«415116_j26603027432198_2_alg».proof.Proof.Gen.KernelIdeal.Skeleton
import proofs.«415116_j26603027432198_2_alg».proof.Proof.Gen.KernelIdeal.Launch
import proofs.«415116_j26603027432198_2_alg».proof.Proof.Gen.KernelIdeal.Points
import proofs.«415116_j26603027432198_2_alg».proof.Proof.Gen.KernelIdeal.Frame
import proofs.«415116_j26603027432198_2_alg».proof.Proof.Gen.ReferenceIdeal
import proofs.«415116_j26603027432198_2_alg».proof.Proof.Gen.Pre_finite_inputs
import proofs.«415116_j26603027432198_2_alg».proof.Proof.KerRun
import proofs.«415116_j26603027432198_2_alg».proof.Proof.RefRun
import proofs.«415116_j26603027432198_2_alg».proof.Proof.RefValue
import proofs.«415116_j26603027432198_2_alg».proof.Proof.PreRange
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both programs end with the specification's result array. -/
theorem algebraic : Cert.algebraic_KernelIdeal_ReferenceIdeal := by
  intro m ρ m' ρ' hpre hagree
  have hr : ∀ c, Cert.KernelIdeal.Hand.IdxOk m c := fun c r e =>
    Cert.Pre_finite_inputs.Hand.inRange_of_pre _ _ _ _ _ _ _ (hpre c) r e
  refine ⟨_, Cert.KernelIdeal.Hand.run_value m ρ hr, ?_⟩
  refine (θ_run Cert.ReferenceIdeal.defs _ _).mono (fun _ h c => ⟨(h c).1.trans ?_, (h c).2⟩)
    (Cert.ReferenceIdeal.Hand.run (F := Ideal) m' ρ')
  obtain ⟨a0, a1, a2, a3, a4, a5, a6⟩ := hagree c
  rw [a0, a1, a2, a3, a4, a5, a6]
  funext i
  obtain ⟨e, o, rfl⟩ : ∃ (e : Fin 500000) (o : Fin 2), i = ix2 e o := ⟨i 0, i 1, eq_ix2 i⟩
  exact Cert.ReferenceIdeal.Hand.refTerm_apply _ _ _ _ _ _ _ (hr c) e o

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
